-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1200000 : Shape := ⟨2, ![2, 1200000]⟩
abbrev S256x64 : Shape := ⟨2, ![256, 64]⟩
abbrev S64 : Shape := ⟨1, ![64]⟩
abbrev S64x47 : Shape := ⟨2, ![64, 47]⟩
abbrev S47 : Shape := ⟨1, ![47]⟩
abbrev S_ : Shape := ⟨0, ![]⟩
abbrev S1x1200000 : Shape := ⟨2, ![1, 1200000]⟩
abbrev S1200000 : Shape := ⟨1, ![1200000]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x47 : S_.BroadcastsInDim S64x47 (![] : Fin 0 → Fin S64x47.rank)
  reducesTo_S64x47_S_d0_1 : S64x47.ReducesTo [0, 1] S_
  bcast_S_S47 : S_.BroadcastsInDim S47 (![] : Fin 0 → Fin S47.rank)
  reducesTo_S47_S_d0 : S47.ReducesTo [0] S_
  slices_S2x1200000_S1x1200000_0_0 : S2x1200000.Slices ![0, 0] S1x1200000
  shapeCasts_S1x1200000_S1200000 : S1x1200000.ShapeCasts S1200000
  bcast_S_S1200000 : S_.BroadcastsInDim S1200000 (![] : Fin 0 → Fin S1200000.rank)
  reducesTo_S1200000_S_d0 : S1200000.ReducesTo [0] S_

variable [Facts]

def fn_part2 {F : FTy → Type} [FloatOps F] (main_v29 : IVec S_ 1) (main_v33 : IVec S1200000 1) (main_c_11 : IVec S_ 1) : IVec S_ 1 :=
  let main_v34 : IVec S_ 1 := (fun x v => Host.reduce IntOp.andi x v reducesTo_S1200000_S_d0 h_S_) main_v33 main_c_11
  let main_v35 : IVec S_ 1 := andi main_v29 main_v34
  main_v35

def fn_part1 {F : FTy → Type} [FloatOps F] (main_arg1 : IVec S2x1200000 32) (main_arg5 : FVec F S47 .f32) (main_v13 : IVec S_ 1) (main_v16 : IVec S64x47 1) : IVec S_ 1 :=
  let main_c_5 : IVec S_ 1 := constantI S_ 1 1#1
  let main_v17 : IVec S_ 1 := (fun x v => Host.reduce IntOp.andi x v reducesTo_S64x47_S_d0_1 h_S_) main_v16 main_c_5
  let main_v18 : IVec S_ 1 := andi main_v13 main_v17
  let main_v19 : FVec F S47 .f32 := Host.absf main_arg5
  let main_cst_6 : FVec F S_ .f32 := constant S_ .f32 0x7F800000#32
  let main_v20 : FVec F S47 .f32 := broadcastInDim S47 ![] bcast_S_S47 main_cst_6
  let main_v21 : IVec S47 1 := cmpf .olt main_v19 main_v20
  let main_c_7 : IVec S_ 1 := constantI S_ 1 1#1
  let main_v22 : IVec S_ 1 := (fun x v => Host.reduce IntOp.andi x v reducesTo_S47_S_d0 h_S_) main_v21 main_c_7
  let main_v23 : IVec S_ 1 := andi main_v18 main_v22
  let main_v24 : IVec S1x1200000 32 := (extractStridedSlice S1x1200000 ![0, 0] · slices_S2x1200000_S1x1200000_0_0) main_arg1
  let main_v25 : IVec S1200000 32 := shapeCast S1200000 main_v24 shapeCasts_S1x1200000_S1200000
  let main_c_8 : IVec S_ 32 := constantI S_ 32 0#32
  let main_v26 : IVec S1200000 32 := broadcastInDim S1200000 ![] bcast_S_S1200000 main_c_8
  let main_v27 : IVec S1200000 1 := cmpi .sge main_v25 main_v26
  let main_c_9 : IVec S_ 1 := constantI S_ 1 1#1
  let main_v28 : IVec S_ 1 := (fun x v => Host.reduce IntOp.andi x v reducesTo_S1200000_S_d0 h_S_) main_v27 main_c_9
  let main_v29 : IVec S_ 1 := andi main_v23 main_v28
  let main_v30 : IVec S1x1200000 32 := (extractStridedSlice S1x1200000 ![0, 0] · slices_S2x1200000_S1x1200000_0_0) main_arg1
  let main_v31 : IVec S1200000 32 := shapeCast S1200000 main_v30 shapeCasts_S1x1200000_S1200000
  let main_c_10 : IVec S_ 32 := constantI S_ 32 100000#32
  let main_v32 : IVec S1200000 32 := broadcastInDim S1200000 ![] bcast_S_S1200000 main_c_10
  let main_v33 : IVec S1200000 1 := cmpi .slt main_v31 main_v32
  let main_c_11 : IVec S_ 1 := constantI S_ 1 1#1
  fn_part2 (F := F) main_v29 main_v33 main_c_11

def fn {F : FTy → Type} [FloatOps F] (main_arg0 : FVec F S100000x256 .f32) (main_arg1 : IVec S2x1200000 32) (main_arg2 : FVec F S256x64 .f32) (main_arg3 : FVec F S64 .f32) (main_arg4 : FVec F S64x47 .f32) (main_arg5 : FVec F S47 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x47 .f32 := Host.absf main_arg4
  let main_cst_4 : FVec F S_ .f32 := constant S_ .f32 0x7F800000#32
  let main_v15 : FVec F S64x47 .f32 := broadcastInDim S64x47 ![] bcast_S_S64x47 main_cst_4
  let main_v16 : IVec S64x47 1 := cmpf .olt main_v14 main_v15
  fn_part1 (F := F) main_arg1 main_arg5 main_v13 main_v16
-- ==== Kernel.lean ====
abbrev S100000x256 : Shape := ⟨2, ![100000, 256]⟩
abbrev S2x1200000 : Shape := ⟨2, ![2, 1200000]⟩
abbrev S256x64 : Shape := ⟨2, ![256, 64]⟩
abbrev S64 : Shape := ⟨1, ![64]⟩
abbrev S64x47 : Shape := ⟨2, ![64, 47]⟩
abbrev S47 : Shape := ⟨1, ![47]⟩
abbrev S1x1200000 : Shape := ⟨2, ![1, 1200000]⟩
abbrev S1200000 : Shape := ⟨1, ![1200000]⟩
abbrev S100000 : Shape := ⟨1, ![100000]⟩
abbrev S1300000 : Shape := ⟨1, ![1300000]⟩
abbrev S_ : Shape := ⟨0, ![]⟩
abbrev S1300000x1 : Shape := ⟨2, ![1300000, 1]⟩
abbrev S100000x1 : Shape := ⟨2, ![100000, 1]⟩
abbrev S100000x64 : Shape := ⟨2, ![100000, 64]⟩
abbrev S5000x256 : Shape := ⟨2, ![5000, 256]⟩
abbrev S5000x1 : Shape := ⟨2, ![5000, 1]⟩
abbrev S5000x64 : Shape := ⟨2, ![5000, 64]⟩
abbrev S1 : Shape := ⟨1, ![1]⟩
abbrev S1x1 : Shape := ⟨2, ![1, 1]⟩
abbrev S1300000x64 : Shape := ⟨2, ![1300000, 64]⟩
abbrev S1x64 : Shape := ⟨2, ![1, 64]⟩
abbrev S100000x47 : Shape := ⟨2, ![100000, 47]⟩
abbrev S5000x47 : Shape := ⟨2, ![5000, 47]⟩
abbrev S1300000x47 : Shape := ⟨2, ![1300000, 47]⟩
abbrev S1x47 : Shape := ⟨2, ![1, 47]⟩
abbrev S5000 : Shape := ⟨1, ![5000]⟩

abbrev nBuf : Space → Nat
  | .hbm => 90
  | .vmem => 22
  | .smem => 0
  | _ => 0

abbrev bufTy : (tb : Table) → Fin (tcTables nBuf tb) → BufTy
  | .hbm, ⟨0, _⟩ => ⟨S100000x256, .f32⟩
  | .hbm, ⟨1, _⟩ => ⟨S2x1200000, .i32⟩
  | .hbm, ⟨2, _⟩ => ⟨S256x64, .f32⟩
  | .hbm, ⟨3, _⟩ => ⟨S64, .f32⟩
  | .hbm, ⟨4, _⟩ => ⟨S64x47, .f32⟩
  | .hbm, ⟨5, _⟩ => ⟨S47, .f32⟩
  | .hbm, ⟨6, _⟩ => ⟨S1x1200000, .i32⟩
  | .hbm, ⟨7, _⟩ => ⟨S1200000, .i32⟩
  | .hbm, ⟨8, _⟩ => ⟨S100000, .i32⟩
  | .hbm, ⟨9, _⟩ => ⟨S1300000, .i32⟩
  | .hbm, ⟨10, _⟩ => ⟨S1x1200000, .i32⟩
  | .hbm, ⟨11, _⟩ => ⟨S1200000, .i32⟩
  | .hbm, ⟨12, _⟩ => ⟨S100000, .i32⟩
  | .hbm, ⟨13, _⟩ => ⟨S1300000, .i32⟩
  | .hbm, ⟨14, _⟩ => ⟨S_, .f32⟩
  | .hbm, ⟨15, _⟩ => ⟨S1300000, .f32⟩
  | .hbm, ⟨16, _⟩ => ⟨S_, .f32⟩
  | .hbm, ⟨17, _⟩ => ⟨S100000, .f32⟩
  | .hbm, ⟨18, _⟩ => ⟨S1300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S256x64, .bf16⟩
  | .hbm, ⟨30, _⟩ => ⟨S100000x64, .f32⟩
  | .hbm, ⟨31, _⟩ => ⟨S_, .i32⟩
  | .hbm, ⟨32, _⟩ => ⟨S1300000, .i32⟩
  | .hbm, ⟨33, _⟩ => ⟨S1300000, .i1⟩
  | .hbm, ⟨34, _⟩ => ⟨S_, .i32⟩
  | .hbm, ⟨35, _⟩ => ⟨S1300000, .i32⟩
  | .hbm, ⟨36, _⟩ => ⟨S1300000, .i32⟩
  | .hbm, ⟨37, _⟩ => ⟨S1300000, .i32⟩
  | .hbm, ⟨38, _⟩ => ⟨S1300000x1, .i32⟩
  | .hbm, ⟨39, _⟩ => ⟨S1, .i32⟩
  | .hbm, ⟨40, _⟩ => ⟨S_, .i32⟩
  | .hbm, ⟨41, _⟩ => ⟨S1300000x1, .i32⟩
  | .hbm, ⟨42, _⟩ => ⟨S1300000x1, .i1⟩
  | .hbm, ⟨43, _⟩ => ⟨S1x1, .i32⟩
  | .hbm, ⟨44, _⟩ => ⟨S1300000x1, .i32⟩
  | .hbm, ⟨45, _⟩ => ⟨S1300000x1, .i1⟩
  | .hbm, ⟨46, _⟩ => ⟨S1300000x1, .i1⟩
  | .hbm, ⟨47, _⟩ => ⟨S_, .i1⟩
  | .hbm, ⟨48, _⟩ => ⟨S1300000, .i1⟩
  | .hbm, ⟨49, _⟩ => ⟨S1300000x64, .f32⟩
  | .hbm, ⟨50, _⟩ => ⟨S1300000x64, .i1⟩
  | .hbm, ⟨51, _⟩ => ⟨S_, .f32⟩
  | .hbm, ⟨52, _⟩ => ⟨S1300000x64, .f32⟩
  | .hbm, ⟨53, _⟩ => ⟨S1300000x64, .f32⟩
  | .hbm, ⟨54, _⟩ => ⟨S_, .f32⟩
  | .hbm, ⟨55, _⟩ => ⟨S100000x64, .f32⟩
  | .hbm, ⟨56, _⟩ => ⟨S1300000x1, .i32⟩
  | .hbm, ⟨57, _⟩ => ⟨S100000x64, .f32⟩
  | .hbm, ⟨58, _⟩ => ⟨S1x64, .f32⟩
  | .hbm, ⟨59, _⟩ => ⟨S64x47, .bf16⟩
  | .hbm, ⟨60, _⟩ => ⟨S100000x47, .f32⟩
  | .hbm, ⟨61, _⟩ => ⟨S_, .i32⟩
  | .hbm, ⟨62, _⟩ => ⟨S1300000, .i32⟩
  | .hbm, ⟨63, _⟩ => ⟨S1300000, .i1⟩
  | .hbm, ⟨64, _⟩ => ⟨S_, .i32⟩
  | .hbm, ⟨65, _⟩ => ⟨S1300000, .i32⟩
  | .hbm, ⟨66, _⟩ => ⟨S1300000, .i32⟩
  | .hbm, ⟨67, _⟩ => ⟨S1300000, .i32⟩
  | .hbm, ⟨68, _⟩ => ⟨S1300000x1, .i32⟩
  | .hbm, ⟨69, _⟩ => ⟨S1, .i32⟩
  | .hbm, ⟨70, _⟩ => ⟨S_, .i32⟩
  | .hbm, ⟨71, _⟩ => ⟨S1300000x1, .i32⟩
  | .hbm, ⟨72, _⟩ => ⟨S1300000x1, .i1⟩
  | .hbm, ⟨73, _⟩ => ⟨S1x1, .i32⟩
  | .hbm, ⟨74, _⟩ => ⟨S1300000x1, .i32⟩
  | .hbm, ⟨75, _⟩ => ⟨S1300000x1, .i1⟩
  | .hbm, ⟨76, _⟩ => ⟨S1300000x1, .i1⟩
  | .hbm, ⟨77, _⟩ => ⟨S_, .i1⟩
  | .hbm, ⟨78, _⟩ => ⟨S1300000, .i1⟩
  | .hbm, ⟨79, _⟩ => ⟨S1300000x47, .f32⟩
  | .hbm, ⟨80, _⟩ => ⟨S1300000x47, .i1⟩
  | .hbm, ⟨81, _⟩ => ⟨S_, .f32⟩
  | .hbm, ⟨82, _⟩ => ⟨S1300000x47, .f32⟩
  | .hbm, ⟨83, _⟩ => ⟨S1300000x47, .f32⟩
  | .hbm, ⟨84, _⟩ => ⟨S_, .f32⟩
  | .hbm, ⟨85, _⟩ => ⟨S100000x47, .f32⟩
  | .hbm, ⟨86, _⟩ => ⟨S1300000x1, .i32⟩
  | .hbm, ⟨87, _⟩ => ⟨S100000x47, .f32⟩
  | .hbm, ⟨88, _⟩ => ⟨S1x47, .f32⟩
  | .hbm, ⟨89, _⟩ => ⟨S100000x47, .f32⟩
  | .local _ .vmem, ⟨0, _⟩ => ⟨S5000x256, .f32⟩
  | .local _ .vmem, ⟨1, _⟩ => ⟨S5000x256, .f32⟩
  | .local _ .vmem, ⟨2, _⟩ => ⟨S256x64, .bf16⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x47, .bf16⟩
  | .local _ .vmem, ⟨13, _⟩ => ⟨S5000x47, .f32⟩
  | .local _ .vmem, ⟨14, _⟩ => ⟨S5000x47, .f32⟩
  | .local _ .vmem, ⟨15, _⟩ => ⟨S5000x47, .f32⟩
  | .local _ .vmem, ⟨16, _⟩ => ⟨S5000x47, .f32⟩
  | .local _ .vmem, ⟨17, _⟩ => ⟨S5000x1, .f32⟩
  | .local _ .vmem, ⟨18, _⟩ => ⟨S5000x1, .f32⟩
  | .local _ .vmem, ⟨19, _⟩ => ⟨S1x47, .f32⟩
  | .local _ .vmem, ⟨20, _⟩ => ⟨S5000x47, .f32⟩
  | .local _ .vmem, ⟨21, _⟩ => ⟨S5000x47, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v19 : Ref sig .tc := ⟨.hbm, 53, rfl⟩
abbrev main_cst_3 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_call2_cst : Ref sig .tc := ⟨.hbm, 81, rfl⟩
abbrev main_call2_v15 : Ref sig .tc := ⟨.hbm, 82, rfl⟩
abbrev main_v26 : Ref sig .tc := ⟨.hbm, 83, rfl⟩
abbrev main_cst_4 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x47 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x47 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x47 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x47 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x47 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  shapeCasts_S100000_S100000x1 : S100000.ShapeCasts S100000x1
  bitsLt_bf16_f32 : FTy.bits .bf16 < FTy.bits .f32
  inb_S5000x256_S5000x256_0_0 : ∀ a, (![0, 0] : Fin 2 → Nat) a + S5000x256.size a ≤ S5000x256.size a
  h_S5000x256 : 0 < S5000x256.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S1300000x1 : S_.BroadcastsInDim S1300000x1 (![] : Fin 0 → Fin S1300000x1.rank)
  bcast_S1_S1x1_1 : S1.BroadcastsInDim S1x1 (![1] : Fin 1 → Fin S1x1.rank)
  bcast_S1x1_S1300000x1_0_1 : S1x1.BroadcastsInDim S1300000x1 (![0, 1] : Fin 2 → Fin S1300000x1.rank)
  reducesTo_S1300000x1_S1300000_d1 : S1300000x1.ReducesTo [1] S1300000
  h_S_ : 0 < S_.numel
  bcast_S1300000_S1300000x64_0 : S1300000.BroadcastsInDim S1300000x64 (![0] : Fin 1 → Fin S1300000x64.rank)
  bcast_S_S1300000x64 : S_.BroadcastsInDim S1300000x64 (![] : Fin 0 → Fin S1300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x47_S64x47_0_0 : ∀ a, (![0, 0] : Fin 2 → Nat) a + S64x47.size a ≤ S64x47.size a
  h_S64x47 : 0 < S64x47.numel
  shapeCasts_S64x47_S64x47 : S64x47.ShapeCasts S64x47
  broadcasts_S5000x1_S5000x47 : S5000x1.Broadcasts S5000x47
  inb_S5000x47_S5000x47_0_0 : ∀ a, (![0, 0] : Fin 2 → Nat) a + S5000x47.size a ≤ S5000x47.size a
  h_S5000x47 : 0 < S5000x47.numel
  bcast_S1300000_S1300000x47_0 : S1300000.BroadcastsInDim S1300000x47 (![0] : Fin 1 → Fin S1300000x47.rank)
  bcast_S_S1300000x47 : S_.BroadcastsInDim S1300000x47 (![] : Fin 0 → Fin S1300000x47.rank)
  bcast_S_S100000x47 : S_.BroadcastsInDim S100000x47 (![] : Fin 0 → Fin S100000x47.rank)
  shapeCasts_S47_S1x47 : S47.ShapeCasts S1x47
  shapeCasts_S5000x47_S5000x47 : S5000x47.ShapeCasts S5000x47
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S5000x47 : S1x47.Broadcasts S5000x47
  reduces_S5000x47_S5000 : S5000x47.Reduces [1] S5000
  shapeCasts_S5000_S5000x1 : S5000.ShapeCasts S5000x1
  scatter_S100000_S1300000x1_S1300000_n_0_0_1_wf : ScatterDims.WF S100000 S1300000x1 S1300000 [] [0] [0] 1
  dot_S5000x256_S256x64_S5000x64_1_0_0_1_n_n_wf : DotDims.WF S5000x256 S256x64 S5000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S5000x64_S64x47_S5000x47_1_0_0_1_n_n_wf : DotDims.WF S5000x64 S64x47 S5000x47 [1] [0] [0] [1] [] []
  gather_S100000x47_S1300000x1_S1300000x47_1_0_n_n_0_1_147_wf : GatherDims.WF S100000x47 S1300000x1 S1300000x47 [1] [0] [] [0] [] 1 ![1, 47]
  scatter_S100000x47_S1300000x1_S1300000x47_1_0_0_1_wf : ScatterDims.WF S100000x47 S1300000x1 S1300000x47 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .bf16 = 32 ∨ (Rect.block (s := S256x64) S256x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x47.size a ≤ S64x47.size a
  hwx1_3 : ∀ i : grid1.Coords, EltTy.bits .bf16 = 32 ∨ (Rect.block (s := S64x47) S64x47.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x47.size a ≤ S100000x47.size a
  hwx1_4 : ∀ i : grid1.Coords, EltTy.bits .f32 = 32 ∨ (Rect.block (s := S100000x47) S5000x47.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x47.size a ≤ S100000x47.size a
  hwx2_0 : ∀ i : grid2.Coords, EltTy.bits .f32 = 32 ∨ (Rect.block (s := S100000x47) S5000x47.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x47.size a ≤ S1x47.size a
  hwx2_2 : ∀ i : grid2.Coords, EltTy.bits .f32 = 32 ∨ (Rect.block (s := S1x47) S1x47.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x47.size a ≤ S100000x47.size a
  hwx2_3 : ∀ i : grid2.Coords, EltTy.bits .f32 = 32 ∨ (Rect.block (s := S100000x47) S5000x47.size (cc2_transform_3 i) (hinb2_3 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S5000x64_S64x47_S5000x47_1_0_0_1_n_n : DotDims S5000x64 S64x47 S5000x47 where
  lhsContracting := [1]
  rhsContracting := [0]
  lhsNonContracting := [0]
  rhsNonContracting := [1]
  lhsBatch := []
  rhsBatch := []
  wf := dot_S5000x64_S64x47_S5000x47_1_0_0_1_n_n_wf
def gather_S100000x47_S1300000x1_S1300000x47_1_0_n_n_0_1_147 : GatherDims S100000x47 S1300000x1 S1300000x47 where
  offsetDims := [1]
  collapsedSliceDims := [0]
  operandBatchingDims := []
  startIndicesBatchingDims := []
  startIndexMap := [0]
  indexVectorDim := 1
  sliceSizes := ![1, 47]
  wf := gather_S100000x47_S1300000x1_S1300000x47_1_0_n_n_0_1_147_wf
def scatter_S100000x47_S1300000x1_S1300000x47_1_0_0_1 : ScatterDims S100000x47 S1300000x1 S1300000x47 where
  updateWindowDims := [1]
  insertedWindowDims := [0]
  scatterDimsToOperandDims := [0]
  indexVectorDim := 1
  wf := scatter_S100000x47_S1300000x1_S1300000x47_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S64x47.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S5000x47.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v29) S5000x47.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S5000x47.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1200000 : Shape := ⟨2, ![2, 1200000]⟩
abbrev S256x64 : Shape := ⟨2, ![256, 64]⟩
abbrev S64 : Shape := ⟨1, ![64]⟩
abbrev S64x47 : Shape := ⟨2, ![64, 47]⟩
abbrev S47 : Shape := ⟨1, ![47]⟩
abbrev S1x1200000 : Shape := ⟨2, ![1, 1200000]⟩
abbrev S1200000 : Shape := ⟨1, ![1200000]⟩
abbrev S100000 : Shape := ⟨1, ![100000]⟩
abbrev S1300000 : Shape := ⟨1, ![1300000]⟩
abbrev S_ : Shape := ⟨0, ![]⟩
abbrev S1300000x1 : Shape := ⟨2, ![1300000, 1]⟩
abbrev S100000x64 : Shape := ⟨2, ![100000, 64]⟩
abbrev S1300000x64 : Shape := ⟨2, ![1300000, 64]⟩
abbrev S1x64 : Shape := ⟨2, ![1, 64]⟩
abbrev S100000x47 : Shape := ⟨2, ![100000, 47]⟩
abbrev S1300000x47 : Shape := ⟨2, ![1300000, 47]⟩
abbrev S1x47 : Shape := ⟨2, ![1, 47]⟩
abbrev S100000x1 : Shape := ⟨2, ![100000, 1]⟩

abbrev nBuf : Space → Nat
  | .hbm => 105
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1200000, .i32⟩
  | .hbm, ⟨2, _⟩ => ⟨S256x64, .f32⟩
  | .hbm, ⟨3, _⟩ => ⟨S64, .f32⟩
  | .hbm, ⟨4, _⟩ => ⟨S64x47, .f32⟩
  | .hbm, ⟨5, _⟩ => ⟨S47, .f32⟩
  | .hbm, ⟨6, _⟩ => ⟨S1x1200000, .i32⟩
  | .hbm, ⟨7, _⟩ => ⟨S1200000, .i32⟩
  | .hbm, ⟨8, _⟩ => ⟨S100000, .i32⟩
  | .hbm, ⟨9, _⟩ => ⟨S1300000, .i32⟩
  | .hbm, ⟨10, _⟩ => ⟨S1x1200000, .i32⟩
  | .hbm, ⟨11, _⟩ => ⟨S1200000, .i32⟩
  | .hbm, ⟨12, _⟩ => ⟨S100000, .i32⟩
  | .hbm, ⟨13, _⟩ => ⟨S1300000, .i32⟩
  | .hbm, ⟨14, _⟩ => ⟨S_, .f32⟩
  | .hbm, ⟨15, _⟩ => ⟨S1300000, .f32⟩
  | .hbm, ⟨16, _⟩ => ⟨S_, .f32⟩
  | .hbm, ⟨17, _⟩ => ⟨S100000, .f32⟩
  | .hbm, ⟨18, _⟩ => ⟨S1300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1300000, .i32⟩
  | .hbm, ⟨30, _⟩ => ⟨S1300000, .i1⟩
  | .hbm, ⟨31, _⟩ => ⟨S_, .i32⟩
  | .hbm, ⟨32, _⟩ => ⟨S1300000, .i32⟩
  | .hbm, ⟨33, _⟩ => ⟨S1300000, .i32⟩
  | .hbm, ⟨34, _⟩ => ⟨S1300000, .i32⟩
  | .hbm, ⟨35, _⟩ => ⟨S1300000x1, .i32⟩
  | .hbm, ⟨36, _⟩ => ⟨S1300000, .f32⟩
  | .hbm, ⟨37, _⟩ => ⟨S_, .i32⟩
  | .hbm, ⟨38, _⟩ => ⟨S1300000, .i32⟩
  | .hbm, ⟨39, _⟩ => ⟨S1300000, .i1⟩
  | .hbm, ⟨40, _⟩ => ⟨S_, .i32⟩
  | .hbm, ⟨41, _⟩ => ⟨S1300000, .i32⟩
  | .hbm, ⟨42, _⟩ => ⟨S1300000, .i32⟩
  | .hbm, ⟨43, _⟩ => ⟨S1300000, .i32⟩
  | .hbm, ⟨44, _⟩ => ⟨S1300000x1, .i32⟩
  | .hbm, ⟨45, _⟩ => ⟨S1300000, .f32⟩
  | .hbm, ⟨46, _⟩ => ⟨S1300000, .f32⟩
  | .hbm, ⟨47, _⟩ => ⟨S100000x64, .f32⟩
  | .hbm, ⟨48, _⟩ => ⟨S_, .i32⟩
  | .hbm, ⟨49, _⟩ => ⟨S1300000, .i32⟩
  | .hbm, ⟨50, _⟩ => ⟨S1300000, .i1⟩
  | .hbm, ⟨51, _⟩ => ⟨S_, .i32⟩
  | .hbm, ⟨52, _⟩ => ⟨S1300000, .i32⟩
  | .hbm, ⟨53, _⟩ => ⟨S1300000, .i32⟩
  | .hbm, ⟨54, _⟩ => ⟨S1300000, .i32⟩
  | .hbm, ⟨55, _⟩ => ⟨S1300000x1, .i32⟩
  | .hbm, ⟨56, _⟩ => ⟨S1300000x64, .f32⟩
  | .hbm, ⟨57, _⟩ => ⟨S1300000x1, .f32⟩
  | .hbm, ⟨58, _⟩ => ⟨S1300000x64, .f32⟩
  | .hbm, ⟨59, _⟩ => ⟨S1300000x64, .f32⟩
  | .hbm, ⟨60, _⟩ => ⟨S_, .f32⟩
  | .hbm, ⟨61, _⟩ => ⟨S100000x64, .f32⟩
  | .hbm, ⟨62, _⟩ => ⟨S1300000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S100000x64, .f32⟩
  | .hbm, ⟨69, _⟩ => ⟨S100000x64, .f32⟩
  | .hbm, ⟨70, _⟩ => ⟨S100000x47, .f32⟩
  | .hbm, ⟨71, _⟩ => ⟨S_, .i32⟩
  | .hbm, ⟨72, _⟩ => ⟨S1300000, .i32⟩
  | .hbm, ⟨73, _⟩ => ⟨S1300000, .i1⟩
  | .hbm, ⟨74, _⟩ => ⟨S_, .i32⟩
  | .hbm, ⟨75, _⟩ => ⟨S1300000, .i32⟩
  | .hbm, ⟨76, _⟩ => ⟨S1300000, .i32⟩
  | .hbm, ⟨77, _⟩ => ⟨S1300000, .i32⟩
  | .hbm, ⟨78, _⟩ => ⟨S1300000x1, .i32⟩
  | .hbm, ⟨79, _⟩ => ⟨S1300000x47, .f32⟩
  | .hbm, ⟨80, _⟩ => ⟨S1300000x1, .f32⟩
  | .hbm, ⟨81, _⟩ => ⟨S1300000x47, .f32⟩
  | .hbm, ⟨82, _⟩ => ⟨S1300000x47, .f32⟩
  | .hbm, ⟨83, _⟩ => ⟨S_, .f32⟩
  | .hbm, ⟨84, _⟩ => ⟨S100000x47, .f32⟩
  | .hbm, ⟨85, _⟩ => ⟨S1300000x1, .i32⟩
  | .hbm, ⟨86, _⟩ => ⟨S100000x47, .f32⟩
  | .hbm, ⟨87, _⟩ => ⟨S1x47, .f32⟩
  | .hbm, ⟨88, _⟩ => ⟨S100000x47, .f32⟩
  | .hbm, ⟨89, _⟩ => ⟨S100000x47, .f32⟩
  | .hbm, ⟨90, _⟩ => ⟨S_, .f32⟩
  | .hbm, ⟨91, _⟩ => ⟨S100000, .f32⟩
  | .hbm, ⟨92, _⟩ => ⟨S_, .f32⟩
  | .hbm, ⟨93, _⟩ => ⟨S100000, .f32⟩
  | .hbm, ⟨94, _⟩ => ⟨S100000, .f32⟩
  | .hbm, ⟨95, _⟩ => ⟨S100000x1, .f32⟩
  | .hbm, ⟨96, _⟩ => ⟨S100000x47, .f32⟩
  | .hbm, ⟨97, _⟩ => ⟨S100000x47, .f32⟩
  | .hbm, ⟨98, _⟩ => ⟨S100000x47, .f32⟩
  | .hbm, ⟨99, _⟩ => ⟨S_, .f32⟩
  | .hbm, ⟨100, _⟩ => ⟨S100000, .f32⟩
  | .hbm, ⟨101, _⟩ => ⟨S100000x1, .f32⟩
  | .hbm, ⟨102, _⟩ => ⟨S100000x1, .f32⟩
  | .hbm, ⟨103, _⟩ => ⟨S100000x47, .f32⟩
  | .hbm, ⟨104, _⟩ => ⟨S100000x47, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_call2_cst : Ref sig .tc := ⟨.hbm, 90, rfl⟩
abbrev main_call2_v0 : Ref sig .tc := ⟨.hbm, 91, rfl⟩
abbrev main_call2_cst_0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_v6 : Ref sig .tc := ⟨.hbm, 98, rfl⟩
abbrev main_call2_cst_1 : Ref sig .tc := ⟨.hbm, 99, rfl⟩
abbrev main_call2_v7 : Ref sig .tc := ⟨.hbm, 100, rfl⟩
abbrev main_call2_v8 : Ref sig .tc := ⟨.hbm, 101, rfl⟩
abbrev main_call2_v9 : Ref sig .tc := ⟨.hbm, 102, rfl⟩
abbrev main_call2_v10 : Ref sig .tc := ⟨.hbm, 103, rfl⟩
abbrev main_v66 : Ref sig .tc := ⟨.hbm, 104, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1300000x1_S1300000x47_0_1 : S1300000x1.BroadcastsInDim S1300000x47 (![0, 1] : Fin 2 → Fin S1300000x47.rank)
  bcast_S_S100000x47 : S_.BroadcastsInDim S100000x47 (![] : Fin 0 → Fin S100000x47.rank)
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  reducesTo_S100000x47_S100000_d1 : S100000x47.ReducesTo [1] S100000
  h_S_ : 0 < S_.numel
  bcast_S100000_S100000x1_0 : S100000.BroadcastsInDim S100000x1 (![0] : Fin 1 → Fin S100000x1.rank)
  bcast_S100000x1_S100000x47_0_1 : S100000x1.BroadcastsInDim S100000x47 (![0, 1] : Fin 2 → Fin S100000x47.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x256_S256x64_S100000x64_1_0_0_1_n_n_wf : DotDims.WF S100000x256 S256x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x47_S100000x47_1_0_0_1_n_n_wf : DotDims.WF S100000x64 S64x47 S100000x47 [1] [0] [0] [1] [] []
  gather_S100000x47_S1300000x1_S1300000x47_1_0_n_n_0_1_147_wf : GatherDims.WF S100000x47 S1300000x1 S1300000x47 [1] [0] [] [0] [] 1 ![1, 47]
  scatter_S100000x47_S1300000x1_S1300000x47_1_0_0_1_wf : ScatterDims.WF S100000x47 S1300000x1 S1300000x47 [1] [0] [0] 1

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x47_S100000x47_1_0_0_1_n_n : DotDims S100000x64 S64x47 S100000x47 where
  lhsContracting := [1]
  rhsContracting := [0]
  lhsNonContracting := [0]
  rhsNonContracting := [1]
  lhsBatch := []
  rhsBatch := []
  wf := dot_S100000x64_S64x47_S100000x47_1_0_0_1_n_n_wf
def gather_S100000x47_S1300000x1_S1300000x47_1_0_n_n_0_1_147 : GatherDims S100000x47 S1300000x1 S1300000x47 where
  offsetDims := [1]
  collapsedSliceDims := [0]
  operandBatchingDims := []
  startIndicesBatchingDims := []
  startIndexMap := [0]
  indexVectorDim := 1
  sliceSizes := ![1, 47]
  wf := gather_S100000x47_S1300000x1_S1300000x47_1_0_n_n_0_1_147_wf
def scatter_S100000x47_S1300000x1_S1300000x47_1_0_0_1 : ScatterDims S100000x47 S1300000x1 S1300000x47 where
  updateWindowDims := [1]
  insertedWindowDims := [0]
  scatterDimsToOperandDims := [0]
  indexVectorDim := 1
  wf := scatter_S100000x47_S1300000x1_S1300000x47_1_0_0_1_wf

class Facts : Prop extends Facts₀ where

variable [Facts]
-- ==== Proof.Chain.lean ====
/-
  The host computations of the kernel's program, each as one function of arrays.

  From the edge list: the source words (row 0 of the list, then every node once, the self loops), the destination
  words (row 1, then every node once), the degree of each node (how many destination words name it), and its
  inverse root, zero where the degree is not positive. From a feature matrix and the words: the filling take of the
  rows at the source words — a word is first wrapped, then read with a clamping read, and the row is replaced by the
  fill value unless the wrapped word lies in 0 … 99999 — and the sum of the taken rows per destination.
-/
import proofs.«402308_j1743756722177_2_alg».proof.Proof.Gen.KernelIdeal
import Idealize.ShloMosaic.PureOps.Ideal

noncomputable section

namespace Cert.KernelIdeal.Val

open Idealize.ShloMosaic Cert.KernelIdeal Cert.KernelIdeal.Gen

/-- The source words of the 1 300 000 edges. -/
def srcT (ei : IVec S2x1200000 32) : IVec S1300000 32 :=
  concatenate S1300000 0
    [⟨S1200000, shapeCast S1200000 (extractStridedSlice S1x1200000 ![0, 0] ei slices_S2x1200000_S1x1200000_0_0) shapeCasts_S1x1200000_S1200000⟩,
     ⟨S100000, iotaInDim S100000 32 0⟩] concatenates_S1200000_S100000_S1300000_d0

/-- The destination words of the 1 300 000 edges. -/
def dstT (ei : IVec S2x1200000 32) : IVec S1300000 32 :=
  concatenate S1300000 0
    [⟨S1200000, shapeCast S1200000 (extractStridedSlice S1x1200000 ![1, 0] ei slices_S2x1200000_S1x1200000_1_0) shapeCasts_S1x1200000_S1200000⟩,
     ⟨S100000, iotaInDim S100000 32 0⟩] concatenates_S1200000_S100000_S1300000_d0

/-- The words as one column, the form a gather or a scatter takes its start indices in. -/
abbrev asCol (v : IVec S1300000 32) : IVec S1300000x1 32 := broadcastInDim S1300000x1 ![0] bcast_S1300000_S1300000x1_0 v

/-- Each node's degree: a sum of ones over the edges that end at it. -/
def degT (ei : IVec S2x1200000 32) : FVec Ideal S100000 .f32 :=
  Host.scatterAdd scatter_S100000_S1300000x1_S1300000_n_0_0_1
    (broadcastInDim S100000 ![] bcast_S_S100000 (constant S_ .f32 0x00000000#32))
    (asCol (dstT ei))
    (broadcastInDim S1300000 ![] bcast_S_S1300000 (constant S_ .f32 0x3F800000#32))

/-- Each node's inverse root degree, zero where the degree is not positive. -/
def dinvT (ei : IVec S2x1200000 32) : FVec Ideal S100000 .f32 :=
  select (cmpf .ogt (degT ei) (broadcastInDim S100000 ![] bcast_S_S100000 (constant S_ .f32 0x00000000#32)))
    (Host.rsqrt (degT ei))
    (broadcastInDim S100000 ![] bcast_S_S100000 (id (constant S_ .f32 0x00000000#32)))

/-- The words wrapped: a negative one counts from the end. -/
def wrapT (sv : IVec S1300000 32) : IVec S1300000 32 :=
  select (cmpi .slt sv (broadcastInDim S1300000 ![] bcast_S_S1300000 (constantI S_ 32 0#32)))
    (addi sv (broadcastInDim S1300000 ![] bcast_S_S1300000 (constantI S_ 32 100000#32))) sv

/-- Per edge, whether its wrapped word lies in 0 … 99999. -/
def maskT (sv : IVec S1300000 32) : IVec S1300000 1 :=
  Host.reduce IntOp.andi
    (andi (cmpi .sge (asCol (wrapT sv)) (broadcastInDim S1300000x1 ![] bcast_S_S1300000x1 (constantI S_ 32 0#32)))
      (cmpi .sle (asCol (wrapT sv))
        (broadcastInDim S1300000x1 ![0, 1] bcast_S1x1_S1300000x1_0_1 (broadcastInDim S1x1 ![1] bcast_S1_S1x1_1 (constantI S1 32 99999#32)))))
    (constantI S_ 1 1#1) reducesTo_S1300000x1_S1300000_d1 h_S_

/-- The filling take of the rows of a 64-column matrix at the words. -/
def takeT64 (X : FVec Ideal S100000x64 .f32) (sv : IVec S1300000 32) : FVec Ideal S1300000x64 .f32 :=
  select (broadcastInDim S1300000x64 ![0] bcast_S1300000_S1300000x64_0 (maskT sv))
    (Host.gather gather_S100000x64_S1300000x1_S1300000x64_1_0_n_n_0_1_164 X (asCol (wrapT sv)))
    (broadcastInDim S1300000x64 ![] bcast_S_S1300000x64 (constant S_ .f32 0x7FC00000#32))

/-- The filling take of the rows of a 47-column matrix at the words. -/
def takeT47 (X : FVec Ideal S100000x47 .f32) (sv : IVec S1300000 32) : FVec Ideal S1300000x47 .f32 :=
  select (broadcastInDim S1300000x47 ![0] bcast_S1300000_S1300000x47_0 (maskT sv))
    (Host.gather gather_S100000x47_S1300000x1_S1300000x47_1_0_n_n_0_1_147 X (asCol (wrapT sv)))
    (broadcastInDim S1300000x47 ![] bcast_S_S1300000x47 (constant S_ .f32 0x7FC00000#32))

/-- Per destination node, the sum of the rows taken at the source words (64 columns). -/
def aggT64 (X : FVec Ideal S100000x64 .f32) (sv dv : IVec S1300000 32) : FVec Ideal S100000x64 .f32 :=
  Host.scatterAdd scatter_S100000x64_S1300000x1_S1300000x64_1_0_0_1
    (broadcastInDim S100000x64 ![] bcast_S_S100000x64 (constant S_ .f32 0x00000000#32)) (asCol dv) (takeT64 X sv)

/-- Per destination node, the sum of the rows taken at the source words (47 columns). -/
def aggT47 (X : FVec Ideal S100000x47 .f32) (sv dv : IVec S1300000 32) : FVec Ideal S100000x47 .f32 :=
  Host.scatterAdd scatter_S100000x47_S1300000x1_S1300000x47_1_0_0_1
    (broadcastInDim S100000x47 ![] bcast_S_S100000x47 (constant S_ .f32 0x00000000#32)) (asCol dv) (takeT47 X sv)

end Cert.KernelIdeal.Val

end
-- ==== Proof.ChainF.lean ====
/-
  The host computations of the kernel's program that involve floats, at any float family: the degrees, the per-node
  factors, the filling takes and the per-destination sums. At the extended reals they are the functions of the same
  names without the final F.
-/
import proofs.«402308_j1743756722177_2_alg».proof.Proof.Chain

noncomputable section

namespace Cert.KernelIdeal.Val

open Idealize.ShloMosaic Cert.KernelIdeal Cert.KernelIdeal.Gen

variable {F : FTy → Type} [FloatOps F]

/-- Each node's degree. -/
def degTF (ei : IVec S2x1200000 32) : FVec F S100000 .f32 :=
  Host.scatterAdd scatter_S100000_S1300000x1_S1300000_n_0_0_1
    (broadcastInDim S100000 ![] bcast_S_S100000 (constant S_ .f32 0x00000000#32))
    (asCol (dstT ei))
    (broadcastInDim S1300000 ![] bcast_S_S1300000 (constant S_ .f32 0x3F800000#32))

/-- Each node's inverse root degree, zero where the degree is not positive. -/
def dinvTF (ei : IVec S2x1200000 32) : FVec F S100000 .f32 :=
  select (cmpf .ogt (degTF (F := F) ei) (broadcastInDim S100000 ![] bcast_S_S100000 (constant S_ .f32 0x00000000#32)))
    (Host.rsqrt (degTF (F := F) ei))
    (broadcastInDim S100000 ![] bcast_S_S100000 (id (constant S_ .f32 0x00000000#32)))

/-- The filling take of the rows of a 64-column matrix at the words. -/
def takeTF64 (X : FVec F S100000x64 .f32) (sv : IVec S1300000 32) : FVec F S1300000x64 .f32 :=
  select (broadcastInDim S1300000x64 ![0] bcast_S1300000_S1300000x64_0 (maskT sv))
    (Host.gather gather_S100000x64_S1300000x1_S1300000x64_1_0_n_n_0_1_164 X (asCol (wrapT sv)))
    (broadcastInDim S1300000x64 ![] bcast_S_S1300000x64 (constant S_ .f32 0x7FC00000#32))

/-- The filling take of the rows of a 47-column matrix at the words. -/
def takeTF47 (X : FVec F S100000x47 .f32) (sv : IVec S1300000 32) : FVec F S1300000x47 .f32 :=
  select (broadcastInDim S1300000x47 ![0] bcast_S1300000_S1300000x47_0 (maskT sv))
    (Host.gather gather_S100000x47_S1300000x1_S1300000x47_1_0_n_n_0_1_147 X (asCol (wrapT sv)))
    (broadcastInDim S1300000x47 ![] bcast_S_S1300000x47 (constant S_ .f32 0x7FC00000#32))

/-- Per destination node, the sum of the rows taken at the source words (64 columns). -/
def aggTF64 (X : FVec F S100000x64 .f32) (sv dv : IVec S1300000 32) : FVec F S100000x64 .f32 :=
  Host.scatterAdd scatter_S100000x64_S1300000x1_S1300000x64_1_0_0_1
    (broadcastInDim S100000x64 ![] bcast_S_S100000x64 (constant S_ .f32 0x00000000#32)) (asCol dv) (takeTF64 X sv)

/-- Per destination node, the sum of the rows taken at the source words (47 columns). -/
def aggTF47 (X : FVec F S100000x47 .f32) (sv dv : IVec S1300000 32) : FVec F S100000x47 .f32 :=
  Host.scatterAdd scatter_S100000x47_S1300000x1_S1300000x47_1_0_0_1
    (broadcastInDim S100000x47 ![] bcast_S_S100000x47 (constant S_ .f32 0x00000000#32)) (asCol dv) (takeTF47 X sv)

/-- At the extended reals these are the functions of Chain. -/
theorem dinvTF_ideal (ei : IVec S2x1200000 32) : dinvTF (F := Ideal) ei = dinvT ei := rfl
theorem aggTF64_ideal (X : FVec Ideal S100000x64 .f32) (sv dv : IVec S1300000 32) : aggTF64 (F := Ideal) X sv dv = aggT64 X sv dv := rfl
theorem aggTF47_ideal (X : FVec Ideal S100000x47 .f32) (sv dv : IVec S1300000 32) : aggTF47 (F := Ideal) X sv dv = aggT47 X sv dv := rfl

end Cert.KernelIdeal.Val

end
-- ==== Proof.KHost.lean ====
/-
  The kernel program's buffers at each boundary between its host stretches and its three launches, read back to the
  launch memory, at any float family.

  Before the first launch the host computes the source and destination words, the per-node factors (cast to one
  column) and the narrowed first weight matrix. A launch writes only its output array; every other buffer keeps its
  contents. Between the first and second launch the host takes the output's rows at the source words and sums them per
  destination, casts the first bias to a row and narrows the second weight matrix; between the second and third it does
  the same take-and-sum on the second launch's output and casts the second bias to a row.
-/
import proofs.«402308_j1743756722177_2_alg».proof.Proof.Gen.KernelIdeal.Frame
import proofs.«402308_j1743756722177_2_alg».proof.Proof.Chain
import proofs.«402308_j1743756722177_2_alg».proof.Proof.ChainF
import Idealize.ShloMosaic.Lib.StableHlo.Run

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- Transporting a value along an equation of types and back is the identity. -/
theorem cast_cast_eq {A B : Type} (h₂ : A = B) (h₁ : B = A) (v : A) : cast h₁ (cast h₂ v) = v := by
  subst h₂; rfl

/-! ## Entering the first launch -/

set_option maxHeartbeats 8000000 in
/-- The per-node factors, as one column. -/
theorem W3_v16 (c : Dev nD) :
    W3 m ρ c (Proc.devRef .tc main_v16) = shapeCast S100000x1 (dinvTF (F := F) (m ((c : Thread nD τ).loc main_arg1))) shapeCasts_S100000_S100000x1 := by
  show StableHlo.after hostOps0_2 (StableHlo.after hostOps0_1 (StableHlo.after hostOps0 (W0 m ρ c))) (Proc.devRef .tc main_v16) = _
  simp only [hostOps0, hostOps0_1, hostOps0_2]
  after_results_simp <;> rfl

set_option maxHeartbeats 8000000 in
/-- The narrowed first weight matrix. -/
theorem W3_v17 (c : Dev nD) :
    W3 m ρ c (Proc.devRef .tc main_v17) = truncf .bf16 (m ((c : Thread nD τ).loc main_arg2)) bitsLt_bf16_f32 := by
  show StableHlo.after hostOps0_2 (StableHlo.after hostOps0_1 (StableHlo.after hostOps0 (W0 m ρ c))) (Proc.devRef .tc main_v17) = _
  simp only [hostOps0, hostOps0_1, hostOps0_2]
  after_results_simp <;> rfl

set_option maxHeartbeats 8000000 in
/-- The source words. -/
theorem W3_v3 (c : Dev nD) : W3 m ρ c (Proc.devRef .tc main_v3) = srcT (m ((c : Thread nD τ).loc main_arg1)) := by
  show StableHlo.after hostOps0_2 (StableHlo.after hostOps0_1 (StableHlo.after hostOps0 (W0 m ρ c))) (Proc.devRef .tc main_v3) = _
  simp only [hostOps0, hostOps0_1, hostOps0_2]
  after_results_simp <;> rfl

set_option maxHeartbeats 8000000 in
/-- The destination words. -/
theorem W3_v7 (c : Dev nD) : W3 m ρ c (Proc.devRef .tc main_v7) = dstT (m ((c : Thread nD τ).loc main_arg1)) := by
  show StableHlo.after hostOps0_2 (StableHlo.after hostOps0_1 (StableHlo.after hostOps0 (W0 m ρ c))) (Proc.devRef .tc main_v7) = _
  simp only [hostOps0, hostOps0_1, hostOps0_2]
  after_results_simp <;> rfl

set_option maxHeartbeats 8000000 in
/-- The node features are as launched. -/
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  simp only [hostOps0, hostOps0_1, hostOps0_2]
  after_results_simp <;> rfl

set_option maxHeartbeats 8000000 in
/-- The first bias is as launched. -/
theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  simp only [hostOps0, hostOps0_1, hostOps0_2]
  after_results_simp <;> rfl

set_option maxHeartbeats 8000000 in
/-- The second weight matrix is as launched. -/
theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  simp only [hostOps0, hostOps0_1, hostOps0_2]
  after_results_simp <;> rfl

set_option maxHeartbeats 8000000 in
/-- The second bias is as launched. -/
theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  simp only [hostOps0, hostOps0_1, hostOps0_2]
  after_results_simp <;> rfl

/-! ## Leaving the first launch: its output is what the launch leaves, its inputs and every other buffer are kept -/

theorem W4_v18 (c : Dev nD) : W4 m ρ c (Proc.devRef .tc main_v18) = (dat0 (V3 m ρ) c).arrAt 3 cfg0.N := W4_arr m ρ c 3
theorem W4_v16 (c : Dev nD) : W4 m ρ c (Proc.devRef .tc main_v16) = W3 m ρ c (Proc.devRef .tc main_v16) :=
  (W4_arr m ρ c 2).trans (((dat0 (V3 m ρ) c).arrAt_in 2 rfl _).trans (A_eq0 (V3 m ρ) c 2))
theorem W4_v3 (c : Dev nD) : W4 m ρ c (Proc.devRef .tc main_v3) = W3 m ρ c (Proc.devRef .tc main_v3) := W4_of_ne m ρ c main_v3 (by decide)
theorem W4_v7 (c : Dev nD) : W4 m ρ c (Proc.devRef .tc main_v7) = W3 m ρ c (Proc.devRef .tc main_v7) := W4_of_ne m ρ c main_v7 (by decide)
theorem W4_arg3 (c : Dev nD) : W4 m ρ c (Proc.devRef .tc main_arg3) = W3 m ρ c (Proc.devRef .tc main_arg3) := W4_of_ne m ρ c main_arg3 (by decide)
theorem W4_arg4 (c : Dev nD) : W4 m ρ c (Proc.devRef .tc main_arg4) = W3 m ρ c (Proc.devRef .tc main_arg4) := W4_of_ne m ρ c main_arg4 (by decide)
theorem W4_arg5 (c : Dev nD) : W4 m ρ c (Proc.devRef .tc main_arg5) = W3 m ρ c (Proc.devRef .tc main_arg5) := W4_of_ne m ρ c main_arg5 (by decide)

/-! ## Entering the second launch -/

set_option maxHeartbeats 8000000 in
/-- The first launch's output, its rows taken at the source words and summed per destination. -/
theorem W6_v22 (c : Dev nD) :
    W6 m ρ c (Proc.devRef .tc main_v22)
      = aggTF64 (F := F) (W4 m ρ c (Proc.devRef .tc main_v18)) (W4 m ρ c (Proc.devRef .tc main_v3)) (W4 m ρ c (Proc.devRef .tc main_v7)) := by
  show StableHlo.after hostOps1_1 (StableHlo.after hostOps1 (W4 m ρ c)) (Proc.devRef .tc main_v22) = _
  simp only [hostOps1, hostOps1_1]
  after_results_simp
  simp only [TRef.ofBuf, TRef.toBuf, cast_cast_eq]
  simp only [cast_eq]
  unfold aggTF64 takeTF64 maskT wrapT asCol
  rfl

set_option maxHeartbeats 8000000 in
theorem W6_v16 (c : Dev nD) : W6 m ρ c (Proc.devRef .tc main_v16) = W4 m ρ c (Proc.devRef .tc main_v16) := by
  show StableHlo.after hostOps1_1 (StableHlo.after hostOps1 (W4 m ρ c)) (Proc.devRef .tc main_v16) = _
  simp only [hostOps1, hostOps1_1]
  after_results_simp <;> rfl

set_option maxHeartbeats 8000000 in
/-- The first bias as one row. -/
theorem W6_v23 (c : Dev nD) :
    W6 m ρ c (Proc.devRef .tc main_v23) = shapeCast S1x64 (W4 m ρ c (Proc.devRef .tc main_arg3)) shapeCasts_S64_S1x64 := by
  show StableHlo.after hostOps1_1 (StableHlo.after hostOps1 (W4 m ρ c)) (Proc.devRef .tc main_v23) = _
  simp only [hostOps1, hostOps1_1]
  after_results_simp <;> rfl

set_option maxHeartbeats 8000000 in
/-- The narrowed second weight matrix. -/
theorem W6_v24 (c : Dev nD) :
    W6 m ρ c (Proc.devRef .tc main_v24) = truncf .bf16 (W4 m ρ c (Proc.devRef .tc main_arg4)) bitsLt_bf16_f32 := by
  show StableHlo.after hostOps1_1 (StableHlo.after hostOps1 (W4 m ρ c)) (Proc.devRef .tc main_v24) = _
  simp only [hostOps1, hostOps1_1]
  after_results_simp <;> rfl

set_option maxHeartbeats 8000000 in
theorem W6_v3 (c : Dev nD) : W6 m ρ c (Proc.devRef .tc main_v3) = W4 m ρ c (Proc.devRef .tc main_v3) := by
  show StableHlo.after hostOps1_1 (StableHlo.after hostOps1 (W4 m ρ c)) (Proc.devRef .tc main_v3) = _
  simp only [hostOps1, hostOps1_1]
  after_results_simp <;> rfl

set_option maxHeartbeats 8000000 in
theorem W6_v7 (c : Dev nD) : W6 m ρ c (Proc.devRef .tc main_v7) = W4 m ρ c (Proc.devRef .tc main_v7) := by
  show StableHlo.after hostOps1_1 (StableHlo.after hostOps1 (W4 m ρ c)) (Proc.devRef .tc main_v7) = _
  simp only [hostOps1, hostOps1_1]
  after_results_simp <;> rfl

set_option maxHeartbeats 8000000 in
theorem W6_arg5 (c : Dev nD) : W6 m ρ c (Proc.devRef .tc main_arg5) = W4 m ρ c (Proc.devRef .tc main_arg5) := by
  show StableHlo.after hostOps1_1 (StableHlo.after hostOps1 (W4 m ρ c)) (Proc.devRef .tc main_arg5) = _
  simp only [hostOps1, hostOps1_1]
  after_results_simp <;> rfl

/-! ## Leaving the second launch -/

theorem W7_v25 (c : Dev nD) : W7 m ρ c (Proc.devRef .tc main_v25) = (dat1 (V6 m ρ) c).arrAt 4 cfg1.N := W7_arr m ρ c 4
theorem W7_v16 (c : Dev nD) : W7 m ρ c (Proc.devRef .tc main_v16) = W6 m ρ c (Proc.devRef .tc main_v16) :=
  (W7_arr m ρ c 1).trans (((dat1 (V6 m ρ) c).arrAt_in 1 rfl _).trans (A_eq1 (V6 m ρ) c 1))
theorem W7_v3 (c : Dev nD) : W7 m ρ c (Proc.devRef .tc main_v3) = W6 m ρ c (Proc.devRef .tc main_v3) := W7_of_ne m ρ c main_v3 (by decide)
theorem W7_v7 (c : Dev nD) : W7 m ρ c (Proc.devRef .tc main_v7) = W6 m ρ c (Proc.devRef .tc main_v7) := W7_of_ne m ρ c main_v7 (by decide)
theorem W7_arg5 (c : Dev nD) : W7 m ρ c (Proc.devRef .tc main_arg5) = W6 m ρ c (Proc.devRef .tc main_arg5) := W7_of_ne m ρ c main_arg5 (by decide)

/-! ## Entering the third launch -/

set_option maxHeartbeats 8000000 in
/-- The second launch's output, its rows taken at the source words and summed per destination. -/
theorem W9_v29 (c : Dev nD) :
    W9 m ρ c (Proc.devRef .tc main_v29)
      = aggTF47 (F := F) (W7 m ρ c (Proc.devRef .tc main_v25)) (W7 m ρ c (Proc.devRef .tc main_v3)) (W7 m ρ c (Proc.devRef .tc main_v7)) := by
  show StableHlo.after hostOps2_1 (StableHlo.after hostOps2 (W7 m ρ c)) (Proc.devRef .tc main_v29) = _
  simp only [hostOps2, hostOps2_1]
  after_results_simp
  simp only [TRef.ofBuf, TRef.toBuf, cast_cast_eq]
  simp only [cast_eq]
  unfold aggTF47 takeTF47 maskT wrapT asCol
  rfl

set_option maxHeartbeats 8000000 in
theorem W9_v16 (c : Dev nD) : W9 m ρ c (Proc.devRef .tc main_v16) = W7 m ρ c (Proc.devRef .tc main_v16) := by
  show StableHlo.after hostOps2_1 (StableHlo.after hostOps2 (W7 m ρ c)) (Proc.devRef .tc main_v16) = _
  simp only [hostOps2, hostOps2_1]
  after_results_simp <;> rfl

set_option maxHeartbeats 8000000 in
/-- The second bias as one row. -/
theorem W9_v30 (c : Dev nD) :
    W9 m ρ c (Proc.devRef .tc main_v30) = shapeCast S1x47 (W7 m ρ c (Proc.devRef .tc main_arg5)) shapeCasts_S47_S1x47 := by
  show StableHlo.after hostOps2_1 (StableHlo.after hostOps2 (W7 m ρ c)) (Proc.devRef .tc main_v30) = _
  simp only [hostOps2, hostOps2_1]
  after_results_simp <;> rfl

/-! ## Leaving the third launch -/

theorem W10_v31 (c : Dev nD) : W10 m ρ c (Proc.devRef .tc main_v31) = (dat2 (V9 m ρ) c).arrAt 3 cfg2.N := W10_arr m ρ c 3

end Cert.KernelIdeal.Val

end
-- ==== Proof.Spec.lean ====
/-
  A two-layer graph convolution with symmetric normalisation, as functions of its arrays, entry by entry.

  Every node v has an inverse root degree dinv v. One layer sends a feature matrix H to
      out[d, j] = Σ over edges e with dst e = d of  H[src e, j] · dinv(src e) · dinv(dst e)   + bias j.
  The factor dinv(dst e) is the same for every edge in the sum, it is dinv d; so the sum may be taken of the rows
  H[src e, ·] · dinv(src e), already scaled at their source, and multiplied by dinv d afterwards. `aggPre` and
  `aggEdge` below are the two arrangements; the forms `kernelForm` and `referenceForm` are the two whole networks
  (transform, aggregate, bias, rectify, transform, aggregate, bias, row-wise log-softmax) built on them.

  Nothing here mentions a program: arrays are functions on index tuples of literal extents, an edge list is two
  arrays of 32-bit words (source and destination of edge e) over 1 300 000 edges, and there are 100 000 nodes.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- A matrix of extended reals with a rows and b columns. -/
abbrev Mat (a b : ℕ) := (⟨2, ![a, b]⟩ : Shape).Idx → EReal
/-- A vector of extended reals. -/
abbrev Vct (a : ℕ) := (⟨1, ![a]⟩ : Shape).Idx → EReal
/-- A vector of 32-bit words (node numbers as the programs hold them). -/
abbrev Wrd (a : ℕ) := (⟨1, ![a]⟩ : Shape).Idx → BitVec 32

/-- The value of the all-zero word. -/
abbrev zeroV : EReal := Ideal.ofBits .f32 0x00000000#32
/-- The value of the word that stands for minus infinity. -/
abbrev negInfV : EReal := Ideal.ofBits .f32 0xFF800000#32
/-- The value a read outside an array is given by a filling take. -/
abbrev fillV : EReal := Ideal.ofBits .f32 0x7FC00000#32

/-- A node number as numpy reads it: a negative one counts from the end. -/
def wrap (v : BitVec 32) : BitVec 32 :=
  Scalar.select (IntOp.cmpi .slt v 0#32) (IntOp.addi v 100000#32) v

/-- The row a clamping read takes for the word v: v read signed, brought into 0 … 99999. -/
def rowOf (v : BitVec 32) : Fin 100000 := ⟨min v.toInt.toNat 99999, by omega⟩

/-- The word names a row: read signed it lies in 0 … 99999. -/
def InRows (v : BitVec 32) : Prop := 0 ≤ v.toInt ∧ v.toInt ≤ 99999

instance (v : BitVec 32) : Decidable (InRows v) := by unfold InRows; exact inferInstance

/-- The edges whose destination word, read signed, is node d: the updates a scatter-add lands on row d. An edge whose
    destination is no node lands nowhere. -/
def hits (dv : Wrd 1300000) (d : Fin 100000) : Finset (Fin 1300000) :=
  Finset.univ.filter fun e => (dv (ix1 e)).toInt = (d.val : ℤ)

/-- The product of two matrices at an entry. -/
def mm {a k b : ℕ} (X : Mat a k) (W : Mat k b) : Mat a b :=
  fun i => ∑ t : Fin k, X (ix2 (i 0) t) * W (ix2 t (i 1))

/-- A vector of a entries as one column. -/
def col {a : ℕ} (v : Vct a) : Mat a 1 := fun i => v (ix1 (i 0))
/-- A vector of b entries as one row. -/
def row {b : ℕ} (v : Vct b) : Mat 1 b := fun i => v (ix1 (i 1))

/-! ## The arrangement that scales before and after the sum -/

/-- Row e of a filling take of X at the (wrapped) source words: the row the word names, or the fill value when it names none. -/
def takeFill {D : ℕ} (X : Mat 100000 D) (sv : Wrd 1300000) (e : Fin 1300000) (q : Fin D) : EReal :=
  if InRows (wrap (sv (ix1 e))) then X (ix2 (rowOf (wrap (sv (ix1 e)))) q) else fillV

/-- The sum, per destination node, of the taken rows. -/
def aggPre {D : ℕ} (X : Mat 100000 D) (sv dv : Wrd 1300000) : Mat 100000 D :=
  fun i => zeroV + ∑ e ∈ hits dv (i 0), takeFill X sv e (i 1)

/-- First transform, each row scaled by its node's factor. -/
def stage0 (x : Mat 100000 256) (w : Mat 256 64) (dc : Mat 100000 1) : Mat 100000 64 :=
  fun i => (∑ t : Fin 256, x (ix2 (i 0) t) * w (ix2 t (i 1))) * dc (ix2 (i 0) (0 : Fin 1))

/-- Scale the sums by the destination's factor, add the bias, rectify, transform, scale by the node's factor. -/
def stage1 (agg : Mat 100000 64) (dc : Mat 100000 1) (b : Mat 1 64) (w : Mat 64 47) : Mat 100000 47 :=
  fun i => (∑ t : Fin 64,
      max (dc (ix2 (i 0) (0 : Fin 1)) * agg (ix2 (i 0) t) + b (ix2 (0 : Fin 1) t)) zeroV * w (ix2 t (i 1)))
    * dc (ix2 (i 0) (0 : Fin 1))

/-- Scale the sums by the destination's factor, add the bias; then per row: subtract the row's maximum, and subtract
    the logarithm of the sum of the exponentials. -/
def stage2 (agg : Mat 100000 47) (dc : Mat 100000 1) (b : Mat 1 47) : Mat 100000 47 :=
  fun i =>
    let z : Fin 47 → EReal := fun q => dc (ix2 (i 0) (0 : Fin 1)) * agg (ix2 (i 0) q) + b (ix2 (0 : Fin 1) q)
    let M : EReal := (Finset.univ : Finset (Fin 47)).fold max negInfV z
    (z (i 1) - M) - Ideal.log (∑ q : Fin 47, Ideal.exp (z q - M))

/-- The whole network in the arrangement that scales rows before the sum and sums after it. -/
def kernelForm (x : Mat 100000 256) (w1 : Mat 256 64) (b1 : Vct 64) (w2 : Mat 64 47) (b2 : Vct 47)
    (dinv : Vct 100000) (sv dv : Wrd 1300000) : Mat 100000 47 :=
  stage2 (aggPre (stage1 (aggPre (stage0 x w1 (col dinv)) sv dv) (col dinv) (row b1) w2) sv dv) (col dinv) (row b2)

/-! ## The arrangement that scales every edge's row -/

/-- The sum, per destination node, of the source rows, each times the edge's weight dinv(src) · dinv(dst); both
    factors are read with a clamping read at the wrapped word. -/
def aggEdge {D : ℕ} (H : Mat 100000 D) (dinv : Vct 100000) (sv dv : Wrd 1300000) : Mat 100000 D :=
  fun i => zeroV + ∑ e ∈ hits dv (i 0),
    H (ix2 (rowOf (wrap (sv (ix1 e)))) (i 1))
      * (dinv (ix1 (rowOf (wrap (sv (ix1 e))))) * dinv (ix1 (rowOf (wrap (dv (ix1 e))))))

/-- Add a bias along the rows. -/
def addBias {a b : ℕ} (X : Mat a b) (v : Vct b) : Mat a b := fun i => X i + v (ix1 (i 1))

/-- Rectify. -/
def relu {a b : ℕ} (X : Mat a b) : Mat a b := fun i => max (X i) zeroV

/-- Row-wise log-softmax as jax spells it: the maximum is taken from minus infinity and once more against minus
    infinity; the sum of exponentials starts from the zero word. -/
def logSoftmax (C : Mat 100000 47) : Mat 100000 47 :=
  fun i =>
    let M : EReal := max negInfV ((Finset.univ : Finset (Fin 47)).fold max negInfV fun q => C (ix2 (i 0) q))
    (C i - M) - Ideal.log (zeroV + ∑ q : Fin 47, Ideal.exp (C (ix2 (i 0) q) - M))

/-- The whole network in the arrangement that weights every edge. -/
def referenceForm (x : Mat 100000 256) (w1 : Mat 256 64) (b1 : Vct 64) (w2 : Mat 64 47) (b2 : Vct 47)
    (dinv : Vct 100000) (sv dv : Wrd 1300000) : Mat 100000 47 :=
  logSoftmax (addBias (aggEdge (mm (relu (addBias (aggEdge (mm x w1) dinv sv dv) b1)) w2) dinv sv dv) b2)

end Cert.Gcn

end
-- ==== Proof.LibColumns.lean ====
/-
  Two layout operations read at an entry, for a column kept as an [a, 1] matrix — what a row reduction with
  kept dimensions passes through on its way back over the rows: a vector of a entries cast to one column, and
  one column laid along every column of an a × b matrix. Stated for any element type and any extents.
-/
import Idealize.ShloMosaic.Lib.Pipeline.Value
import Idealize.ShloMosaic.Lib.ValueIdx

namespace Cert.Lib.Columns

open Idealize.ShloMosaic Idealize.ShloMosaic.ValueIdx

variable {α : Type}

/-- An `[a]` array cast to `[a, 1]` reads, at `(i, u)`, the operand at `i`, whatever the unit coordinate `u`:
    both indices have the same row-major position, i · 1 + 0 = i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Columns
-- ==== Proof.LibRowOps.lean ====
/-
  A gather and an accumulating scatter of whole ROWS of a matrix, read at one entry.

  Both take their row numbers from a column of words, one word per row moved. The gather ("take rows") copies, for
  position e, the row whose number is word e read signed and clamped into the matrix; the scatter-add adds, to row r,
  every update row whose word read signed equals r, and drops the rows whose word names no row. Stated for any extents
  and over the dimension numbers such a gather or scatter is printed with.
-/
import Idealize.ShloMosaic.PureOps.Ideal
import Idealize.ShloMosaic.PureOps.Ideal.Laws
import Idealize.ShloMosaic.Lib.ValueIdx
import Idealize.ShloMosaic.Lib.Pipeline.Value

namespace Cert.Lib.RowOps

open Idealize.ShloMosaic Idealize.ShloMosaic.ValueIdx

/-- On the collapsed axis the operand index of a row gather is the clamped start: the word read signed, cut to 0 … N − 1. -/
private theorem rowGather_axis0 {N D n w : ℕ} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (hss : d.sliceSizes = ![1, D])
    (idx : IVec ⟨2, ![n, 1]⟩ w) (e : Fin n) (q : Fin D) :
    (d.operandIdx (ix2 e q) idx (0 : Fin 2)).val = min (idx (ix2 e (0 : Fin 1))).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := by rw [hss]; rfl
  -- every batch axis of the result is axis 0, the one axis that is not the offset axis
  have key : ∀ c : Fin 2, c ∈ d.batchDims → (ix2 e q c).val = e.val := by
    intro c hc
    have hc' : c ∉ d.offsetDims := by
      have := (List.mem_filter.1 hc).2
      simpa using this
    rw [hoff] at hc'
    match c with
    | ⟨0, _⟩ => rfl
    | ⟨1, _⟩ => exact absurd (List.mem_singleton.mpr rfl) hc'
  simp only [GatherDims.operandIdx, GatherDims.batchCoord_eq_zero _ _ _ hb, GatherDims.offCoord_eq_zero _ _ _ hk,
    Nat.add_zero, GatherDims.start, dif_pos hm]
  show min (idx _).toInt.toNat (N - d.sliceSizes 0) = min (idx (ix2 e (0 : Fin 1))).toInt.toNat (N - 1)
  rw [hsl]
  congr 3
  congr 1
  funext b
  match b with
  | ⟨0, _⟩ =>
    unfold GatherDims.siIdx
    rw [dif_neg (by rw [hivd]; simp)]
    unfold GatherDims.siCoord
    apply Fin.ext
    simp only [Fin.val_cast]
    exact key _ (List.getElem_mem _)
  | ⟨1, _⟩ =>
    unfold GatherDims.siIdx
    rw [dif_pos (by rw [hivd])]
    apply Fin.ext
    show List.idxOf (0 : Fin 2) d.startIndexMap = 0
    rw [hsim]; simp

/-- On the offset axis the operand index of a row gather is the result's own column: start 0, no batching coordinate. -/
private theorem rowGather_axis1 {N D n w : ℕ} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0])
    (idx : IVec ⟨2, ![n, 1]⟩ w) (e : Fin n) (q : Fin D) :
    (d.operandIdx (ix2 e q) idx (1 : Fin 2)).val = q.val := by
  have hb : (1 : Fin 2) ∉ d.operandBatchingDims := by rw [hob]; exact List.not_mem_nil
  have hk : (1 : Fin 2) ∈ d.sKept := by rw [GatherDims.mem_sKept, hcoll, hob]; simp
  have hm : (1 : Fin 2) ∉ d.startIndexMap := by rw [hsim]; simp
  have key : ∀ c : Fin 2, c ∈ d.offsetDims → (ix2 e q c).val = q.val := by
    intro c hc; rw [hoff] at hc; obtain rfl := List.mem_singleton.1 hc; rfl
  simp only [GatherDims.operandIdx, GatherDims.batchCoord_eq_zero _ _ _ hb, GatherDims.start, dif_neg hm,
    GatherDims.offCoord, dif_pos hk, Nat.add_zero, Nat.zero_add]
  exact key _ (List.getElem_mem _)

/-- TAKE ROWS. Entry (e, q) of the gather is entry (r, q) of the matrix, r the e-th word read signed and clamped to
    0 … N − 1. -/
theorem rowGather_apply {α : Type} {N D n w : ℕ} (d : GatherDims ⟨2, ![N, D]⟩ ⟨2, ![n, 1]⟩ ⟨2, ![n, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![n, 1]⟩ w) (e : Fin n) (q : Fin D) (hN : 0 < N) :
    Host.gather d x idx (ix2 e q)
      = x (ix2 ⟨min (idx (ix2 e (0 : Fin 1))).toInt.toNat (N - 1), by omega⟩ q) := by
  unfold Host.gather
  congr 1
  funext a
  apply Fin.ext
  match a with
  | ⟨0, _⟩ => exact rowGather_axis0 d hoff hcoll hob hsim hivd hss idx e q
  | ⟨1, _⟩ => exact rowGather_axis1 d hoff hcoll hob hsim idx e q

section Scatter

variable {N D n w : ℕ} (d : ScatterDims ⟨2, ![N, D]⟩ ⟨2, ![n, 1]⟩ ⟨2, ![n, D]⟩)

/-- On the scattered axis the window of update row e starts at the e-th word read signed. -/
private theorem scatter_start0 (huw : d.updateWindowDims = [1]) (hsd : d.scatterDimsToOperandDims = [0])
    (hivd : d.indexVectorDim = 1) (idx : IVec ⟨2, ![n, 1]⟩ w) (e : Fin n) (q : Fin D) :
    d.start (ix2 e q) idx (0 : Fin 2) = (idx (ix2 e (0 : Fin 1))).toInt := by
  have hm : (0 : Fin 2) ∈ d.scatterDimsToOperandDims := by rw [hsd]; exact List.mem_singleton.mpr rfl
  -- every scatter axis of the updates is axis 0, the one axis that is not the window axis
  have key : ∀ c : Fin 2, c ∈ d.uScatter → (ix2 e q c).val = e.val := by
    intro c hc
    have hc' : c ∉ d.updateWindowDims := by
      have := (List.mem_filter.1 hc).2
      simpa using this
    rw [huw] at hc'
    match c with
    | ⟨0, _⟩ => rfl
    | ⟨1, _⟩ => exact absurd (List.mem_singleton.mpr rfl) hc'
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    exact key _ (List.getElem_mem _)
  | ⟨1, _⟩ =>
    unfold ScatterDims.siIdx
    rw [dif_pos (by rw [hivd])]
    apply Fin.ext
    show List.idxOf (0 : Fin 2) d.scatterDimsToOperandDims = 0
    rw [hsd]; simp

/-- On the window axis the start is 0: no word names it. -/
private theorem scatter_start1 (hsd : d.scatterDimsToOperandDims = [0])
    (idx : IVec ⟨2, ![n, 1]⟩ w) (j : (⟨2, ![n, D]⟩ : Shape).Idx) :
    d.start j idx (1 : Fin 2) = 0 := by
  unfold ScatterDims.start
  rw [dif_neg (by rw [hsd]; simp)]

/-- On the scattered axis, an inserted one, the window coordinate is 0. -/
private theorem scatter_window0 (hiw : d.insertedWindowDims = [0]) (j : (⟨2, ![n, D]⟩ : Shape).Idx) :
    d.window j (0 : Fin 2) = 0 := by
  unfold ScatterDims.window
  rw [dif_neg]
  intro h
  have := (List.mem_filter.1 h).2
  rw [hiw] at this
  simp at this

/-- On the window axis the window coordinate of update entry (e, q) is q. -/
private theorem scatter_window1 (huw : d.updateWindowDims = [1]) (hiw : d.insertedWindowDims = [0])
    (e : Fin n) (q : Fin D) : d.window (ix2 e q) (1 : Fin 2) = q.val := by
  have hk : (1 : Fin 2) ∈ d.sKept := List.mem_filter.2 ⟨List.mem_finRange _, by rw [hiw]; simp⟩
  have key : ∀ c : Fin 2, c ∈ d.updateWindowDims → (ix2 e q c).val = q.val := by
    intro c hc; rw [huw] at hc; obtain rfl := List.mem_singleton.1 hc; rfl
  unfold ScatterDims.window
  rw [dif_pos hk]
  exact key _ (List.getElem_mem _)

end Scatter

section ScatterLand

variable {N D n w : ℕ} (d : ScatterDims ⟨2, ![N, D]⟩ ⟨2, ![n, 1]⟩ ⟨2, ![n, D]⟩)

/-- An update row whose word read signed names row r lands, entry by entry, on row r. -/
private theorem scatter_some (huw : d.updateWindowDims = [1]) (hiw : d.insertedWindowDims = [0])
    (hsd : d.scatterDimsToOperandDims = [0]) (hivd : d.indexVectorDim = 1)
    (idx : IVec ⟨2, ![n, 1]⟩ w) (e : Fin n) (q : Fin D) (r : Fin N)
    (hz : (idx (ix2 e (0 : Fin 1))).toInt = (r.val : ℤ)) :
    d.resultIdx? (ix2 e q) idx = some (ix2 r q) := by
  have h0 := scatter_start0 d huw hsd hivd idx e q
  have h1 := scatter_window0 d hiw (ix2 e q)
  have h2 := scatter_start1 d hsd idx (ix2 e q)
  have h3 := scatter_window1 d huw hiw e q
  have h : ∀ a, 0 ≤ d.start (ix2 e q) idx a + d.window (ix2 e q) a ∧
      d.start (ix2 e q) idx a + d.window (ix2 e q) a < (⟨2, ![N, D]⟩ : Shape).size a := by
    intro a
    match a with
    | ⟨0, _⟩ =>
      show 0 ≤ d.start (ix2 e q) idx (0 : Fin 2) + (d.window (ix2 e q) (0 : Fin 2) : ℤ) ∧
        d.start (ix2 e q) idx (0 : Fin 2) + (d.window (ix2 e q) (0 : Fin 2) : ℤ) < (N : ℤ)
      rw [h0, h1, hz]; have := r.isLt; omega
    | ⟨1, _⟩ =>
      show 0 ≤ d.start (ix2 e q) idx (1 : Fin 2) + (d.window (ix2 e q) (1 : Fin 2) : ℤ) ∧
        d.start (ix2 e q) idx (1 : Fin 2) + (d.window (ix2 e q) (1 : Fin 2) : ℤ) < (D : ℤ)
      rw [h2, h3]; have := q.isLt; omega
  unfold ScatterDims.resultIdx?
  rw [dif_pos h]
  congr 1
  funext a
  apply Fin.ext
  match a with
  | ⟨0, _⟩ =>
    show (d.start (ix2 e q) idx (0 : Fin 2) + (d.window (ix2 e q) (0 : Fin 2) : ℤ)).toNat = r.val
    rw [h0, h1, hz]; omega
  | ⟨1, _⟩ =>
    show (d.start (ix2 e q) idx (1 : Fin 2) + (d.window (ix2 e q) (1 : Fin 2) : ℤ)).toNat = q.val
    rw [h2, h3]; omega

/-- An update entry (e, q) that lands on entry (r, q') has its word, read signed, equal to r, and q equal to q'. -/
private theorem scatter_of_some (huw : d.updateWindowDims = [1]) (hiw : d.insertedWindowDims = [0])
    (hsd : d.scatterDimsToOperandDims = [0]) (hivd : d.indexVectorDim = 1)
    (idx : IVec ⟨2, ![n, 1]⟩ w) (e : Fin n) (q : Fin D) (r : Fin N) (q' : Fin D)
    (h : d.resultIdx? (ix2 e q) idx = some (ix2 r q')) :
    (idx (ix2 e (0 : Fin 1))).toInt = (r.val : ℤ) ∧ q = q' := by
  unfold ScatterDims.resultIdx? at h
  split at h
  · rename_i hh
    have h' := Option.some.inj h
    have e0 := congrArg Fin.val (congrFun h' (0 : Fin 2))
    have e1 := congrArg Fin.val (congrFun h' (1 : Fin 2))
    have hh0 := (hh (0 : Fin 2)).1
    change (d.start (ix2 e q) idx (0 : Fin 2) + (d.window (ix2 e q) (0 : Fin 2) : ℤ)).toNat = r.val at e0
    change (d.start (ix2 e q) idx (1 : Fin 2) + (d.window (ix2 e q) (1 : Fin 2) : ℤ)).toNat = q'.val at e1
    change 0 ≤ d.start (ix2 e q) idx (0 : Fin 2) + (d.window (ix2 e q) (0 : Fin 2) : ℤ) at hh0
    rw [scatter_start0 d huw hsd hivd idx e q, scatter_window0 d hiw] at e0 hh0
    rw [scatter_start1 d hsd, scatter_window1 d huw hiw] at e1
    exact ⟨by omega, Fin.ext (by omega)⟩
  · exact absurd h (by simp)

end ScatterLand

/-- ADD ROWS. Entry (r, q) of the accumulating scatter is the operand's entry plus the sum, over the update rows e
    whose word read signed is r, of the update's entry (e, q). -/
theorem rowScatterAdd_apply {N D n w : ℕ} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![N, D]⟩ : Shape).Idx → EReal) (idx : IVec ⟨2, ![n, 1]⟩ w) (upd : (⟨2, ![n, D]⟩ : Shape).Idx → EReal)
    (r : Fin N) (q : Fin D) :
    Ideal.hostScatterAdd d x idx upd (ix2 r q)
      = x (ix2 r q) + ∑ e ∈ Finset.univ.filter (fun e : Fin n => (idx (ix2 e (0 : Fin 1))).toInt = (r.val : ℤ)), upd (ix2 e q) := by
  simp only [Ideal.hostScatterAdd]
  congr 1
  symm
  refine Finset.sum_bij (fun e _ => ix2 e q) ?_ ?_ ?_ ?_
  · intro e he
    rw [Finset.mem_filter] at he ⊢
    exact ⟨Finset.mem_univ _, scatter_some d huw hiw hsd hivd idx e q r he.2⟩
  · intro e₁ _ e₂ _ h
    exact congrFun h (0 : Fin 2)
  · intro j hj
    obtain ⟨e, q', rfl⟩ : ∃ (e : Fin n) (q' : Fin D), j = ix2 e q' := ⟨j 0, j 1, eq_ix2 j⟩
    rw [Finset.mem_filter] at hj
    obtain ⟨hz, rfl⟩ := scatter_of_some d huw hiw hsd hivd idx e q' r q hj.2
    exact ⟨e, Finset.mem_filter.2 ⟨Finset.mem_univ _, hz⟩, rfl⟩
  · intro e _; rfl

/-- A vector of b entries cast to one row reads, at (u, j), the operand at j. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) := by
  refine shapeCast_apply x h _ _ ?_
  have hu : u.val = 0 := by omega
  rw [Shape.rowMajor_val_two, Shape.rowMajor_val_one]
  show j.val = u.val * b + j.val
  rw [hu, Nat.zero_mul, Nat.zero_add]

/-- A one-row matrix broadcast down a rows reads, at (p, j), the row's entry j. -/
theorem broadcastTo_1b_ab_apply {α : Type} {a b : ℕ} (v : (⟨2, ![1, b]⟩ : Shape).Idx → α) (h : (⟨2, ![1, b]⟩ : Shape).Broadcasts ⟨2, ![a, b]⟩)
    (p : Fin a) (j : Fin b) : broadcastTo ⟨2, ![a, b]⟩ v h (ix2 p j) = v (ix2 (0 : Fin 1) j) := by
  refine broadcastTo_apply v h (ix2 p j) (ix2 (0 : Fin 1) j) fun ax => ?_
  match ax with
  | ⟨0, _⟩ =>
    show (0 : Nat) = if (1 : Nat) = 1 then 0 else p.val
    rw [if_pos rfl]
  | ⟨1, _⟩ =>
    show j.val = if b = 1 then 0 else j.val
    split
    · have := j.isLt; omega
    · rfl

end Cert.Lib.RowOps
-- ==== Proof.KRead.lean ====
/-
  The kernel program's host computations read entry by entry: they are the plain forms of `Cert.Gcn`.

  A filling take of rows followed by an accumulating scatter is `aggPre`: row d of the result is the zero word's
  value plus the sum, over the edges whose destination word is d, of the taken rows. A vector cast to one column is
  `col`, cast to one row is `row`; narrowing a matrix to a shorter float format changes nothing over the extended reals.
-/
import proofs.«402308_j1743756722177_2_alg».proof.Proof.Chain
import proofs.«402308_j1743756722177_2_alg».proof.Proof.Spec
import proofs.«402308_j1743756722177_2_alg».proof.Proof.LibColumns
import proofs.«402308_j1743756722177_2_alg».proof.Proof.LibRowOps
import Idealize.ShloMosaic.Lib.StableHlo.Predicate
import Idealize.ShloMosaic.Lib.ReduceAll
import Idealize.ShloMosaic.Lib.ValueIdx
import Idealize.ShloMosaic.Lib.Pipeline.Value

noncomputable section

namespace Cert.KernelIdeal.Val

open Idealize.ShloMosaic Idealize.ShloMosaic.ValueIdx Cert.KernelIdeal Cert.KernelIdeal.Gen

/-- A vector laid as one column reads, at (p, 0), the vector at p. -/
private theorem col1_apply {α : Type} {n : ℕ} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p (0 : Fin 1)) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

/-- A vector laid along the rows of an n × m matrix reads, at (p, q), the vector at p. -/
private theorem rows_apply {α : Type} {n m : ℕ} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

/-- The wrapped words, entry by entry. -/
private theorem wrapT_apply (sv : IVec S1300000 32) (e : Fin 1300000) :
    wrapT sv (ix1 e) = Cert.Gcn.wrap (sv (ix1 e)) := rfl

/-- The two signed comparisons hold together exactly when the word names a row. -/
private theorem inRows_iff (w : BitVec 32) :
    IntOp.andi (IntOp.cmpi .sge w 0#32) (IntOp.cmpi .sle w 99999#32) = 1#1 ↔ Cert.Gcn.InRows w := by
  rw [IntOp.andi_eq_one]
  unfold IntOp.cmpi Cert.Gcn.InRows
  have h0 : (0#32 : BitVec 32).toInt = 0 := by decide
  have h1 : (99999#32 : BitVec 32).toInt = 99999 := by decide
  simp only [StableHlo.Predicate.ofBool_eq_one_iff, BitVec.sle, decide_eq_true_eq, h0, h1]

/-- A conjunction taken along the one column of an n × 1 array of bits, started from the set bit, is at e the bit (e, 0):
    the only entry of row e. -/
private theorem reduceAnd_col1 {n : ℕ} (x : IVec (⟨2, ![n, 1]⟩ : Shape) 1)
    (h : (⟨2, ![n, 1]⟩ : Shape).ReducesTo [1] ⟨1, ![n]⟩) {u : Shape} (hu : 0 < u.numel) (e : Fin n) :
    Host.reduce IntOp.andi x (constantI u 1 1#1) h hu (ix1 e) = x (ix2 e (0 : Fin 1)) := by
  classical
  rw [Host.reduce_eq_fold]
  have hset : (Finset.univ.filter fun i : (⟨2, ![n, 1]⟩ : Shape).Idx => h.drop i = ix1 e) = {ix2 e (0 : Fin 1)} := by
    ext i
    simp only [Finset.mem_filter, Finset.mem_univ, true_and, Finset.mem_singleton]
    have hv : (h.drop i 0 : Nat) = i 0 := Shape.ReducesTo.drop_apply_val h i 0
    constructor
    · intro hd
      rw [hd] at hv
      obtain ⟨p, q, rfl⟩ : ∃ (p : Fin n) (q : Fin 1), i = ix2 p q := ⟨i 0, i 1, eq_ix2 i⟩
      have hp : e = p := Fin.ext hv
      have hq : q = 0 := Subsingleton.elim _ _
      rw [hp, hq]
    · rintro rfl
      funext b
      have hb : b = 0 := Subsingleton.elim _ _
      subst hb
      exact Fin.ext hv
  rw [hset, Finset.fold_singleton]
  show IntOp.andi (x (ix2 e (0 : Fin 1))) 1#1 = x (ix2 e (0 : Fin 1))
  generalize x (ix2 e (0 : Fin 1)) = c
  revert c; decide

/-- Per edge, the mask bit is the conjunction of the two signed comparisons of the wrapped word. -/
private theorem maskT_apply (sv : IVec S1300000 32) (e : Fin 1300000) :
    maskT sv (ix1 e) = IntOp.andi (IntOp.cmpi .sge (Cert.Gcn.wrap (sv (ix1 e))) 0#32)
      (IntOp.cmpi .sle (Cert.Gcn.wrap (sv (ix1 e))) 99999#32) := by
  unfold maskT
  rw [reduceAnd_col1]
  show IntOp.andi (IntOp.cmpi .sge (asCol (wrapT sv) (ix2 e (0 : Fin 1))) 0#32)
      (IntOp.cmpi .sle (asCol (wrapT sv) (ix2 e (0 : Fin 1))) 99999#32) = _
  rw [show asCol (wrapT sv) (ix2 e (0 : Fin 1)) = wrapT sv (ix1 e) from col1_apply _ _ _, wrapT_apply]

/-- The words as one column, wrapped: at (e, 0) the wrapped word of edge e. -/
private theorem asCol_wrapT_apply (sv : IVec S1300000 32) (e : Fin 1300000) :
    asCol (wrapT sv) (ix2 e (0 : Fin 1)) = Cert.Gcn.wrap (sv (ix1 e)) := by
  rw [show asCol (wrapT sv) (ix2 e (0 : Fin 1)) = wrapT sv (ix1 e) from col1_apply _ _ _, wrapT_apply]

/-- The rows of a 64-column matrix taken at the wrapped words: entry (e, q) is entry (r, q), r the clamped row of word e. -/
private theorem gather64_apply (X : FVec Ideal S100000x64 .f32) (sv : IVec S1300000 32) (e : Fin 1300000) (q : Fin 64) :
    Host.gather gather_S100000x64_S1300000x1_S1300000x64_1_0_n_n_0_1_164 X (asCol (wrapT sv)) (ix2 e q)
      = X (ix2 (Cert.Gcn.rowOf (Cert.Gcn.wrap (sv (ix1 e)))) q) := by
  rw [Cert.Lib.RowOps.rowGather_apply _ rfl rfl rfl rfl rfl rfl rfl X _ e q (by decide)]
  refine congrArg X (congrArg (fun r : Fin 100000 => ix2 r q) (Fin.ext ?_))
  show min (asCol (wrapT sv) (ix2 e (0 : Fin 1))).toInt.toNat (100000 - 1) = min (Cert.Gcn.wrap (sv (ix1 e))).toInt.toNat 99999
  rw [asCol_wrapT_apply]

/-- The filling take of a 64-column matrix, entry by entry. -/
private theorem takeT64_apply (X : FVec Ideal S100000x64 .f32) (sv : IVec S1300000 32) (e : Fin 1300000) (q : Fin 64) :
    takeT64 X sv (ix2 e q) = Cert.Gcn.takeFill X sv e q := by
  unfold takeT64
  rw [select_apply, rows_apply, maskT_apply, gather64_apply]
  unfold Cert.Gcn.takeFill Scalar.select
  by_cases hr : Cert.Gcn.InRows (Cert.Gcn.wrap (sv (ix1 e)))
  · exact (if_pos ((inRows_iff _).2 hr)).trans (if_pos hr).symm
  · exact (if_neg (fun hc => hr ((inRows_iff _).1 hc))).trans (if_neg hr).symm

/-- The rows of a 47-column matrix taken at the wrapped words: entry (e, q) is entry (r, q), r the clamped row of word e. -/
private theorem gather47_apply (X : FVec Ideal S100000x47 .f32) (sv : IVec S1300000 32) (e : Fin 1300000) (q : Fin 47) :
    Host.gather gather_S100000x47_S1300000x1_S1300000x47_1_0_n_n_0_1_147 X (asCol (wrapT sv)) (ix2 e q)
      = X (ix2 (Cert.Gcn.rowOf (Cert.Gcn.wrap (sv (ix1 e)))) q) := by
  rw [Cert.Lib.RowOps.rowGather_apply _ rfl rfl rfl rfl rfl rfl rfl X _ e q (by decide)]
  refine congrArg X (congrArg (fun r : Fin 100000 => ix2 r q) (Fin.ext ?_))
  show min (asCol (wrapT sv) (ix2 e (0 : Fin 1))).toInt.toNat (100000 - 1) = min (Cert.Gcn.wrap (sv (ix1 e))).toInt.toNat 99999
  rw [asCol_wrapT_apply]

/-- The filling take of a 47-column matrix, entry by entry. -/
private theorem takeT47_apply (X : FVec Ideal S100000x47 .f32) (sv : IVec S1300000 32) (e : Fin 1300000) (q : Fin 47) :
    takeT47 X sv (ix2 e q) = Cert.Gcn.takeFill X sv e q := by
  unfold takeT47
  rw [select_apply, rows_apply, maskT_apply, gather47_apply]
  unfold Cert.Gcn.takeFill Scalar.select
  by_cases hr : Cert.Gcn.InRows (Cert.Gcn.wrap (sv (ix1 e)))
  · exact (if_pos ((inRows_iff _).2 hr)).trans (if_pos hr).symm
  · exact (if_neg (fun hc => hr ((inRows_iff _).1 hc))).trans (if_neg hr).symm

/-- The edges a scatter-add lands on row d, read off the destination words kept as one column. -/
private theorem hits_eq (dv : IVec S1300000 32) (d : Fin 100000) :
    (Finset.univ.filter fun e : Fin 1300000 => (asCol dv (ix2 e (0 : Fin 1))).toInt = (d.val : ℤ)) = Cert.Gcn.hits dv d := by
  unfold Cert.Gcn.hits
  refine Finset.filter_congr fun e _ => ?_
  rw [show asCol dv (ix2 e (0 : Fin 1)) = dv (ix1 e) from col1_apply _ _ _]

/-- The plain sum per destination, read at the entry (d, q). -/
private theorem aggPre_apply {D : ℕ} (X : Cert.Gcn.Mat 100000 D) (sv dv : Cert.Gcn.Wrd 1300000) (d : Fin 100000) (q : Fin D) :
    Cert.Gcn.aggPre X sv dv (ix2 d q) = Cert.Gcn.zeroV + ∑ e ∈ Cert.Gcn.hits dv d, Cert.Gcn.takeFill X sv e q := rfl

/-- Equal first terms and entrywise equal summands over the same set give equal totals. -/
private theorem add_sum_congr {ι : Type} (s : Finset ι) (a b : EReal) (f g : ι → EReal) (hab : a = b)
    (h : ∀ e, f e = g e) : a + ∑ e ∈ s, f e = b + ∑ e ∈ s, g e := by
  rw [hab, Finset.sum_congr rfl fun e _ => h e]

/-- The take-and-sum over 64 columns is the plain sum per destination of the filling take. -/
theorem aggT64_eq (X : FVec Ideal S100000x64 .f32) (sv dv : IVec S1300000 32) :
    (aggT64 X sv dv : S100000x64.Idx → EReal) = Cert.Gcn.aggPre X sv dv := by
  funext i
  obtain ⟨d, q, rfl⟩ : ∃ (d : Fin 100000) (q : Fin 64), i = ix2 d q := ⟨i 0, i 1, eq_ix2 i⟩
  have hdef : aggT64 X sv dv = Ideal.hostScatterAdd scatter_S100000x64_S1300000x1_S1300000x64_1_0_0_1
      (broadcastInDim S100000x64 ![] bcast_S_S100000x64 (constant (F := Ideal) S_ .f32 0x00000000#32))
      (asCol dv) (takeT64 X sv) := rfl
  refine (congrFun hdef (ix2 d q)).trans ((Cert.Lib.RowOps.rowScatterAdd_apply _ rfl rfl rfl rfl _ _ _ d q).trans ?_)
  refine (add_sum_congr _ _ Cert.Gcn.zeroV _ _ rfl fun e => takeT64_apply X sv e q).trans ?_
  rewrite [hits_eq]
  exact (aggPre_apply X sv dv d q).symm

/-- The take-and-sum over 47 columns is the plain sum per destination of the filling take. -/
theorem aggT47_eq (X : FVec Ideal S100000x47 .f32) (sv dv : IVec S1300000 32) :
    (aggT47 X sv dv : S100000x47.Idx → EReal) = Cert.Gcn.aggPre X sv dv := by
  funext i
  obtain ⟨d, q, rfl⟩ : ∃ (d : Fin 100000) (q : Fin 47), i = ix2 d q := ⟨i 0, i 1, eq_ix2 i⟩
  have hdef : aggT47 X sv dv = Ideal.hostScatterAdd scatter_S100000x47_S1300000x1_S1300000x47_1_0_0_1
      (broadcastInDim S100000x47 ![] bcast_S_S100000x47 (constant (F := Ideal) S_ .f32 0x00000000#32))
      (asCol dv) (takeT47 X sv) := rfl
  refine (congrFun hdef (ix2 d q)).trans ((Cert.Lib.RowOps.rowScatterAdd_apply _ rfl rfl rfl rfl _ _ _ d q).trans ?_)
  refine (add_sum_congr _ _ Cert.Gcn.zeroV _ _ rfl fun e => takeT47_apply X sv e q).trans ?_
  rewrite [hits_eq]
  exact (aggPre_apply X sv dv d q).symm

/-- The per-node factors cast to one column. -/
theorem col_eq (v : FVec Ideal S100000 .f32) :
    (shapeCast S100000x1 v shapeCasts_S100000_S100000x1 : S100000x1.Idx → EReal) = Cert.Gcn.col v := by
  funext i
  obtain ⟨p, u, rfl⟩ : ∃ (p : Fin 100000) (u : Fin 1), i = ix2 p u := ⟨i 0, i 1, eq_ix2 i⟩
  exact Cert.Lib.Columns.shapeCast_a_a1_apply v _ p u

/-- The first bias cast to one row. -/
theorem row64_eq (b : FVec Ideal S64 .f32) :
    (shapeCast S1x64 b shapeCasts_S64_S1x64 : S1x64.Idx → EReal) = Cert.Gcn.row b := by
  funext i
  obtain ⟨u, j, rfl⟩ : ∃ (u : Fin 1) (j : Fin 64), i = ix2 u j := ⟨i 0, i 1, eq_ix2 i⟩
  exact Cert.Lib.RowOps.shapeCast_b_1b_apply b _ u j

/-- The second bias cast to one row. -/
theorem row47_eq (b : FVec Ideal S47 .f32) :
    (shapeCast S1x47 b shapeCasts_S47_S1x47 : S1x47.Idx → EReal) = Cert.Gcn.row b := by
  funext i
  obtain ⟨u, j, rfl⟩ : ∃ (u : Fin 1) (j : Fin 47), i = ix2 u j := ⟨i 0, i 1, eq_ix2 i⟩
  exact Cert.Lib.RowOps.shapeCast_b_1b_apply b _ u j

/-- Narrowing the first weight matrix to the short format is the identity over the extended reals. -/
theorem trunc64_eq (w : FVec Ideal S256x64 .f32) :
    ((truncf .bf16 w bitsLt_bf16_f32 : FVec Ideal S256x64 .bf16) : S256x64.Idx → EReal) = w := by
  funext i; rfl

/-- Narrowing the second weight matrix to the short format is the identity over the extended reals. -/
theorem trunc47_eq (w : FVec Ideal S64x47 .f32) :
    ((truncf .bf16 w bitsLt_bf16_f32 : FVec Ideal S64x47 .bf16) : S64x47.Idx → EReal) = w := by
  funext i; rfl

end Cert.KernelIdeal.Val

end
-- ==== Proof.Stage0.lean ====
/-
  The first launch, over the whole arrays. Grid point t handles rows 5000·t … 5000·t + 4999: it multiplies that
  block of x by the whole weight matrix and scales each row by that row's entry of the one-column factor. The 20
  blocks tile the 100 000 rows, so after the launch the output array is `Cert.Gcn.stage0` of the three input arrays.
-/
import proofs.«402308_j1743756722177_2_alg».proof.Proof.Gen.KernelIdeal.Frame
import proofs.«402308_j1743756722177_2_alg».proof.Proof.Spec
import proofs.«402308_j1743756722177_2_alg».proof.Proof.LibColumns
import proofs.«402308_j1743756722177_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen

/-- Row coordinate of the left factor read by the block product: the output's row. -/
private theorem lhs_blockProduct_0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
/-- Column coordinate of the left factor: the summation index. -/
private theorem lhs_blockProduct_1 (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
/-- Row coordinate of the right factor: the summation index. -/
private theorem rhs_blockProduct_0 (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
/-- Column coordinate of the right factor: the output's column. -/
private theorem rhs_blockProduct_1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- The product of a 5000 × 256 block and a 256 × 64 matrix into the zero matrix, at an entry: the sum over the
    256 inner positions of the products of the factors' entries. -/
private theorem blockProduct_apply (a : FVec Ideal S5000x256 .bf16) (b : FVec Ideal S256x64 .bf16) (p : Fin 5000) (q : Fin 64) :
    FloatOps.matmul dot_S5000x256_S256x64_S5000x64_1_0_0_1_n_n none a b (constant S5000x64 .f32 0x00000000#32) (ix2 p q)
      = ∑ t : Fin 256, a (ix2 p t) * b (ix2 t q) := by
  rw [Ideal.matmul_constant_zero_apply, ← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx (ix2 p q) ((ValueIdx.contrEquiv1 dot_S5000x256_S256x64_S5000x64_1_0_0_1_n_n 256 rfl rfl).symm k) = ix2 p k := funext fun ax => Fin.ext (by
    match ax with
    | ⟨0, _⟩ => exact lhs_blockProduct_0 _ _
    | ⟨1, _⟩ => exact (lhs_blockProduct_1 _ _).trans hk)
  have er : dot_S5000x256_S256x64_S5000x64_1_0_0_1_n_n.rhsIdx (ix2 p q) ((ValueIdx.contrEquiv1 dot_S5000x256_S256x64_S5000x64_1_0_0_1_n_n 256 rfl rfl).symm k) = ix2 k q := funext fun ax => Fin.ext (by
    match ax with
    | ⟨0, _⟩ => exact (rhs_blockProduct_0 _ _).trans hk
    | ⟨1, _⟩ => exact rhs_blockProduct_1 _ _)
  rw [el, er]

/-- What one grid point computes, at an entry of its block: the block of x times the weight matrix, the row then
    scaled by that row's entry of the factor column. -/
private theorem payload_apply (x0 : Vec Ideal S5000x256 .f32) (x1 : Vec Ideal S256x64 .bf16) (x2 : Vec Ideal S5000x1 .f32)
    (p : Fin 5000) (q : Fin 64) :
    k0_pay1 x0 x1 x2 (ix2 p q) = (∑ t : Fin 256, x0 (ix2 p t) * x1 (ix2 t q)) * x2 (ix2 p (0 : Fin 1)) := by
  unfold k0_pay1
  rw [mulf_apply, Cert.Lib.Columns.broadcastTo_a1_ab_apply, shapeCast_self, shapeCast_self]
  simp only [matmul]
  rw [blockProduct_apply]
  rfl

-- the buffer contents the region is entered with
variable (V : (c : Dev nD) → (b : Ref sig .tc) → Buf (Elt Ideal) ((c : Thread nD τ).loc b))

/-- The offsets of a whole-block access are all zero. -/
private theorem zeroOffsets : (![0, 0] : Fin 2 → Nat) = fun _ => 0 := funext fun a => by fin_cases a <;> rfl

/-- What one grid point computes, at any entry j of its block. -/
private theorem payload_at (x0 : Vec Ideal S5000x256 .f32) (x1 : Vec Ideal S256x64 .bf16) (x2 : Vec Ideal S5000x1 .f32)
    (j : S5000x64.Idx) :
    k0_pay1 x0 x1 x2 j
      = (∑ t : Fin 256, x0 (ix2 (⟨(j 0).val, (j 0).isLt⟩ : Fin 5000) t) * x1 (ix2 t (⟨(j 1).val, (j 1).isLt⟩ : Fin 64)))
          * x2 (ix2 (⟨(j 0).val, (j 0).isLt⟩ : Fin 5000) (0 : Fin 1)) := by
  obtain ⟨p, q, rfl⟩ : ∃ (p : Fin 5000) (q : Fin 64), j = ix2 p q := ⟨j 0, j 1, eq_ix2 j⟩
  exact payload_apply x0 x1 x2 p q

/-- The block numbers of the four windows at grid point t: x, the factor column and the output are at block t of
    their rows; the weight matrix is one block. -/
private theorem blockNumbers : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 ∧ t.val < 20 :=
  (by decide +kernel : ∀ t : Fin grid0.N, _)

/-- What grid point t writes back is block t of the row-scaled product of the whole arrays. -/
private theorem writtenBack_eq (c : Dev nD) (t : Fin cfg0.N) :
    (dat0 (F := Ideal) V c).flushed 3 t
      = ((cfg0.win 3).blk t).view.read (Elt Ideal) (Cert.Gcn.stage0 (V c main_arg0) (V c main_v17) (V c main_v16)) := by
  show (cfg0.win 3).cut (grid0.coords t) ((dat0 (F := Ideal) V c).after 3 t) = _
  rw [after0_3]
  unfold out0_3
  rw [View.canon_unit_zero zeroOffsets]
  simp only [View.ld_unit_zero (S := S5000x256) zeroOffsets, View.ld_unit_zero (S := S256x64) zeroOffsets, View.ld_unit_zero (S := S5000x1) zeroOffsets]
  obtain ⟨e0, e1, e2, e3, e4, e5, e6, e7, e8⟩ := blockNumbers t
  funext j
  refine (payload_at _ _ _ j).trans ?_
  show _ = Cert.Gcn.stage0 (V c main_arg0) (V c main_v17) (V c main_v16) (((cfg0.win 3).blk t).view.emb j)
  unfold Cert.Gcn.stage0
  have hj0 : (j 0).val < 5000 := (j 0).isLt
  have hj1 : (j 1).val < 64 := (j 1).isLt
  have hx : ∀ k : Fin 256, iblk0 V c 0 t (ix2 (⟨(j 0).val, hj0⟩ : Fin 5000) k)
      = V c main_arg0 (ix2 ((((cfg0.win 3).blk t).view.emb j) 0) k) := by
    intro k
    show V c main_arg0 (((cfg0.win 0).blk t).view.emb (ix2 (⟨(j 0).val, hj0⟩ : Fin 5000) k)) = _
    congr 1
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 256 + 1 * k.val = k.val; omega
  have hw : ∀ k : Fin 256, iblk0 V c 1 t (ix2 k (⟨(j 1).val, hj1⟩ : Fin 64))
      = V c main_v17 (ix2 k ((((cfg0.win 3).blk t).view.emb j) 1)) := by
    intro k
    show V c main_v17 (((cfg0.win 1).blk t).view.emb (ix2 k (⟨(j 1).val, hj1⟩ : Fin 64))) = _
    congr 1
    funext a; apply Fin.ext
    match a with
    | ⟨0, _⟩ => show win0_1.index t (0 : Fin 2) * 256 + 1 * k.val = k.val; omega
    | ⟨1, _⟩ => show win0_1.index t (1 : Fin 2) * 64 + 1 * (j 1).val = win0_3.index t (1 : Fin 2) * 64 + 1 * (j 1).val; omega
  have hd : iblk0 V c 2 t (ix2 (⟨(j 0).val, hj0⟩ : Fin 5000) (0 : Fin 1))
      = V c main_v16 (ix2 ((((cfg0.win 3).blk t).view.emb j) 0) (0 : Fin 1)) := by
    show V c main_v16 (((cfg0.win 2).blk t).view.emb (ix2 (⟨(j 0).val, hj0⟩ : Fin 5000) (0 : Fin 1))) = _
    congr 1
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega
  exact congrArg₂ (· * ·) (Finset.sum_congr rfl fun k _ => by rw [hx k, hw k]) hd

/-- An entry of the array lies in grid point t's block iff each coordinate lies in the block's range on its axis. -/
private theorem mem_block (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v18).slice (win0_3.rect t)).set ↔ _
  rw [View.set_slice_whole, Rect.mem_set_unit]
  exact Iff.rfl

/-- Every one of the 20 row blocks is some grid point's. -/
private theorem blockOnto : ∀ b : Fin 20, ∃ t : Fin cfg0.N, win0_3.index t = ![b.val, 0] :=
  (by decide +kernel : ∀ b : Fin 20, ∃ t : Fin grid0.N, win0_3.index t = ![b.val, 0])

/-- The 20 blocks tile the 100 000 rows: row r lies in block r / 5000. -/
private theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := blockOnto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- After the first launch its output array is the row-scaled product of the input arrays as the launch finds them. -/
theorem final0 (c : Dev nD) :
    ((dat0 (F := Ideal) V c).arrAt 3 cfg0.N : S100000x64.Idx → EReal)
      = Cert.Gcn.stage0 (V c main_arg0) (V c main_v17) (V c main_v16) :=
  (dat0 (F := Ideal) V c).arrAt_eq_of_cover 3 (Cert.Gcn.stage0 (V c main_arg0) (V c main_v17) (V c main_v16))
    (fun t _ => writtenBack_eq V c t) covered

end Cert.KernelIdeal.Val

end
-- ==== Proof.Stage1.lean ====
/-
  The second launch, over the whole arrays. Grid point t handles rows 5000·t … 5000·t + 4999 of the summed rows: it
  scales each by its row's factor, adds the bias row, rectifies, multiplies by the whole second weight matrix and
  scales each row by its factor again. The 20 blocks tile the 100 000 rows, so after the launch the output array is
  `Cert.Gcn.stage1` of the four input arrays.
-/
import proofs.«402308_j1743756722177_2_alg».proof.Proof.Gen.KernelIdeal.Frame
import proofs.«402308_j1743756722177_2_alg».proof.Proof.Spec
import proofs.«402308_j1743756722177_2_alg».proof.Proof.LibColumns
import proofs.«402308_j1743756722177_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen

/-- In the 5000 × 64 by 64 × 47 product, the left factor's row is the output's row. -/
private theorem lhs_mm1_0 (i : S5000x47.Idx) (q : dot_S5000x64_S64x47_S5000x47_1_0_0_1_n_n.contr.Idx) :
    (dot_S5000x64_S64x47_S5000x47_1_0_0_1_n_n.lhsIdx i q 0).val = (i 0).val := by
  unfold DotDims.lhsIdx
  rw [dif_neg (show ¬(0 : Fin S5000x64.rank) ∈ dot_S5000x64_S64x47_S5000x47_1_0_0_1_n_n.lhsBatch by decide), dif_pos (show (0 : Fin S5000x64.rank) ∈ dot_S5000x64_S64x47_S5000x47_1_0_0_1_n_n.lhsNonContracting by decide)]
  rfl
/-- The left factor's column is the summation index. -/
private theorem lhs_mm1_1 (i : S5000x47.Idx) (q : dot_S5000x64_S64x47_S5000x47_1_0_0_1_n_n.contr.Idx) :
    (dot_S5000x64_S64x47_S5000x47_1_0_0_1_n_n.lhsIdx i q 1).val = (q ⟨0, by decide⟩).val :=
  dot_S5000x64_S64x47_S5000x47_1_0_0_1_n_n.lhsIdx_val_of_single rfl i q
/-- The right factor's row is the summation index. -/
private theorem rhs_mm1_0 (i : S5000x47.Idx) (q : dot_S5000x64_S64x47_S5000x47_1_0_0_1_n_n.contr.Idx) :
    (dot_S5000x64_S64x47_S5000x47_1_0_0_1_n_n.rhsIdx i q 0).val = (q ⟨0, by decide⟩).val :=
  dot_S5000x64_S64x47_S5000x47_1_0_0_1_n_n.rhsIdx_val_of_single rfl i q
/-- The right factor's column is the output's column. -/
private theorem rhs_mm1_1 (i : S5000x47.Idx) (q : dot_S5000x64_S64x47_S5000x47_1_0_0_1_n_n.contr.Idx) :
    (dot_S5000x64_S64x47_S5000x47_1_0_0_1_n_n.rhsIdx i q 1).val = (i 1).val := by
  unfold DotDims.rhsIdx
  rw [dif_neg (show ¬(1 : Fin S64x47.rank) ∈ dot_S5000x64_S64x47_S5000x47_1_0_0_1_n_n.rhsBatch by decide), dif_pos (show (1 : Fin S64x47.rank) ∈ dot_S5000x64_S64x47_S5000x47_1_0_0_1_n_n.rhsNonContracting by decide)]
  rfl

/-- A 5000 × 64 by 64 × 47 product into a zero matrix, at entry (p, q): the sum over t of X[p, t] · W[t, q]. -/
private theorem mm1_apply (X : FVec Ideal S5000x64 .bf16) (W : FVec Ideal S64x47 .bf16) (p : Fin 5000) (q : Fin 47) :
    matmul dot_S5000x64_S64x47_S5000x47_1_0_0_1_n_n none X W (constant (F := Ideal) S5000x47 .f32 0x00000000#32) (ix2 p q)
      = ∑ t : Fin 64, X (ix2 p t) * W (ix2 t q) := by
  show FloatOps.matmul dot_S5000x64_S64x47_S5000x47_1_0_0_1_n_n none X W (constant (F := Ideal) S5000x47 .f32 0x00000000#32) (ix2 p q) = _
  rw [Ideal.matmul_constant_zero_apply, ← Equiv.sum_comp (ValueIdx.contrEquiv1 dot_S5000x64_S64x47_S5000x47_1_0_0_1_n_n 64 rfl rfl).symm]
  refine Finset.sum_congr rfl fun k _ => ?_
  have hk := ValueIdx.contrEquiv1_symm_val dot_S5000x64_S64x47_S5000x47_1_0_0_1_n_n 64 rfl rfl k
  have el : dot_S5000x64_S64x47_S5000x47_1_0_0_1_n_n.lhsIdx (ix2 p q) ((ValueIdx.contrEquiv1 dot_S5000x64_S64x47_S5000x47_1_0_0_1_n_n 64 rfl rfl).symm k) = ix2 p k := funext fun a => Fin.ext (by
    match a with
    | ⟨0, _⟩ => exact lhs_mm1_0 _ _
    | ⟨1, _⟩ => exact (lhs_mm1_1 _ _).trans hk)
  have er : dot_S5000x64_S64x47_S5000x47_1_0_0_1_n_n.rhsIdx (ix2 p q) ((ValueIdx.contrEquiv1 dot_S5000x64_S64x47_S5000x47_1_0_0_1_n_n 64 rfl rfl).symm k) = ix2 k q := funext fun a => Fin.ext (by
    match a with
    | ⟨0, _⟩ => exact (rhs_mm1_0 _ _).trans hk
    | ⟨1, _⟩ => exact rhs_mm1_1 _ _)
  rw [el, er]

/-- The block's result at entry (p, q): row p of the summed rows times its factor plus the bias row, rectified,
    times column q of the weights, times the row's factor. -/
private theorem pay1_apply (v0 : Vec Ideal S5000x1 .f32) (v2 : Vec Ideal S5000x64 .f32) (v6 : Vec Ideal S1x64 .f32)
    (v13 : Vec Ideal S64x47 .bf16) (v16 : Vec Ideal S5000x1 .f32) (p : Fin 5000) (q : Fin 47) :
    k1_pay1 (F := Ideal) v0 v2 v6 v13 v16 (ix2 p q)
      = (∑ t : Fin 64, max (v0 (ix2 p (0 : Fin 1)) * v2 (ix2 p t) + v6 (ix2 (0 : Fin 1) t)) Cert.Gcn.zeroV * v13 (ix2 t q))
          * v16 (ix2 p (0 : Fin 1)) := by
  unfold k1_pay1
  simp only [shapeCast_self]
  rw [mulf_apply, mm1_apply, Cert.Lib.Columns.broadcastTo_a1_ab_apply]
  refine congrArg (· * v16 (ix2 p (0 : Fin 1))) (Finset.sum_congr rfl fun t _ => ?_)
  rw [truncf_apply, maximumf_apply, addf_apply, mulf_apply, Cert.Lib.Columns.broadcastTo_a1_ab_apply,
    Cert.Lib.RowOps.broadcastTo_1b_ab_apply, broadcast_apply]
  rfl

/-- The zero offsets of a whole-block access, as a constant function. -/
private theorem hz1 : (![0, 0] : Fin 2 → Nat) = fun _ => 0 := funext fun a => by fin_cases a <;> rfl

/-- Where each window's block sits at grid point t: windows 0, 1 and 4 at row block t, windows 2 and 3 at the origin. -/
private theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- There are 20 grid points. -/
private theorem N1 : cfg1.N = 20 := by decide +kernel

/-- If a block's four inputs are rows 5000·n … 5000·n + 4999 of the summed rows and of the factor column, the whole
    bias row and the whole weight matrix, its result at (p, q) is `stage1` of the arrays at (5000·n + p, q). -/
private theorem block1_apply (A : Cert.Gcn.Mat 100000 64) (d : Cert.Gcn.Mat 100000 1) (b : Cert.Gcn.Mat 1 64) (w : Cert.Gcn.Mat 64 47)
    (x0 : Vec Ideal S5000x64 .f32) (x1 : Vec Ideal S5000x1 .f32) (x2 : Vec Ideal S1x64 .f32) (x3 : Vec Ideal S64x47 .bf16)
    (p : Fin 5000) (q : Fin 47) (r : Fin 100000)
    (h0 : ∀ k : Fin 64, x0 (ix2 p k) = A (ix2 r k)) (h1 : x1 (ix2 p (0 : Fin 1)) = d (ix2 r (0 : Fin 1)))
    (h2 : ∀ k : Fin 64, x2 (ix2 (0 : Fin 1) k) = b (ix2 (0 : Fin 1) k)) (h3 : ∀ k : Fin 64, x3 (ix2 k q) = w (ix2 k q)) :
    k1_pay1 (F := Ideal) x1 x0 x2 x3 x1 (ix2 p q) = Cert.Gcn.stage1 A d b w (ix2 r q) := by
  rw [pay1_apply]
  show _ = (∑ t : Fin 64, max (d (ix2 r (0 : Fin 1)) * A (ix2 r t) + b (ix2 (0 : Fin 1) t)) Cert.Gcn.zeroV * w (ix2 t q)) * d (ix2 r (0 : Fin 1))
  rw [h1]
  refine congrArg (· * d (ix2 r (0 : Fin 1))) (Finset.sum_congr rfl fun t _ => ?_)
  rw [h0 t, h2 t, h3 t]

-- the buffer contents the region is entered with
variable (V : (c : Dev nD) → (b : Ref sig .tc) → Buf (Elt Ideal) ((c : Thread nD τ).loc b))

/-- Window 0's block at point t is rows 5000·t … 5000·t + 4999 of the summed rows. -/
private theorem iblk1_0_apply (c : Dev nD) (t : Fin cfg1.N) (p : Fin 5000) (k : Fin 64) (r : Fin 100000)
    (hr : r.val = 5000 * t.val + p.val) :
    (iblk1 (F := Ideal) V c 0 t : Vec Ideal S5000x64 .f32) (ix2 p k) = (V c main_v22 : S100000x64.Idx → EReal) (ix2 r k) := by
  obtain ⟨e00, e01, -⟩ := idx_facts1 t
  unfold iblk1
  rw [View.read_apply]
  show V c main_v22 _ = V c main_v22 _
  congr 1
  funext a
  apply Fin.ext
  match a with
  | ⟨0, _⟩ => show win1_0.index t (0 : Fin 2) * 5000 + 1 * p.val = r.val; omega
  | ⟨1, _⟩ => show win1_0.index t (1 : Fin 2) * 64 + 1 * k.val = k.val; omega

/-- Window 1's block at point t is rows 5000·t … 5000·t + 4999 of the factor column. -/
private theorem iblk1_1_apply (c : Dev nD) (t : Fin cfg1.N) (p : Fin 5000) (r : Fin 100000)
    (hr : r.val = 5000 * t.val + p.val) :
    (iblk1 (F := Ideal) V c 1 t : Vec Ideal S5000x1 .f32) (ix2 p (0 : Fin 1)) = (V c main_v16 : S100000x1.Idx → EReal) (ix2 r (0 : Fin 1)) := by
  obtain ⟨-, -, e10, e11, -⟩ := idx_facts1 t
  unfold iblk1
  rw [View.read_apply]
  show V c main_v16 _ = V c main_v16 _
  congr 1
  funext a
  apply Fin.ext
  match a with
  | ⟨0, _⟩ => show win1_1.index t (0 : Fin 2) * 5000 + 1 * p.val = r.val; omega
  | ⟨1, _⟩ => show win1_1.index t (1 : Fin 2) * 1 + 1 * 0 = 0; omega

/-- Window 2's block at every point is the whole bias row. -/
private theorem iblk1_2_apply (c : Dev nD) (t : Fin cfg1.N) (k : Fin 64) :
    (iblk1 (F := Ideal) V c 2 t : Vec Ideal S1x64 .f32) (ix2 (0 : Fin 1) k) = (V c main_v23 : S1x64.Idx → EReal) (ix2 (0 : Fin 1) k) := by
  obtain ⟨-, -, -, -, e20, e21, -⟩ := idx_facts1 t
  unfold iblk1
  rw [View.read_apply]
  show V c main_v23 _ = V c main_v23 _
  congr 1
  funext a
  apply Fin.ext
  match a with
  | ⟨0, _⟩ => show win1_2.index t (0 : Fin 2) * 1 + 1 * 0 = 0; omega
  | ⟨1, _⟩ => show win1_2.index t (1 : Fin 2) * 64 + 1 * k.val = k.val; omega

/-- Window 3's block at every point is the whole weight matrix. -/
private theorem iblk1_3_apply (c : Dev nD) (t : Fin cfg1.N) (k : Fin 64) (q : Fin 47) :
    (iblk1 (F := Ideal) V c 3 t : Vec Ideal S64x47 .bf16) (ix2 k q) = (V c main_v24 : S64x47.Idx → EReal) (ix2 k q) := by
  obtain ⟨-, -, -, -, -, -, e30, e31, -⟩ := idx_facts1 t
  unfold iblk1
  rw [View.read_apply]
  show V c main_v24 _ = V c main_v24 _
  congr 1
  funext a
  apply Fin.ext
  match a with
  | ⟨0, _⟩ => show win1_3.index t (0 : Fin 2) * 64 + 1 * k.val = k.val; omega
  | ⟨1, _⟩ => show win1_3.index t (1 : Fin 2) * 47 + 1 * q.val = q.val; omega

/-- What grid point t writes back is block t of `stage1` of the input arrays. -/
private theorem flushed1_eq (c : Dev nD) (t : Fin cfg1.N) :
    (dat1 (F := Ideal) V c).flushed 4 t = ((cfg1.win 4).blk t).view.read (Elt Ideal)
      (Cert.Gcn.stage1 (V c main_v22) (V c main_v16) (V c main_v23) (V c main_v24) : S100000x47.Idx → EReal) := by
  show (cfg1.win 4).cut (grid1.coords t) ((dat1 (F := Ideal) V c).after 4 t) = _
  rw [after1_4]
  unfold out1_4
  rw [View.canon_unit_zero hz1]
  simp only [View.ld_unit_zero (S := S5000x1) hz1, View.ld_unit_zero (S := S5000x64) hz1, View.ld_unit_zero (S := S1x64) hz1, View.ld_unit_zero (S := S64x47) hz1]
  refine funext fun (j : S5000x47.Idx) => ?_
  obtain ⟨p, q, rfl⟩ : ∃ (p : Fin 5000) (q : Fin 47), j = ix2 p q := ⟨j 0, j 1, eq_ix2 j⟩
  obtain ⟨-, -, -, -, -, -, -, -, e40, e41⟩ := idx_facts1 t
  have ht : t.val < 20 := lt_of_lt_of_eq t.isLt N1
  have hp : p.val < 5000 := p.isLt
  have he : ((cfg1.win 4).blk t).view.emb (ix2 p q) = (ix2 (⟨5000 * t.val + p.val, by omega⟩ : Fin 100000) q : S100000x47.Idx) := by
    funext a
    apply Fin.ext
    match a with
    | ⟨0, _⟩ => show win1_4.index t (0 : Fin 2) * 5000 + 1 * p.val = 5000 * t.val + p.val; omega
    | ⟨1, _⟩ => show win1_4.index t (1 : Fin 2) * 47 + 1 * q.val = q.val; omega
  show k1_pay1 (F := Ideal) (iblk1 V c 1 t) (iblk1 V c 0 t) (iblk1 V c 2 t) (iblk1 V c 3 t) (iblk1 V c 1 t) (ix2 p q)
    = Cert.Gcn.stage1 (V c main_v22) (V c main_v16) (V c main_v23) (V c main_v24) (((cfg1.win 4).blk t).view.emb (ix2 p q))
  rw [he]
  exact block1_apply (V c main_v22) (V c main_v16) (V c main_v23) (V c main_v24)
    (iblk1 V c 0 t) (iblk1 V c 1 t) (iblk1 V c 2 t) (iblk1 V c 3 t) p q ⟨5000 * t.val + p.val, by omega⟩
    (fun k => iblk1_0_apply V c t p k _ rfl) (iblk1_1_apply V c t p _ rfl)
    (fun k => iblk1_2_apply V c t k) (fun k => iblk1_3_apply V c t k q)

/-- An index of the output array lies in point t's block iff each coordinate lies in the block's range on its axis. -/
private theorem mem_blk1 (t : Fin cfg1.N) (i : S100000x47.Idx) :
    i ∈ ((cfg1.win 4).blk t).view.set ↔ ∀ a : Fin 2, win1_4.index t a * S5000x47.size a ≤ (i a).val
      ∧ (i a).val < win1_4.index t a * S5000x47.size a + S5000x47.size a := by
  show i ∈ ((View.whole main_v25).slice (win1_4.rect t)).set ↔ _
  rw [View.set_slice_whole, Rect.mem_set_unit]
  exact Iff.rfl

/-- The 20 blocks tile the 100 000 rows: row r lies in the block of point r / 5000, which writes it back. -/
private theorem cover1 (i : S100000x47.Idx) :
    ∃ t : Fin cfg1.N, (cfg1.win 4).flush t = true ∧ i ∈ ((cfg1.win 4).blk t).view.set := by
  have hi0 : (i 0).val < 100000 := (i 0).isLt
  have hi1 : (i 1).val < 47 := (i 1).isLt
  have hN : (i 0).val / 5000 < cfg1.N := by rw [N1]; omega
  obtain ⟨-, -, -, -, -, -, -, -, e40, e41⟩ := idx_facts1 ⟨(i 0).val / 5000, hN⟩
  refine ⟨⟨(i 0).val / 5000, hN⟩, flush1_4 _, ?_⟩
  rw [mem_blk1]
  intro a
  match a with
  | ⟨0, _⟩ =>
    show win1_4.index ⟨(i 0).val / 5000, hN⟩ (0 : Fin 2) * 5000 ≤ (i 0).val
      ∧ (i 0).val < win1_4.index ⟨(i 0).val / 5000, hN⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, hN⟩ (1 : Fin 2) * 47 ≤ (i 1).val
      ∧ (i 1).val < win1_4.index ⟨(i 0).val / 5000, hN⟩ (1 : Fin 2) * 47 + 47
    rw [e41]; omega

/-- After the second launch its output array is `stage1` of the input arrays as the launch finds them. -/
theorem final1 (c : Dev nD) :
    ((dat1 (F := Ideal) V c).arrAt 4 cfg1.N : S100000x47.Idx → EReal)
      = Cert.Gcn.stage1 (V c main_v22) (V c main_v16) (V c main_v23) (V c main_v24) :=
  (dat1 (F := Ideal) V c).arrAt_eq_of_cover 4
    (Cert.Gcn.stage1 (V c main_v22) (V c main_v16) (V c main_v23) (V c main_v24) : S100000x47.Idx → EReal)
    (fun t _ => flushed1_eq V c t) cover1

end Cert.KernelIdeal.Val

end
-- ==== Proof.Stage2.lean ====
/-
  The third launch, over the whole arrays. Grid point t handles rows 5000·t … 5000·t + 4999 of the summed rows: it
  scales each by its row's factor, adds the bias row, and takes the log-softmax of each row (subtract the row's
  maximum, then the logarithm of the sum of the exponentials). The 20 blocks tile the 100 000 rows, so after the
  launch the output array is `Cert.Gcn.stage2` of the three input arrays.
-/
import proofs.«402308_j1743756722177_2_alg».proof.Proof.Gen.KernelIdeal.Frame
import proofs.«402308_j1743756722177_2_alg».proof.Proof.Spec
import proofs.«402308_j1743756722177_2_alg».proof.Proof.LibColumns
import proofs.«402308_j1743756722177_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen

/-- The row reduction's inserted index: column k put into row p is the entry (p, k). -/
private theorem lift_row (h : S5000x47.Reduces [1] S5000) (p : Fin 5000) (k : Fin 47) :
    h.lift (ix1 p) k = ix2 p k := by
  funext c; apply Fin.ext
  match c with
  | ⟨0, _⟩ => rfl
  | ⟨1, _⟩ => rfl

/-- Row p of the scaled, biased block: entry q is factor(p) · summed(p, q) + bias(q). -/
private def zrow (v0 : FVec Ideal S5000x1 .f32) (v2 : FVec Ideal S5000x47 .f32) (v6 : FVec Ideal S1x47 .f32)
    (p : Fin 5000) : Fin 47 → EReal :=
  fun q => v0 (ix2 p (0 : Fin 1)) * v2 (ix2 p q) + v6 (ix2 (0 : Fin 1) q)

/-- The block before the row reductions, at (p, q): the scaled, biased entry. -/
private theorem pre_apply (v0 : FVec Ideal S5000x1 .f32) (v2 : FVec Ideal S5000x47 .f32) (v6 : FVec Ideal S1x47 .f32)
    (p : Fin 5000) (q : Fin 47) :
    addf (mulf (broadcastTo S5000x47 (shapeCast S5000x1 v0 shapeCasts_S5000x1_S5000x1) broadcasts_S5000x1_S5000x47)
        (shapeCast S5000x47 v2 shapeCasts_S5000x47_S5000x47))
      (broadcastTo S5000x47 (shapeCast S1x47 v6 shapeCasts_S1x47_S1x47) broadcasts_S1x47_S5000x47) (ix2 p q)
      = zrow v0 v2 v6 p q := by
  rw [addf_apply, mulf_apply, shapeCast_self, shapeCast_self, shapeCast_self,
    Cert.Lib.Columns.broadcastTo_a1_ab_apply, Cert.Lib.RowOps.broadcastTo_1b_ab_apply]
  rfl

/-- A row maximum over the 47 columns, at row p: the fold of max from minus infinity over the row's entries. -/
private theorem rowMax_apply (x : FVec Ideal S5000x47 .f32) (hφ : FKind.Formats .f32)
    (hacc : (0xFF800000#32 : BitVec 32) = FKind.maximumf.neutral .f32 hφ) (p : Fin 5000) :
    multiReduction (F := Ideal) .maximumf [1] S5000 x 0xFF800000#32 reduces_S5000x47_S5000 hφ hacc (ix1 p)
      = (Finset.univ : Finset (Fin 47)).fold max Cert.Gcn.negInfV (fun k => x (ix2 p k)) := by
  refine (Ideal.multiReduction_maximumf_single x _ reduces_S5000x47_S5000 hφ hacc (ix1 p)).trans ?_
  have e : (x ∘ reduces_S5000x47_S5000.lift (ix1 p)) = fun k : Fin 47 => x (ix2 p k) :=
    funext fun k => congrArg x (lift_row _ p k)
  rw [e]
  rfl

/-- A row sum over the 47 columns, at row p: the sum of the row's entries. -/
private theorem rowSum_apply (x : FVec Ideal S5000x47 .f32) (hφ : FKind.Formats .f32)
    (hacc : (0x00000000#32 : BitVec 32) = FKind.add.neutral .f32 hφ) (p : Fin 5000) :
    multiReduction (F := Ideal) .add [1] S5000 x 0x00000000#32 reduces_S5000x47_S5000 hφ hacc (ix1 p)
      = ∑ k : Fin 47, x (ix2 p k) := by
  refine (Ideal.multiReduction_add_single x _ reduces_S5000x47_S5000 hφ hacc (ix1 p)).trans ?_
  exact Finset.sum_congr rfl fun k _ => congrArg x (lift_row _ p k)

/-- A vector of 5000 entries laid back over the 47 columns (cast to one column, then along the rows) reads, at
    (p, q), its entry p. -/
private theorem overCols_apply (r : FVec Ideal S5000 .f32) (p : Fin 5000) (q : Fin 47) :
    broadcastTo S5000x47 (shapeCast S5000x1 r shapeCasts_S5000_S5000x1) broadcasts_S5000x1_S5000x47 (ix2 p q)
      = r (ix1 p) := by
  rw [Cert.Lib.Columns.broadcastTo_a1_ab_apply, Cert.Lib.Columns.shapeCast_a_a1_apply]

/-- The row-wise log-softmax of a block x as the kernel computes it, at (p, q): the entry less the row's maximum M,
    less the logarithm of the sum over the row of the exponentials of the entries less M. -/
private theorem logSoftmaxRows_apply (x : FVec Ideal S5000x47 .f32) (hφ : FKind.Formats .f32)
    (hmax : (0xFF800000#32 : BitVec 32) = FKind.maximumf.neutral .f32 hφ)
    (hadd : (0x00000000#32 : BitVec 32) = FKind.add.neutral .f32 hφ) (p : Fin 5000) (q : Fin 47) :
    subf
      (subf x (broadcastTo S5000x47 (shapeCast S5000x1
        (multiReduction (F := Ideal) .maximumf [1] S5000 x 0xFF800000#32 reduces_S5000x47_S5000 hφ hmax)
        shapeCasts_S5000_S5000x1) broadcasts_S5000x1_S5000x47))
      (broadcastTo S5000x47 (log (shapeCast S5000x1
        (multiReduction (F := Ideal) .add [1] S5000
          (exp (subf x (broadcastTo S5000x47 (shapeCast S5000x1
            (multiReduction (F := Ideal) .maximumf [1] S5000 x 0xFF800000#32 reduces_S5000x47_S5000 hφ hmax)
            shapeCasts_S5000_S5000x1) broadcasts_S5000x1_S5000x47)))
          0x00000000#32 reduces_S5000x47_S5000 hφ hadd)
        shapeCasts_S5000_S5000x1)) broadcasts_S5000x1_S5000x47)
      (ix2 p q)
      = (x (ix2 p q) - (Finset.univ : Finset (Fin 47)).fold max Cert.Gcn.negInfV (fun k => x (ix2 p k)))
        - Ideal.log (∑ k : Fin 47,
            Ideal.exp (x (ix2 p k) - (Finset.univ : Finset (Fin 47)).fold max Cert.Gcn.negInfV (fun k => x (ix2 p k)))) := by
  have hM : ∀ k : Fin 47,
      subf x (broadcastTo S5000x47 (shapeCast S5000x1
        (multiReduction (F := Ideal) .maximumf [1] S5000 x 0xFF800000#32 reduces_S5000x47_S5000 hφ hmax)
        shapeCasts_S5000_S5000x1) broadcasts_S5000x1_S5000x47) (ix2 p k)
        = x (ix2 p k) - (Finset.univ : Finset (Fin 47)).fold max Cert.Gcn.negInfV (fun k => x (ix2 p k)) := by
    intro k
    rw [subf_apply, overCols_apply, rowMax_apply]
  rw [subf_apply, hM, Cert.Lib.Columns.broadcastTo_a1_ab_apply]
  show _ - Ideal.log (shapeCast S5000x1 _ shapeCasts_S5000_S5000x1 (ix2 p (0 : Fin 1))) = _
  rw [Cert.Lib.Columns.shapeCast_a_a1_apply, rowSum_apply]
  exact congrArg (fun s : EReal => _ - Ideal.log s) (Finset.sum_congr rfl fun k _ => congrArg Ideal.exp (hM k))

/-- THE PAYLOAD AT (p, q): the row's entry less the row's maximum, less the logarithm of the sum of the exponentials
    of the row's entries less the maximum. -/
private theorem pay_apply (v0 : FVec Ideal S5000x1 .f32) (v2 : FVec Ideal S5000x47 .f32) (v6 : FVec Ideal S1x47 .f32)
    (p : Fin 5000) (q : Fin 47) :
    k2_pay1 (F := Ideal) v0 v2 v6 (ix2 p q)
      = (zrow v0 v2 v6 p q - (Finset.univ : Finset (Fin 47)).fold max Cert.Gcn.negInfV (zrow v0 v2 v6 p))
        - Ideal.log (∑ k : Fin 47,
            Ideal.exp (zrow v0 v2 v6 p k - (Finset.univ : Finset (Fin 47)).fold max Cert.Gcn.negInfV (zrow v0 v2 v6 p))) := by
  unfold k2_pay1
  dsimp only
  refine (logSoftmaxRows_apply _ _ _ _ p q).trans ?_
  simp only [pre_apply]

/-- The zero offsets, however spelt. -/
private theorem hz : (![0, 0] : Fin 2 → Nat) = fun _ => 0 := funext fun a => by
  match a with
  | ⟨0, _⟩ => rfl
  | ⟨1, _⟩ => rfl

/-- The block numbers at grid point t, decided over the 20 points: the summed rows, the factor column and the output
    are at block t of their rows, the bias row at its only block. -/
private theorem blockNumbers : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

-- the buffer contents the region is entered with
variable (V : (c : Dev nD) → (b : Ref sig .tc) → Buf (Elt Ideal) ((c : Thread nD τ).loc b))

/-- The summed rows as the launch finds them. -/
private abbrev sumArr (c : Dev nD) : Cert.Gcn.Mat 100000 47 := V c main_v29
/-- The factor column as the launch finds it. -/
private abbrev facArr (c : Dev nD) : Cert.Gcn.Mat 100000 1 := V c main_v16
/-- The bias row as the launch finds it. -/
private abbrev biasArr (c : Dev nD) : Cert.Gcn.Mat 1 47 := V c main_v30

/-- The summed rows' block at point t, at (p, k): the array's entry (5000·t + p, k). -/
private theorem sumBlock_apply (c : Dev nD) (t : Fin cfg2.N) (p : Fin 5000) (k : Fin 47) (r : Fin 100000)
    (hr : r.val = 5000 * t.val + p.val) :
    (iblk2 V c 0 t : FVec Ideal S5000x47 .f32) (ix2 p k) = sumArr V c (ix2 r k) := by
  obtain ⟨e0, e1, -⟩ := blockNumbers t
  show (V c main_v29 : S100000x47.Idx → EReal) (((cfg2.win 0).blk t).view.emb (ix2 p k)) = _
  refine congrArg (V c main_v29 : S100000x47.Idx → EReal) ?_
  funext a; apply Fin.ext
  match a with
  | ⟨0, _⟩ => show win2_0.index t (0 : Fin 2) * 5000 + 1 * p.val = r.val; rw [e0, hr]; omega
  | ⟨1, _⟩ => show win2_0.index t (1 : Fin 2) * 47 + 1 * k.val = k.val; rw [e1]; omega

/-- The factor column's block at point t, at row p: the array's entry at row 5000·t + p. -/
private theorem facBlock_apply (c : Dev nD) (t : Fin cfg2.N) (p : Fin 5000) (r : Fin 100000)
    (hr : r.val = 5000 * t.val + p.val) :
    (iblk2 V c 1 t : FVec Ideal S5000x1 .f32) (ix2 p (0 : Fin 1))
      = facArr V c (ix2 r (0 : Fin 1)) := by
  obtain ⟨-, -, e2, e3, -⟩ := blockNumbers t
  show (V c main_v16 : S100000x1.Idx → EReal) (((cfg2.win 1).blk t).view.emb (ix2 p (0 : Fin 1))) = _
  refine congrArg (V c main_v16 : S100000x1.Idx → EReal) ?_
  funext a; apply Fin.ext
  match a with
  | ⟨0, _⟩ => show win2_1.index t (0 : Fin 2) * 5000 + 1 * p.val = r.val; rw [e2, hr]; omega
  | ⟨1, _⟩ => show win2_1.index t (1 : Fin 2) * 1 + 1 * 0 = 0; rw [e3]

/-- The bias row's block at any point is the bias row. -/
private theorem biasBlock_apply (c : Dev nD) (t : Fin cfg2.N) (k : Fin 47) :
    (iblk2 V c 2 t : FVec Ideal S1x47 .f32) (ix2 (0 : Fin 1) k)
      = biasArr V c (ix2 (0 : Fin 1) k) := by
  obtain ⟨-, -, -, -, e4, e5, -⟩ := blockNumbers t
  show (V c main_v30 : S1x47.Idx → EReal) (((cfg2.win 2).blk t).view.emb (ix2 (0 : Fin 1) k)) = _
  refine congrArg (V c main_v30 : S1x47.Idx → EReal) ?_
  funext a; apply Fin.ext
  match a with
  | ⟨0, _⟩ => show win2_2.index t (0 : Fin 2) * 1 + 1 * 0 = 0; rw [e4]
  | ⟨1, _⟩ => show win2_2.index t (1 : Fin 2) * 47 + 1 * k.val = k.val; rw [e5]; omega

/-- What grid point t writes back is block t of `stage2` of the input arrays. -/
private theorem flushed_eq (c : Dev nD) (t : Fin cfg2.N) :
    (dat2 (F := Ideal) V c).flushed 3 t
      = ((cfg2.win 3).blk t).view.read (Elt Ideal)
          (Cert.Gcn.stage2 (V c main_v29) (V c main_v16) (V c main_v30)) := by
  show (cfg2.win 3).cut (grid2.coords t) ((dat2 (F := Ideal) V c).after 3 t) = _
  rw [after2_3]
  unfold out2_3
  rw [View.canon_unit_zero hz]
  simp only [View.ld_unit_zero (S := S5000x47) hz, View.ld_unit_zero (S := S5000x1) hz, View.ld_unit_zero (S := S1x47) hz]
  funext j
  obtain ⟨p, q, rfl⟩ : ∃ (p : Fin 5000) (q : Fin 47), j = ix2 p q := ⟨j 0, j 1, eq_ix2 j⟩
  have hN : cfg2.N = 20 := N_2
  have ht : t.val < cfg2.N := t.isLt
  have hp : p.val < 5000 := p.isLt
  obtain ⟨r, hr⟩ : ∃ r : Fin 100000, r.val = 5000 * t.val + p.val := ⟨⟨5000 * t.val + p.val, by omega⟩, rfl⟩
  have hemb : ((cfg2.win 3).blk t).view.emb (ix2 p q) = (ix2 r q : S100000x47.Idx) := by
    obtain ⟨-, -, -, -, -, -, e6, e7⟩ := blockNumbers t
    funext a; apply Fin.ext
    match a with
    | ⟨0, _⟩ => show win2_3.index t (0 : Fin 2) * 5000 + 1 * p.val = r.val; rw [e6, hr]; omega
    | ⟨1, _⟩ => show win2_3.index t (1 : Fin 2) * 47 + 1 * q.val = q.val; rw [e7]; omega
  refine (pay_apply (iblk2 V c 1 t) (iblk2 V c 0 t) (iblk2 V c 2 t) p q).trans ?_
  show _ = Cert.Gcn.stage2 (V c main_v29) (V c main_v16) (V c main_v30) (((cfg2.win 3).blk t).view.emb (ix2 p q))
  rw [hemb]
  have hzr : zrow (iblk2 V c 1 t) (iblk2 V c 0 t) (iblk2 V c 2 t) p
      = fun k => facArr V c (ix2 r (0 : Fin 1)) * sumArr V c (ix2 r k) + biasArr V c (ix2 (0 : Fin 1) k) := by
    funext k
    unfold zrow
    rw [facBlock_apply V c t p r hr, sumBlock_apply V c t p k r hr, biasBlock_apply V c t k]
  rw [hzr]
  rfl

/-- An index of the output array is in point t's block iff each coordinate is in the block's range on its axis. -/
private theorem mem_blk (t : Fin cfg2.N) (i : S100000x47.Idx) :
    i ∈ ((cfg2.win 3).blk t).view.set
      ↔ ∀ a : Fin 2, win2_3.index t a * S5000x47.size a ≤ (i a).val
          ∧ (i a).val < win2_3.index t a * S5000x47.size a + S5000x47.size a := by
  show i ∈ ((View.whole main_v31).slice (win2_3.rect t)).set ↔ _
  rw [View.set_slice_whole, Rect.mem_set_unit]
  exact Iff.rfl

/-- After the third launch its output array is `stage2` of the input arrays as the launch finds them. -/
theorem final2 (c : Dev nD) :
    ((dat2 (F := Ideal) V c).arrAt 3 cfg2.N : S100000x47.Idx → EReal)
      = Cert.Gcn.stage2 (V c main_v29) (V c main_v16) (V c main_v30) := by
  refine (dat2 (F := Ideal) V c).arrAt_eq_of_cover 3 (Cert.Gcn.stage2 (V c main_v29) (V c main_v16) (V c main_v30))
    (fun t _ => flushed_eq V c t) fun i => ?_
  have hN : cfg2.N = 20 := N_2
  have hi0 : (i 0).val < 100000 := (i 0).isLt
  have hi1 : (i 1).val < 47 := (i 1).isLt
  obtain ⟨t, htv⟩ : ∃ t : Fin cfg2.N, t.val = (i 0).val / 5000 := ⟨⟨(i 0).val / 5000, by omega⟩, rfl⟩
  obtain ⟨-, -, -, -, -, -, e6, e7⟩ := blockNumbers t
  refine ⟨t, flush2_3 t, ?_⟩
  rw [mem_blk]
  intro a
  match a with
  | ⟨0, _⟩ =>
    show win2_3.index t (0 : Fin 2) * 5000 ≤ (i 0).val ∧ (i 0).val < win2_3.index t (0 : Fin 2) * 5000 + 5000
    rw [e6, htv]; omega
  | ⟨1, _⟩ =>
    show win2_3.index t (1 : Fin 2) * 47 ≤ (i 1).val ∧ (i 1).val < win2_3.index t (1 : Fin 2) * 47 + 47
    rw [e7]; omega

end Cert.KernelIdeal.Val

end
-- ==== Proof.KValue.lean ====
/-
  The kernel program's result array, over the extended reals, as a function of its arguments' launch contents: the
  three launches' stages composed with the two take-and-sum host stretches between them give `Cert.Gcn.kernelForm`,
  at the factors, source words and destination words the host computes from the edge list.
-/
import proofs.«402308_j1743756722177_2_alg».proof.Proof.KHost
import proofs.«402308_j1743756722177_2_alg».proof.Proof.KRead
import proofs.«402308_j1743756722177_2_alg».proof.Proof.Stage0
import proofs.«402308_j1743756722177_2_alg».proof.Proof.Stage1
import proofs.«402308_j1743756722177_2_alg».proof.Proof.Stage2
import proofs.«402308_j1743756722177_2_alg».proof.Proof.Spec

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The factor column every launch is entered with. -/
theorem factors3 (c : Dev nD) :
    (W3 m ρ c (Proc.devRef .tc main_v16) : S100000x1.Idx → EReal) = Cert.Gcn.col (dinvT (m ((c : Thread nD τ).loc main_arg1))) := by
  rw [W3_v16, dinvTF_ideal, col_eq]

theorem factors6 (c : Dev nD) :
    (W6 m ρ c (Proc.devRef .tc main_v16) : S100000x1.Idx → EReal) = Cert.Gcn.col (dinvT (m ((c : Thread nD τ).loc main_arg1))) := by
  rw [W6_v16, W4_v16, factors3]

theorem factors9 (c : Dev nD) :
    (W9 m ρ c (Proc.devRef .tc main_v16) : S100000x1.Idx → EReal) = Cert.Gcn.col (dinvT (m ((c : Thread nD τ).loc main_arg1))) := by
  rw [W9_v16, W7_v16, factors6]

/-- The first launch's output. -/
theorem out0_eq (c : Dev nD) :
    (W4 m ρ c (Proc.devRef .tc main_v18) : S100000x64.Idx → EReal)
      = Cert.Gcn.stage0 (m ((c : Thread nD τ).loc main_arg0)) (m ((c : Thread nD τ).loc main_arg2)) (Cert.Gcn.col (dinvT (m ((c : Thread nD τ).loc main_arg1)))) := by
  rw [W4_v18, final0 (V3 m ρ) c]
  show Cert.Gcn.stage0 (W3 m ρ c (Proc.devRef .tc main_arg0)) (W3 m ρ c (Proc.devRef .tc main_v17)) (W3 m ρ c (Proc.devRef .tc main_v16)) = _
  rw [W3_arg0, W3_v17, factors3, trunc64_eq]

/-- The first take-and-sum. -/
theorem agg1_eq (c : Dev nD) :
    (W6 m ρ c (Proc.devRef .tc main_v22) : S100000x64.Idx → EReal)
      = Cert.Gcn.aggPre (Cert.Gcn.stage0 (m ((c : Thread nD τ).loc main_arg0)) (m ((c : Thread nD τ).loc main_arg2)) (Cert.Gcn.col (dinvT (m ((c : Thread nD τ).loc main_arg1))))) (srcT (m ((c : Thread nD τ).loc main_arg1))) (dstT (m ((c : Thread nD τ).loc main_arg1))) := by
  rw [W6_v22, aggTF64_ideal, aggT64_eq, out0_eq, W4_v3, W3_v3, W4_v7, W3_v7]

/-- The second launch's output. -/
theorem out1_eq (c : Dev nD) :
    (W7 m ρ c (Proc.devRef .tc main_v25) : S100000x47.Idx → EReal)
      = Cert.Gcn.stage1 (Cert.Gcn.aggPre (Cert.Gcn.stage0 (m ((c : Thread nD τ).loc main_arg0)) (m ((c : Thread nD τ).loc main_arg2)) (Cert.Gcn.col (dinvT (m ((c : Thread nD τ).loc main_arg1))))) (srcT (m ((c : Thread nD τ).loc main_arg1))) (dstT (m ((c : Thread nD τ).loc main_arg1))))
          (Cert.Gcn.col (dinvT (m ((c : Thread nD τ).loc main_arg1)))) (Cert.Gcn.row (m ((c : Thread nD τ).loc main_arg3))) (m ((c : Thread nD τ).loc main_arg4)) := by
  rw [W7_v25, final1 (V6 m ρ) c]
  show Cert.Gcn.stage1 (W6 m ρ c (Proc.devRef .tc main_v22)) (W6 m ρ c (Proc.devRef .tc main_v16)) (W6 m ρ c (Proc.devRef .tc main_v23)) (W6 m ρ c (Proc.devRef .tc main_v24)) = _
  rw [agg1_eq, factors6, W6_v23, W4_arg3, W3_arg3, row64_eq, W6_v24, W4_arg4, W3_arg4, trunc47_eq]

/-- The second take-and-sum. -/
theorem agg2_eq (c : Dev nD) :
    (W9 m ρ c (Proc.devRef .tc main_v29) : S100000x47.Idx → EReal)
      = Cert.Gcn.aggPre
          (Cert.Gcn.stage1 (Cert.Gcn.aggPre (Cert.Gcn.stage0 (m ((c : Thread nD τ).loc main_arg0)) (m ((c : Thread nD τ).loc main_arg2)) (Cert.Gcn.col (dinvT (m ((c : Thread nD τ).loc main_arg1))))) (srcT (m ((c : Thread nD τ).loc main_arg1))) (dstT (m ((c : Thread nD τ).loc main_arg1))))
            (Cert.Gcn.col (dinvT (m ((c : Thread nD τ).loc main_arg1)))) (Cert.Gcn.row (m ((c : Thread nD τ).loc main_arg3))) (m ((c : Thread nD τ).loc main_arg4)))
          (srcT (m ((c : Thread nD τ).loc main_arg1))) (dstT (m ((c : Thread nD τ).loc main_arg1))) := by
  rw [W9_v29, aggTF47_ideal, aggT47_eq, out1_eq, W7_v3, W6_v3, W4_v3, W3_v3, W7_v7, W6_v7, W4_v7, W3_v7]

/-- The result array after the third launch is the whole network in the arrangement that scales rows before and
    after the per-destination sums. -/
theorem kernel_value (c : Dev nD) :
    (W10 m ρ c (Proc.devRef .tc main_v31) : S100000x47.Idx → EReal)
      = Cert.Gcn.kernelForm (m ((c : Thread nD τ).loc main_arg0)) (m ((c : Thread nD τ).loc main_arg2)) (m ((c : Thread nD τ).loc main_arg3)) (m ((c : Thread nD τ).loc main_arg4)) (m ((c : Thread nD τ).loc main_arg5)) (dinvT (m ((c : Thread nD τ).loc main_arg1))) (srcT (m ((c : Thread nD τ).loc main_arg1))) (dstT (m ((c : Thread nD τ).loc main_arg1))) := by
  rw [W10_v31, final2 (V9 m ρ) c]
  show Cert.Gcn.stage2 (W9 m ρ c (Proc.devRef .tc main_v29)) (W9 m ρ c (Proc.devRef .tc main_v16)) (W9 m ρ c (Proc.devRef .tc main_v30)) = _
  rw [agg2_eq, factors9, W9_v30, W7_arg5, W6_arg5, W4_arg5, W3_arg5, row47_eq]
  rfl

end Cert.KernelIdeal.Val

end
-- ==== Proof.RefValue.lean ====
/-
  The reference program's result, entry by entry, is `Cert.Gcn.referenceForm` of its arguments, with the factors and
  the source and destination words the same functions of the edge list that the kernel's program computes.

  The proof follows the program stage by stage. The words are wrapped and laid as a column; the weight of an edge is
  the factor taken at its wrapped source word times the factor taken at its wrapped destination word (a take clamps
  the word into 0 … 99999); a layer multiplies by its weights, takes the source row of every edge, scales it by the
  edge's weight, and sums the scaled rows per destination from the zero array; then the bias is added along the rows.
  After the first layer the rows are rectified. After the second, each row has its maximum (taken from minus
  infinity) subtracted, and then the logarithm of the sum of its exponentials.
-/
import proofs.«402308_j1743756722177_2_alg».proof.Proof.RefRun
import proofs.«402308_j1743756722177_2_alg».proof.Proof.RefRead
import proofs.«402308_j1743756722177_2_alg».proof.Proof.Chain
import proofs.«402308_j1743756722177_2_alg».proof.Proof.Spec
import proofs.«402308_j1743756722177_2_alg».proof.Proof.LibRowOps
import Idealize.ShloMosaic.Lib.StableHlo.Predicate
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Idealize.ShloMosaic Idealize.ShloMosaic.TcCoe Idealize.ShloMosaic.ValueIdx Idealize.SL.Sem
open Cert.ReferenceIdeal Cert.ReferenceIdeal.Gen

open Cert.Gcn Cert.ReferenceIdeal.ReadP

/-- The source words are the same function of the edge list in both programs. -/
private theorem src_eq (ei : IVec S2x1200000 32) : val_main_v3 (F := Ideal) ei = Cert.KernelIdeal.Val.srcT ei := rfl
/-- The destination words are the same function of the edge list in both programs. -/
private theorem dst_eq (ei : IVec S2x1200000 32) : val_main_v7 (F := Ideal) ei = Cert.KernelIdeal.Val.dstT ei := rfl
/-- The per-node factor is the same function of the edge list in both programs. -/
private theorem dinv_eq (ei : IVec S2x1200000 32) : val_main_v15 (F := Ideal) ei = Cert.KernelIdeal.Val.dinvT ei := rfl

/-- The wrapped word is the select the program spells. -/
private theorem wrap_eq (v : BitVec 32) :
    Scalar.select (IntOp.cmpi .slt v 0#32) (IntOp.addi v 100000#32) v = wrap v := rfl

/-- A rank-1 index built from its coordinate is the literal one-coordinate index. -/
private theorem ofFin_eq_ix1 {n : ℕ} (p : Fin n) : Shape.Idx.ofFin p = ix1 p := by
  funext a; match a with | ⟨0, _⟩ => rfl

/-- Row p of a one-column index table is the literal index (p, 0). -/
private theorem ixP_eq_ix2 {n : ℕ} (p : Fin n) : StableHlo.Predicate.ixP p = ix2 p (0 : Fin 1) := by
  funext a; match a with | ⟨0, _⟩ => rfl | ⟨1, _⟩ => rfl

/-- The take of a vector of 100 000 entries at a column of words reads, at e, the entry the e-th word names after clamping. -/
private theorem take_apply (x : Vct 100000) (idx : IVec S1300000x1 32) (e : Fin 1300000) :
    Host.gather gather_S100000_S1300000x1_S1300000_n_0_n_n_0_1_1 x idx (ix1 e) = x (ix1 (rowOf (idx (ix2 e (0 : Fin 1))))) := by
  have h := StableHlo.Predicate.gather_take gather_S100000_S1300000x1_S1300000_n_0_n_n_0_1_1 rfl rfl rfl rfl x idx e (by decide)
  rw [ofFin_eq_ix1, ofFin_eq_ix1] at h
  refine h.trans (congrArg x (congrArg ix1 (Fin.ext ?_)))
  show min (idx (StableHlo.Predicate.ixP e)).toInt.toNat (100000 - 1) = min (idx (ix2 e (0 : Fin 1))).toInt.toNat 99999
  rw [ixP_eq_ix2]

/-- The take of rows of a matrix of 100 000 rows at a column of words reads, at (e, q), column q of the row the e-th word names
    after clamping. -/
private theorem takeRows_apply {D : ℕ} (d : GatherDims ⟨2, ![100000, D]⟩ S1300000x1 ⟨2, ![1300000, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (H : Mat 100000 D) (idx : IVec S1300000x1 32) (e : Fin 1300000) (q : Fin D) :
    Host.gather d H idx (ix2 e q) = H (ix2 (rowOf (idx (ix2 e (0 : Fin 1)))) q) :=
  Cert.Lib.RowOps.rowGather_apply d hoff hcoll hob hsb hsim hivd hss H idx e q (by decide)

/-- The sum of weighted source rows per destination: an accumulating scatter from the zero array, at the destination words, of
    updates whose row e is the source row of edge e times the edge's weight, is the edge-weighting aggregate. -/
private theorem scatter_eq_aggEdge {D : ℕ} (d : ScatterDims ⟨2, ![100000, D]⟩ S1300000x1 ⟨2, ![1300000, D]⟩)
    (huw : d.updateWindowDims = [1]) (hiw : d.insertedWindowDims = [0]) (hsd : d.scatterDimsToOperandDims = [0])
    (hivd : d.indexVectorDim = 1)
    (Z : Mat 100000 D) (hZ : ∀ i, Z i = zeroV) (didx : IVec S1300000x1 32) (dv sv : Wrd 1300000)
    (hd : ∀ e : Fin 1300000, didx (ix2 e (0 : Fin 1)) = dv (ix1 e))
    (upd : Mat 1300000 D) (H : Mat 100000 D) (dinv : Vct 100000)
    (hupd : ∀ (e : Fin 1300000) (q : Fin D), upd (ix2 e q)
      = H (ix2 (rowOf (wrap (sv (ix1 e)))) q) * (dinv (ix1 (rowOf (wrap (sv (ix1 e))))) * dinv (ix1 (rowOf (wrap (dv (ix1 e))))))) :
    Ideal.hostScatterAdd d Z didx upd = aggEdge H dinv sv dv := by
  funext i
  obtain ⟨p, q, rfl⟩ : ∃ (p : Fin 100000) (q : Fin D), i = ix2 p q := ⟨i 0, i 1, eq_ix2 i⟩
  rw [Cert.Lib.RowOps.rowScatterAdd_apply d huw hiw hsd hivd Z didx upd p q, hZ]
  show zeroV + _ = zeroV + ∑ e ∈ hits dv p, _
  have hf : (Finset.univ.filter fun e : Fin 1300000 => (didx (ix2 e (0 : Fin 1))).toInt = (p.val : ℤ)) = hits dv p := by
    unfold hits
    exact Finset.filter_congr fun e _ => by rw [hd e]
  rw [hf]
  exact congrArg (zeroV + ·) (Finset.sum_congr rfl fun e _ => hupd e q)

/-- Over a row index p, the index with column k put back is (p, k). -/
private theorem lift_row (h : S100000x47.Reduces [1] S100000) (p : Fin 100000) (k : Fin (S100000x47.size 1)) :
    h.lift (ix1 p) k = ix2 p (⟨k.val, k.isLt⟩ : Fin 47) := by
  funext c; apply Fin.ext
  match c with
  | ⟨0, _⟩ => rfl
  | ⟨1, _⟩ => rfl

/-- From minus infinity the maximum-reduce along the columns is, at row p, the fold of max over the 47 entries of the row. -/
private theorem rowMax_apply (C : Mat 100000 47) (init : S_.Idx → EReal) (hinit : ∀ i, init i = negInfV) (p : Fin 100000) :
    Host.reduce (FloatOps.maximumf (F := Ideal) (φ := .f32)) C init reducesTo_S100000x47_S100000_d1 h_S_ (ix1 p)
      = (Finset.univ : Finset (Fin 47)).fold max negInfV fun q => C (ix2 p q) := by
  have h : S100000x47.Reduces [1] S100000 := by decide
  rw [Host.reduce_eq_fold_single (FloatOps.maximumf (F := Ideal) (φ := .f32)) C init reducesTo_S100000x47_S100000_d1 h h_S_, hinit]
  have hf : (C ∘ h.lift (ix1 p)) = fun k : Fin 47 => C (ix2 p k) := funext fun k => congrArg C (lift_row h p k)
  exact congrArg (fun f => Finset.fold max negInfV f (Finset.univ : Finset (Fin 47))) hf

/-- A rank-1 index whose coordinate is p is the literal index at p. -/
private theorem idx1_eq {n : ℕ} (j : (⟨1, ![n]⟩ : Shape).Idx) (p : Fin n) (h : (j 0).val = p.val) : j = ix1 p := by
  funext a; match a with | ⟨0, _⟩ => exact Fin.ext h

/-- A rank-2 index whose coordinates are p and q is the literal index at (p, q). -/
private theorem idx2_eq {a b : ℕ} (j : (⟨2, ![a, b]⟩ : Shape).Idx) (p : Fin a) (q : Fin b) (h0 : (j 0).val = p.val)
    (h1 : (j 1).val = q.val) : j = ix2 p q := by
  funext c; match c with | ⟨0, _⟩ => exact Fin.ext h0 | ⟨1, _⟩ => exact Fin.ext h1

variable (x0 : (⟨S100000x256, .f32⟩ : BufTy).Contents (Elt Ideal)) (x1 : (⟨S2x1200000, .i32⟩ : BufTy).Contents (Elt Ideal))
  (x2 : (⟨S256x64, .f32⟩ : BufTy).Contents (Elt Ideal)) (x3 : (⟨S64, .f32⟩ : BufTy).Contents (Elt Ideal))
  (x4 : (⟨S64x47, .f32⟩ : BufTy).Contents (Elt Ideal)) (x5 : (⟨S47, .f32⟩ : BufTy).Contents (Elt Ideal))

/-! ## The words, wrapped, as columns -/

/-- The source words wrapped (as the factor's take reads them), at edge e. -/
private theorem v20_at (e : Fin 1300000) : val_main_v20 (F := Ideal) x1 (ix1 e) = wrap (val_main_v3 (F := Ideal) x1 (ix1 e)) := by
  rw [val_main_v20_apply, val_main_v17_apply, val_main_v19_apply, val_main_v16_apply, val_main_v18_apply, val_main_c_apply,
    val_main_c_3_apply]
  rfl

/-- The destination words wrapped, at edge e. -/
private theorem v27_at (e : Fin 1300000) : val_main_v27 (F := Ideal) x1 (ix1 e) = wrap (val_main_v7 (F := Ideal) x1 (ix1 e)) := by
  rw [val_main_v27_apply, val_main_v24_apply, val_main_v26_apply, val_main_v23_apply, val_main_v25_apply, val_main_c_4_apply,
    val_main_c_5_apply]
  rfl

/-- The source words wrapped (as the first row take reads them), at edge e. -/
private theorem v36_at (e : Fin 1300000) : val_main_v36 (F := Ideal) x1 (ix1 e) = wrap (val_main_v3 (F := Ideal) x1 (ix1 e)) := by
  rw [val_main_v36_apply, val_main_v33_apply, val_main_v35_apply, val_main_v32_apply, val_main_v34_apply, val_main_c_6_apply,
    val_main_c_7_apply]
  rfl

/-- The source words wrapped (as the second row take reads them), at edge e. -/
private theorem v54_at (e : Fin 1300000) : val_main_v54 (F := Ideal) x1 (ix1 e) = wrap (val_main_v3 (F := Ideal) x1 (ix1 e)) := by
  rw [val_main_v54_apply, val_main_v51_apply, val_main_v53_apply, val_main_v50_apply, val_main_v52_apply, val_main_c_9_apply,
    val_main_c_10_apply]
  rfl

/-- The column of wrapped source words, at row e. -/
private theorem v21_at (e : Fin 1300000) :
    val_main_v21 (F := Ideal) x1 (ix2 e (0 : Fin 1)) = wrap (val_main_v3 (F := Ideal) x1 (ix1 e)) := by
  rw [val_main_v21_apply, idx1_eq (idx_main_v21 (ix2 e (0 : Fin 1))) e rfl, v20_at]

/-- The column of wrapped destination words, at row e. -/
private theorem v28_at (e : Fin 1300000) :
    val_main_v28 (F := Ideal) x1 (ix2 e (0 : Fin 1)) = wrap (val_main_v7 (F := Ideal) x1 (ix1 e)) := by
  rw [val_main_v28_apply, idx1_eq (idx_main_v28 (ix2 e (0 : Fin 1))) e rfl, v27_at]

/-- The column of wrapped source words the first row take reads, at row e. -/
private theorem v37_at (e : Fin 1300000) :
    val_main_v37 (F := Ideal) x1 (ix2 e (0 : Fin 1)) = wrap (val_main_v3 (F := Ideal) x1 (ix1 e)) := by
  rw [val_main_v37_apply, idx1_eq (idx_main_v37 (ix2 e (0 : Fin 1))) e rfl, v36_at]

/-- The column of wrapped source words the second row take reads, at row e. -/
private theorem v55_at (e : Fin 1300000) :
    val_main_v55 (F := Ideal) x1 (ix2 e (0 : Fin 1)) = wrap (val_main_v3 (F := Ideal) x1 (ix1 e)) := by
  rw [val_main_v55_apply, idx1_eq (idx_main_v55 (ix2 e (0 : Fin 1))) e rfl, v54_at]

/-! ## The weight of an edge -/

/-- The weight of edge e: the factor at its (wrapped, clamped) source times the factor at its destination. -/
private theorem v30_at (e : Fin 1300000) : val_main_v30 (F := Ideal) x1 (ix1 e)
    = val_main_v15 (F := Ideal) x1 (ix1 (rowOf (wrap (val_main_v3 (F := Ideal) x1 (ix1 e)))))
      * val_main_v15 (F := Ideal) x1 (ix1 (rowOf (wrap (val_main_v7 (F := Ideal) x1 (ix1 e))))) := by
  rw [val_main_v30_apply]
  unfold val_main_v22 val_main_v29
  rw [take_apply, take_apply, v21_at, v28_at]
  rfl

/-! ## The first layer -/

/-- The first transform is the product of the features and the first weights. -/
private theorem v31_eq : val_main_v31 (F := Ideal) x0 x2 = mm x0 x2 := by
  funext i
  rw [val_main_v31_apply]
  show (∑ k : Fin 256, _) = ∑ t : Fin 256, x0 (ix2 (i 0) t) * x2 (ix2 t (i 1))
  refine Finset.sum_congr rfl fun k _ => ?_
  rw [idx2_eq (lidx_main_v31 i k) (i 0) k rfl rfl, idx2_eq (ridx_main_v31 i k) k (i 1) rfl rfl]

/-- The weight of edge e laid along the 64 columns. -/
private theorem v40_at (e : Fin 1300000) (q : Fin 64) :
    val_main_v40 (F := Ideal) x1 (ix2 e q) = val_main_v30 (F := Ideal) x1 (ix1 e) := by
  rw [val_main_v40_apply, val_main_v39_apply]
  exact congrArg _ (idx1_eq _ e rfl)

/-- Row e of the first layer's updates: the source row of edge e times the edge's weight. -/
private theorem v41_at (e : Fin 1300000) (q : Fin 64) : val_main_v41 (F := Ideal) x0 x1 x2 (ix2 e q)
    = val_main_v31 (F := Ideal) x0 x2 (ix2 (rowOf (wrap (val_main_v3 (F := Ideal) x1 (ix1 e)))) q)
      * (val_main_v15 (F := Ideal) x1 (ix1 (rowOf (wrap (val_main_v3 (F := Ideal) x1 (ix1 e)))))
        * val_main_v15 (F := Ideal) x1 (ix1 (rowOf (wrap (val_main_v7 (F := Ideal) x1 (ix1 e)))))) := by
  rw [val_main_v41_apply, v40_at, v30_at]
  unfold val_main_v38
  rw [takeRows_apply gather_S100000x64_S1300000x1_S1300000x64_1_0_n_n_0_1_164 rfl rfl rfl rfl rfl rfl rfl, v37_at]
  rfl

/-- The first layer's sums are the edge-weighting aggregate of the first transform. -/
private theorem v44_eq : val_main_v44 (F := Ideal) x0 x1 x2
    = aggEdge (val_main_v31 (F := Ideal) x0 x2) (val_main_v15 (F := Ideal) x1) (val_main_v3 (F := Ideal) x1)
        (val_main_v7 (F := Ideal) x1) := by
  unfold val_main_v44
  show Ideal.hostScatterAdd _ _ _ _ = _
  exact scatter_eq_aggEdge scatter_S100000x64_S1300000x1_S1300000x64_1_0_0_1 rfl rfl rfl rfl _
    (fun i => by rw [val_main_v42_apply]; rfl) (val_main_v43 (F := Ideal) x1) _ _
    (fun e => by rw [val_main_v43_apply]; exact congrArg _ (idx1_eq _ e rfl)) _ _ _ (fun e q => v41_at x0 x1 x2 e q)

/-- The first bias is added along the rows. -/
private theorem v47_eq : val_main_v47 (F := Ideal) x0 x1 x2 x3 = addBias (val_main_v44 (F := Ideal) x0 x1 x2) x3 := by
  funext i
  rw [val_main_v47_apply, val_main_v46_apply, val_main_v45_apply, idx1_eq (idx_main_v45 (idx_main_v46 i)) (i 1) rfl]
  rfl

/-- The rectifier is the maximum with the zero word's value. -/
private theorem v48_eq : val_main_v48 (F := Ideal) x0 x1 x2 x3 = relu (val_main_v47 (F := Ideal) x0 x1 x2 x3) := by
  funext i
  rw [val_main_v48_apply, val_main_call1_v0_apply, val_main_call1_cst_apply]
  rfl

/-! ## The second layer -/

/-- The second transform is the product of the rectified rows and the second weights. -/
private theorem v49_eq : val_main_v49 (F := Ideal) x0 x1 x2 x3 x4 = mm (val_main_v48 (F := Ideal) x0 x1 x2 x3) x4 := by
  funext i
  rw [val_main_v49_apply]
  show (∑ k : Fin 64, _) = ∑ t : Fin 64, val_main_v48 (F := Ideal) x0 x1 x2 x3 (ix2 (i 0) t) * x4 (ix2 t (i 1))
  refine Finset.sum_congr rfl fun k _ => ?_
  rw [idx2_eq (lidx_main_v49 i k) (i 0) k rfl rfl, idx2_eq (ridx_main_v49 i k) k (i 1) rfl rfl]

/-- The weight of edge e laid along the 47 columns. -/
private theorem v58_at (e : Fin 1300000) (q : Fin 47) :
    val_main_v58 (F := Ideal) x1 (ix2 e q) = val_main_v30 (F := Ideal) x1 (ix1 e) := by
  rw [val_main_v58_apply, val_main_v57_apply]
  exact congrArg _ (idx1_eq _ e rfl)

/-- Row e of the second layer's updates: the source row of edge e times the edge's weight. -/
private theorem v59_at (e : Fin 1300000) (q : Fin 47) : val_main_v59 (F := Ideal) x0 x1 x2 x3 x4 (ix2 e q)
    = val_main_v49 (F := Ideal) x0 x1 x2 x3 x4 (ix2 (rowOf (wrap (val_main_v3 (F := Ideal) x1 (ix1 e)))) q)
      * (val_main_v15 (F := Ideal) x1 (ix1 (rowOf (wrap (val_main_v3 (F := Ideal) x1 (ix1 e)))))
        * val_main_v15 (F := Ideal) x1 (ix1 (rowOf (wrap (val_main_v7 (F := Ideal) x1 (ix1 e)))))) := by
  rw [val_main_v59_apply, v58_at, v30_at]
  unfold val_main_v56
  rw [takeRows_apply gather_S100000x47_S1300000x1_S1300000x47_1_0_n_n_0_1_147 rfl rfl rfl rfl rfl rfl rfl, v55_at]
  rfl

/-- The second layer's sums are the edge-weighting aggregate of the second transform. -/
private theorem v62_eq : val_main_v62 (F := Ideal) x0 x1 x2 x3 x4
    = aggEdge (val_main_v49 (F := Ideal) x0 x1 x2 x3 x4) (val_main_v15 (F := Ideal) x1) (val_main_v3 (F := Ideal) x1)
        (val_main_v7 (F := Ideal) x1) := by
  unfold val_main_v62
  show Ideal.hostScatterAdd _ _ _ _ = _
  exact scatter_eq_aggEdge scatter_S100000x47_S1300000x1_S1300000x47_1_0_0_1 rfl rfl rfl rfl _
    (fun i => by rw [val_main_v60_apply]; rfl) (val_main_v61 (F := Ideal) x1) _ _
    (fun e => by rw [val_main_v61_apply]; exact congrArg _ (idx1_eq _ e rfl)) _ _ _ (fun e q => v59_at x0 x1 x2 x3 x4 e q)

/-- The second bias is added along the rows. -/
private theorem v65_eq : val_main_v65 (F := Ideal) x0 x1 x2 x3 x4 x5 = addBias (val_main_v62 (F := Ideal) x0 x1 x2 x3 x4) x5 := by
  funext i
  rw [val_main_v65_apply, val_main_v64_apply, val_main_v63_apply, idx1_eq (idx_main_v63 (idx_main_v64 i)) (i 1) rfl]
  rfl

/-! ## The row-wise log-softmax -/

/-- The maximum of row p as the program takes it: from minus infinity over the row, then once more against minus infinity. -/
private def rowM (C : Mat 100000 47) (p : Fin 100000) : EReal :=
  max negInfV ((Finset.univ : Finset (Fin 47)).fold max negInfV fun k => C (ix2 p k))

/-- The row maximum laid along the columns. -/
private theorem c2v4_at (p : Fin 100000) (q : Fin 47) : val_main_call2_v4 (F := Ideal) x0 x1 x2 x3 x4 x5 (ix2 p q)
    = rowM (val_main_v65 (F := Ideal) x0 x1 x2 x3 x4 x5) p := by
  rw [val_main_call2_v4_apply, val_main_call2_v3_apply,
    idx1_eq (idx_main_call2_v3 (idx_main_call2_v4 (ix2 p q))) p rfl, val_main_call2_v2_apply, val_main_call2_v1_apply,
    val_main_call2_cst_0_apply]
  unfold val_main_call2_v0
  rw [rowMax_apply _ _ (fun i => val_main_call2_cst_apply i) p]
  rfl

/-- The entries less their row's maximum. -/
private theorem c2v5_at (p : Fin 100000) (q : Fin 47) : val_main_call2_v5 (F := Ideal) x0 x1 x2 x3 x4 x5 (ix2 p q)
    = val_main_v65 (F := Ideal) x0 x1 x2 x3 x4 x5 (ix2 p q) - rowM (val_main_v65 (F := Ideal) x0 x1 x2 x3 x4 x5) p := by
  rw [val_main_call2_v5_apply, c2v4_at]
  rfl

/-- The sum of the exponentials along row p, from the zero word's value. -/
private theorem c2v7_at (p : Fin 100000) : val_main_call2_v7 (F := Ideal) x0 x1 x2 x3 x4 x5 (ix1 p)
    = zeroV + ∑ k : Fin 47, Ideal.exp (val_main_v65 (F := Ideal) x0 x1 x2 x3 x4 x5 (ix2 p k)
        - rowM (val_main_v65 (F := Ideal) x0 x1 x2 x3 x4 x5) p) := by
  rw [val_main_call2_v7_apply]
  refine congrArg₂ (· + ·) rfl (Finset.sum_congr rfl fun k _ => ?_)
  rw [idx2_eq (idx_main_call2_v7 (ix1 p) k) p k rfl rfl, val_main_call2_v6_apply, c2v5_at]
  exact Ideal.hostUnary_exp_def _

/-- The logarithm of that sum laid along the columns. -/
private theorem c2v10_at (p : Fin 100000) (q : Fin 47) : val_main_call2_v10 (F := Ideal) x0 x1 x2 x3 x4 x5 (ix2 p q)
    = Ideal.log (zeroV + ∑ k : Fin 47, Ideal.exp (val_main_v65 (F := Ideal) x0 x1 x2 x3 x4 x5 (ix2 p k)
        - rowM (val_main_v65 (F := Ideal) x0 x1 x2 x3 x4 x5) p)) := by
  rw [val_main_call2_v10_apply, val_main_call2_v9_apply, val_main_call2_v8_apply,
    idx1_eq (idx_main_call2_v8 (idx_main_call2_v10 (ix2 p q))) p rfl, c2v7_at]
  exact Ideal.hostUnary_log_def _

/-- The result is the row-wise log-softmax of the second layer's output. -/
private theorem v66_eq : val_main_v66 (F := Ideal) x0 x1 x2 x3 x4 x5 = logSoftmax (val_main_v65 (F := Ideal) x0 x1 x2 x3 x4 x5) := by
  funext i
  obtain ⟨p, q, rfl⟩ : ∃ (p : Fin 100000) (q : Fin 47), i = ix2 p q := ⟨i 0, i 1, eq_ix2 i⟩
  rw [val_main_v66_apply, c2v5_at, c2v10_at]
  rfl

/-! ## The whole network -/

/-- The result stage, as a function of the arguments, is the edge-weighting arrangement of the network. -/
private theorem val66_eq : val_main_v66 (F := Ideal) x0 x1 x2 x3 x4 x5
    = referenceForm x0 x2 x3 x4 x5 (Cert.KernelIdeal.Val.dinvT x1) (Cert.KernelIdeal.Val.srcT x1) (Cert.KernelIdeal.Val.dstT x1) := by
  rw [v66_eq, v65_eq, v62_eq, v49_eq, v48_eq, v47_eq, v44_eq, v31_eq, dinv_eq, src_eq, dst_eq]
  rfl

/-- The reference's result array is the edge-weighting arrangement of the network. -/
theorem ref_value (m : (ℓ : Loc nD τ sig) → Buf (Elt Ideal) ℓ) (c : Dev nD) :
    (Cert.ReferenceIdeal.ValueP.res_main_v66 (F := Ideal) m c : S100000x47.Idx → EReal)
      = Cert.Gcn.referenceForm (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg5))
          (Cert.KernelIdeal.Val.dinvT (m ((c.tc : Thread nD τ).loc main_arg1)))
          (Cert.KernelIdeal.Val.srcT (m ((c.tc : Thread nD τ).loc main_arg1)))
          (Cert.KernelIdeal.Val.dstT (m ((c.tc : Thread nD τ).loc main_arg1))) :=
  (Cert.ReferenceIdeal.ReadP.val_main_v66_eq (F := Ideal) m c).trans (val66_eq _ _ _ _ _ _)

end Cert.ReferenceIdeal.RefValue

end
-- ==== Proof.Bridge.lean ====
/-
  The two arrangements of the network are one function.

  Fix a destination node d. Every edge e in the sum for d has destination word d, so the clamping read of the factor
  at its (wrapped) destination word is dinv d: the edge weight dinv(src e) · dinv(dst e) is dinv(src e) · dinv d. The
  factor dinv d is a non-negative real number, and multiplication by a non-negative real distributes over any sum of
  extended reals, so  dinv d · (0 + Σ H[src e] · dinv(src e)) = 0 + Σ H[src e] · (dinv(src e) · dinv d).  Where every
  wrapped source word names a row, the filling take is the plain row. The rest of the two networks is the same
  operations on equal matrices; a maximum taken from minus infinity is not changed by one more maximum against minus
  infinity, and a sum is not changed by starting from the zero word.
-/
import proofs.«402308_j1743756722177_2_alg».proof.Proof.Spec
import Mathlib.Data.EReal.Operations
import Mathlib.Algebra.BigOperators.Group.Finset.Basic
import Idealize.ShloMosaic.Lib.StableHlo.Predicate

noncomputable section

namespace Cert.Gcn

open Idealize.ShloMosaic Idealize.ShloMosaic.ValueIdx

/-- The all-zero word is the number 0. -/
private theorem zeroV_eq : zeroV = 0 := Ideal.ofBits_zero_f32

/-- The word of minus infinity is the least extended real. -/
private theorem negInfV_eq : negInfV = ⊥ := by
  show Ideal.ofBits .f32 0xFF800000#32 = ⊥
  simp [Ideal.ofBits, Ideal.ieee]

/-- A non-negative real factor distributes over a finite sum of extended reals. -/
private theorem mul_sum_nonneg {ι : Type} (c : ℝ) (hc : 0 ≤ c) (S : Finset ι) (a : ι → EReal) :
    (c : EReal) * ∑ e ∈ S, a e = ∑ e ∈ S, (c : EReal) * a e := by
  classical
  induction S using Finset.induction_on with
  | empty => simp
  | insert x s hx ih =>
    rw [Finset.sum_insert hx, Finset.sum_insert hx,
      EReal.left_distrib_of_nonneg_of_ne_top (by exact_mod_cast hc) (EReal.coe_ne_top c), ih]

/-- A word that is not negative, read signed, is its own wrapping. -/
private theorem wrap_of_nonneg (v : BitVec 32) (h : 0 ≤ v.toInt) : wrap v = v := by
  unfold wrap Scalar.select IntOp.cmpi
  rw [if_neg]
  intro hc
  have hlt : v.slt 0#32 = true := (StableHlo.Predicate.ofBool_eq_one_iff _).mp hc
  rw [BitVec.slt_iff_toInt_lt] at hlt
  simp at hlt
  omega

/-- A word whose signed reading is the node d takes row d under the clamping read. -/
private theorem rowOf_of_toInt (v : BitVec 32) (d : Fin 100000) (h : v.toInt = (d.val : ℤ)) : rowOf v = d := by
  apply Fin.ext
  show min v.toInt.toNat 99999 = d.val
  have := d.isLt
  rw [h]
  simp
  omega

/-- One layer: the destination's factor times the sum of the rows scaled at their source is the sum of the rows
    each weighted by both factors. -/
private theorem layer_law {D : ℕ} (H : Mat 100000 D) (dinv : Vct 100000) (sv dv : Wrd 1300000)
    (hS : ∀ e : Fin 1300000, InRows (wrap (sv (ix1 e))))
    (hD : ∀ p : Fin 100000, ∃ r : ℝ, 0 ≤ r ∧ dinv (ix1 p) = (r : EReal))
    (HS : Mat 100000 D) (hHS : ∀ (p : Fin 100000) (q : Fin D), HS (ix2 p q) = H (ix2 p q) * dinv (ix1 p))
    (d : Fin 100000) (q : Fin D) :
    dinv (ix1 d) * aggPre HS sv dv (ix2 d q) = aggEdge H dinv sv dv (ix2 d q) := by
  obtain ⟨r, hr, hrd⟩ := hD d
  show dinv (ix1 d) * (zeroV + ∑ e ∈ hits dv d, takeFill HS sv e q)
    = zeroV + ∑ e ∈ hits dv d, H (ix2 (rowOf (wrap (sv (ix1 e)))) q)
        * (dinv (ix1 (rowOf (wrap (sv (ix1 e))))) * dinv (ix1 (rowOf (wrap (dv (ix1 e))))))
  rw [zeroV_eq, zero_add, zero_add, hrd, mul_sum_nonneg r hr]
  refine Finset.sum_congr rfl fun e he => ?_
  have hde : (dv (ix1 e)).toInt = (d.val : ℤ) := (Finset.mem_filter.mp he).2
  have hw : wrap (dv (ix1 e)) = dv (ix1 e) := wrap_of_nonneg _ (by rw [hde]; exact Int.natCast_nonneg _)
  rw [hw, rowOf_of_toInt _ d hde, takeFill, if_pos (hS e), hHS, hrd, mul_comm, mul_assoc]

/-- The row-wise log-softmax of the two forms agree on equal rows: one more maximum against minus infinity and a
    sum started from zero change nothing. -/
private theorem softmax_forms (C : Mat 100000 47) (z : Fin 47 → EReal) (p : Fin 100000) (q0 : Fin 47)
    (hz : ∀ q, z q = C (ix2 p q)) :
    (z q0 - (Finset.univ : Finset (Fin 47)).fold max negInfV z)
        - Ideal.log (∑ q : Fin 47, Ideal.exp (z q - (Finset.univ : Finset (Fin 47)).fold max negInfV z))
      = logSoftmax C (ix2 p q0) := by
  obtain rfl : z = fun q => C (ix2 p q) := funext hz
  show _ = (C (ix2 p q0) - max negInfV ((Finset.univ : Finset (Fin 47)).fold max negInfV fun q => C (ix2 p q)))
      - Ideal.log (zeroV + ∑ q : Fin 47, Ideal.exp (C (ix2 p q)
          - max negInfV ((Finset.univ : Finset (Fin 47)).fold max negInfV fun q => C (ix2 p q))))
  rw [zeroV_eq, zero_add, negInfV_eq, max_eq_right bot_le]

/-- Where every wrapped source word names a row and every factor is a non-negative real, the arrangement that scales
    rows before the sum and the sum afterwards is the arrangement that weights every edge. -/
theorem forms_eq (x : Mat 100000 256) (w1 : Mat 256 64) (b1 : Vct 64) (w2 : Mat 64 47) (b2 : Vct 47)
    (dinv : Vct 100000) (sv dv : Wrd 1300000)
    (hS : ∀ e : Fin 1300000, InRows (wrap (sv (ix1 e))))
    (hD : ∀ p : Fin 100000, ∃ r : ℝ, 0 ≤ r ∧ dinv (ix1 p) = (r : EReal)) :
    kernelForm x w1 b1 w2 b2 dinv sv dv = referenceForm x w1 b1 w2 b2 dinv sv dv := by
  funext i
  obtain ⟨p, q, rfl⟩ : ∃ (p : Fin 100000) (q : Fin 47), i = ix2 p q := ⟨i 0, i 1, eq_ix2 i⟩
  have h0 : ∀ (p : Fin 100000) (t : Fin 64),
      stage0 x w1 (col dinv) (ix2 p t) = mm x w1 (ix2 p t) * dinv (ix1 p) := fun _ _ => rfl
  have hA1 : ∀ (p : Fin 100000) (t : Fin 64),
      dinv (ix1 p) * aggPre (stage0 x w1 (col dinv)) sv dv (ix2 p t) = aggEdge (mm x w1) dinv sv dv (ix2 p t) :=
    fun p t => layer_law (mm x w1) dinv sv dv hS hD _ h0 p t
  have h1 : ∀ (p : Fin 100000) (q : Fin 47),
      stage1 (aggPre (stage0 x w1 (col dinv)) sv dv) (col dinv) (row b1) w2 (ix2 p q)
        = mm (relu (addBias (aggEdge (mm x w1) dinv sv dv) b1)) w2 (ix2 p q) * dinv (ix1 p) := by
    intro p q
    show (∑ t : Fin 64, max (dinv (ix1 p) * aggPre (stage0 x w1 (col dinv)) sv dv (ix2 p t) + b1 (ix1 t)) zeroV
            * w2 (ix2 t q)) * dinv (ix1 p)
        = (∑ t : Fin 64, max (aggEdge (mm x w1) dinv sv dv (ix2 p t) + b1 (ix1 t)) zeroV * w2 (ix2 t q))
            * dinv (ix1 p)
    simp only [hA1]
  have hA2 : ∀ (p : Fin 100000) (t : Fin 47),
      dinv (ix1 p) * aggPre (stage1 (aggPre (stage0 x w1 (col dinv)) sv dv) (col dinv) (row b1) w2) sv dv (ix2 p t)
        = aggEdge (mm (relu (addBias (aggEdge (mm x w1) dinv sv dv) b1)) w2) dinv sv dv (ix2 p t) :=
    fun p t => layer_law _ dinv sv dv hS hD _ h1 p t
  exact softmax_forms
    (addBias (aggEdge (mm (relu (addBias (aggEdge (mm x w1) dinv sv dv) b1)) w2) dinv sv dv) b2)
    (fun t => dinv (ix1 p)
        * aggPre (stage1 (aggPre (stage0 x w1 (col dinv)) sv dv) (col dinv) (row b1) w2) sv dv (ix2 p t)
      + b2 (ix1 t)) p q
    (fun t => by rw [hA2]; rfl)

end Cert.Gcn

end
-- ==== Proof.Facts.lean ====
/-
  Two facts about the arrays computed from the edge list.

  The inverse root degree of a node is a non-negative real number whatever the degree is: it is zero unless the
  degree is positive, and the inverse root of a positive extended real is a positive real, or zero at plus infinity.
  The source words are row 0 of the edge list followed by the node numbers 0 … 99999; where every word of row 0 lies
  in 0 … 99999, every source word does, and wrapping leaves such a word alone.
-/
import proofs.«402308_j1743756722177_2_alg».proof.Proof.Chain
import proofs.«402308_j1743756722177_2_alg».proof.Proof.Spec
import Idealize.ShloMosaic.Lib.StableHlo.Predicate
import Idealize.ShloMosaic.Lib.ValueIdx
import Idealize.ShloMosaic.Lib.IdealHost
import Idealize.ShloMosaic.Lib.Pipeline.Value
import Idealize.ShloMosaic.PureOps.Ideal.Laws

noncomputable section

namespace Cert.KernelIdeal.Val

open Idealize.ShloMosaic Idealize.ShloMosaic.ValueIdx Cert.KernelIdeal Cert.KernelIdeal.Gen

/-- The inverse root of an extended real, kept where the number is positive and replaced by zero elsewhere, is a
    non-negative real: at minus infinity and at a real that is not positive it is the zero, at a positive real it is
    the inverse of its root, at plus infinity it is zero. -/
private theorem guarded_rsqrt_nonneg (x : EReal) :
    ∃ r : ℝ, 0 ≤ r ∧ Scalar.select (Ideal.cmp .ogt x 0) (Ideal.rsqrt x) (0 : EReal) = (r : EReal) := by
  induction x using EReal.rec with
  | bot =>
    refine ⟨0, le_rfl, ?_⟩
    have hc : Ideal.cmp .ogt (⊥ : EReal) 0 = 0#1 := by simp [Ideal.cmp]
    rw [hc, select_zero]; rfl
  | top =>
    refine ⟨0, le_rfl, ?_⟩
    have hc : Ideal.cmp .ogt (⊤ : EReal) 0 = 1#1 := by simp [Ideal.cmp]
    rw [hc, select_one, Ideal.rsqrt_top]; rfl
  | coe r =>
    by_cases hr : 0 < r
    · refine ⟨(Real.sqrt r)⁻¹, inv_nonneg.2 (Real.sqrt_nonneg r), ?_⟩
      have hc : Ideal.cmp .ogt (r : EReal) 0 = 1#1 := by simp [Ideal.cmp, hr]
      rw [hc, select_one, Ideal.rsqrt_coe, if_neg (not_lt.2 hr.le), if_neg hr.ne']
    · refine ⟨0, le_rfl, ?_⟩
      have hc : Ideal.cmp .ogt (r : EReal) 0 = 0#1 := by simp [Ideal.cmp, hr]
      rw [hc, select_zero]; rfl

/-- The entrywise inverse root of an array reads, at an index, as the inverse root of the entry there. -/
private theorem hostRsqrt_apply {s : Shape} (D : FVec Ideal s .f32) (i : s.Idx) :
    Host.rsqrt D i = Ideal.rsqrt (D i) := rfl

/-- Every node's factor is a non-negative real. -/
theorem dinvT_nonneg (ei : IVec S2x1200000 32) (p : Fin 100000) :
    ∃ r : ℝ, 0 ≤ r ∧ (dinvT ei : S100000.Idx → EReal) (ix1 p) = (r : EReal) := by
  obtain ⟨r, hr, h⟩ := guarded_rsqrt_nonneg (degT ei (ix1 p))
  refine ⟨r, hr, ?_⟩
  rw [← h]
  unfold dinvT
  rw [select_apply, cmpf_apply, Ideal.cmpf_def, broadcastInDim_scalar_apply, broadcastInDim_scalar_apply]
  rw [hostRsqrt_apply]
  simp only [id, constant_apply, Ideal.ofBits_zero_f32]

/-- A word that reads as a non-negative integer is left alone by wrapping. -/
private theorem wrap_of_nonneg (w : BitVec 32) (hw : 0 ≤ w.toInt) : Cert.Gcn.wrap w = w := by
  unfold Cert.Gcn.wrap IntOp.cmpi
  have hs : w.slt 0#32 = false := by
    rw [Bool.eq_false_iff]; intro hlt
    rw [BitVec.slt_iff_toInt_lt] at hlt
    simp at hlt; omega
  simp only [hs]
  exact select_zero _ _

/-- Below 1 200 000 the source word of edge e is entry e of row 0 of the edge list. -/
theorem srcT_apply_lt (ei : IVec S2x1200000 32) (e : Fin 1300000) (he : e.val < 1200000) :
    srcT ei (ix1 e) = ei (ix2 (0 : Fin 2) (⟨e.val, he⟩ : Fin 1200000)) := by
  unfold srcT
  refine (concatenate_pair_apply_left (t := S1300000) (s₁ := S1200000) (s₂ := S100000) (0 : Fin 1) _ _ concatenates_S1200000_S100000_S1300000_d0 (ix1 e) rfl
    (ix1 (⟨e.val, he⟩ : Fin 1200000)) (fun b => by match b with | ⟨0, _⟩ => rfl)).trans ?_
  refine (shapeCast_apply _ shapeCasts_S1x1200000_S1200000 (ix1 (⟨e.val, he⟩ : Fin 1200000))
    (ix2 (0 : Fin 1) (⟨e.val, he⟩ : Fin 1200000)) (by
      rw [Shape.rowMajor_val_two, Shape.rowMajor_val_one]; show 0 * 1200000 + e.val = e.val; omega)).trans ?_
  exact extractStridedSlice_apply ![0, 0] ei slices_S2x1200000_S1x1200000_0_0
    (ix2 (0 : Fin 1) (⟨e.val, he⟩ : Fin 1200000)) (ix2 (0 : Fin 2) (⟨e.val, he⟩ : Fin 1200000)) (fun a => by
      match a with
      | ⟨0, _⟩ => rfl
      | ⟨1, _⟩ => show e.val = 0 + e.val; omega)

/-- From 1 200 000 on the source word of edge e is the node number k with k + 1 200 000 = e. -/
theorem srcT_apply_ge (ei : IVec S2x1200000 32) (e : Fin 1300000) (k : Fin 100000) (hk : k.val + 1200000 = e.val) :
    srcT ei (ix1 e) = BitVec.ofNat 32 k.val := by
  unfold srcT
  refine (concatenate_pair_apply_right (t := S1300000) (s₁ := S1200000) (s₂ := S100000) (0 : Fin 1) _ _
    concatenates_S1200000_S100000_S1300000_d0 (ix1 e) rfl rfl (ix1 k)
    (fun b hb => by match b with | ⟨0, _⟩ => exact absurd rfl hb)
    hk).trans ?_
  exact iotaInDim_apply 32 (0 : Fin 1) (ix1 k)

/-- Where row 0 of the edge list holds node numbers, every wrapped source word names a row. -/
theorem srcT_inRows (ei : IVec S2x1200000 32)
    (h : ∀ e : Fin 1200000, 0 ≤ (ei (ix2 (0 : Fin 2) e)).toInt ∧ (ei (ix2 (0 : Fin 2) e)).toInt < 100000) :
    ∀ e : Fin 1300000, Cert.Gcn.InRows (Cert.Gcn.wrap (srcT ei (ix1 e))) := by
  intro e
  have key : 0 ≤ (srcT ei (ix1 e)).toInt ∧ (srcT ei (ix1 e)).toInt ≤ 99999 := by
    by_cases he : e.val < 1200000
    · rw [srcT_apply_lt ei e he]
      have := h ⟨e.val, he⟩
      omega
    · obtain ⟨k, hk⟩ : ∃ k : Fin 100000, k.val + 1200000 = e.val :=
        ⟨⟨e.val - 1200000, by have := e.isLt; omega⟩, Nat.sub_add_cancel (Nat.le_of_not_lt he)⟩
      have hk2 : k.val < 2 ^ 31 := by have := k.isLt; omega
      rw [srcT_apply_ge ei e k hk, StableHlo.Predicate.toInt_ofNat_small _ hk2]
      have := k.isLt
      omega
  rw [wrap_of_nonneg _ key.1]
  exact key

end Cert.KernelIdeal.Val

end
-- ==== Proof.PreDecode.lean ====
/-
  What the precondition says about the edge list: every word of its row 0 (the edges' sources), read signed, lies in
  0 … 99999. The precondition is a conjunction of "all" tests; its last two are "row 0 ≥ 0 everywhere" and
  "row 0 < 100000 everywhere".
-/
import proofs.«402308_j1743756722177_2_alg».proof.Pre_finite_inputs
import proofs.«402308_j1743756722177_2_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx
import Idealize.ShloMosaic.Lib.Pipeline.Value

noncomputable section

namespace Cert.Pre_finite_inputs.Decode

open Idealize.ShloMosaic Idealize.ShloMosaic.ValueIdx Cert.Pre_finite_inputs

/-- Row 0 of the edge list, cut out as a [1 × E] block and flattened to a vector, read at position e, is the edge
    list's word at row 0, column e: flat position e of the block is (0, e), which the cut sends to (0 + 0, 0 + e). -/
private theorem row0_apply [Cert.Pre_finite_inputs.Facts] (ei : IVec S2x1200000 32) (e : Fin 1200000) :
    shapeCast S1200000 (extractStridedSlice S1x1200000 ![0, 0] ei Facts.slices_S2x1200000_S1x1200000_0_0)
        Facts.shapeCasts_S1x1200000_S1200000 (ix1 e)
      = ei (ix2 (0 : Fin 2) e) := by
  rw [shapeCast_apply _ _ (ix1 e) (ix2 (0 : Fin 1) e)
    (by rw [Shape.rowMajor_val_two, Shape.rowMajor_val_one]; show (0 : Nat) * _ + e.val = e.val; omega)]
  refine extractStridedSlice_apply _ _ _ _ _ fun a => ?_
  match a with
  | ⟨0, _⟩ => rfl
  | ⟨1, _⟩ => show e.val = 0 + e.val; omega

/-- The shape with no axes has exactly one index. -/
private instance : Subsingleton S_.Idx := ⟨fun a b => funext fun d => d.elim0⟩

/-- The signed value of the word 100000. -/
private theorem toInt_hundred_thousand : (100000#32 : BitVec 32).toInt = 100000 := by decide

/-- Under the precondition every source word of the edge list is a node number. -/
theorem src_range [Cert.Pre_finite_inputs.Facts]
    (x0 : FVec Ideal S100000x256 .f32) (ei : IVec S2x1200000 32) (x2 : FVec Ideal S256x64 .f32)
    (x3 : FVec Ideal S64 .f32) (x4 : FVec Ideal S64x47 .f32) (x5 : FVec Ideal S47 .f32)
    (h : Cert.Pre_finite_inputs.fn (F := Ideal) x0 ei x2 x3 x4 x5 = fun _ => 1#1) :
    ∀ e : Fin 1200000, 0 ≤ (ei (ix2 (0 : Fin 2) e)).toInt ∧ (ei (ix2 (0 : Fin 2) e)).toInt < 100000 := by
  intro e
  have h0 := congrFun h ValueIdx.ix0
  dsimp only [fn, fn_part1, fn_part2] at h0
  -- the outermost conjunction: (… ∧ "row 0 ≥ 0 everywhere") ∧ "row 0 < 100000 everywhere"
  obtain ⟨h29, h34⟩ := IntOp.andi_eq_one.1 h0
  obtain ⟨-, h28⟩ := IntOp.andi_eq_one.1 h29
  -- each "everywhere" test, read at position e
  have hge := Host.reduce_andi_all _ _ _ _ _ h28 (ix1 e)
  have hlt := Host.reduce_andi_all _ _ _ _ _ h34 (ix1 e)
  have hge' : IntOp.cmpi .sge
      (shapeCast S1200000 (extractStridedSlice S1x1200000 ![0, 0] ei Facts.slices_S2x1200000_S1x1200000_0_0)
        Facts.shapeCasts_S1x1200000_S1200000 (ix1 e)) (0#32) = 1#1 := hge
  have hlt' : IntOp.cmpi .slt
      (shapeCast S1200000 (extractStridedSlice S1x1200000 ![0, 0] ei Facts.slices_S2x1200000_S1x1200000_0_0)
        Facts.shapeCasts_S1x1200000_S1200000 (ix1 e)) (100000#32) = 1#1 := hlt
  rw [row0_apply, IntOp.cmpi_sge] at hge'
  rw [row0_apply, IntOp.cmpi_slt, toInt_hundred_thousand] at hlt'
  exact ⟨by simpa using hge', hlt'⟩

end Cert.Pre_finite_inputs.Decode

end
-- ==== Proof.lean ====
/-
  A two-layer graph convolution with symmetric normalisation and a row-wise log-softmax, over 100 000 nodes and
  1 200 000 edges plus one self loop per node: the kernel's program against the plain reference, over the extended reals.

  Both programs compute, from the edge list, the source and destination words of the 1 300 000 edges, each node's
  degree and its inverse root dinv (zero where the degree is not positive); these are the same operations in both.
  A layer of the reference sums, per destination node d, the rows H[src e] weighted by dinv(src e) · dinv(dst e). The
  kernel's program scales row i of H by dinv i inside the launch that produces it, sums the scaled rows per
  destination on the host, and multiplies the sum for d by dinv d inside the next launch. The two agree because every
  edge in the sum for d has destination d, and because dinv d is a non-negative real number, over which multiplication
  distributes through any sum of extended reals (no finiteness of the features is needed). The remaining operations —
  bias, rectification, the second transform, the log-softmax with the row maximum taken from minus infinity — are the
  same on both sides.

  The kernel's program takes rows with a filling take, which gives a fill value where a (wrapped) source word names no
  row; the reference reads with a clamping read. They agree where every source word of the edge list is a node
  number, which is what the precondition's two conjuncts on row 0 of the edge list say. Destination words need no
  condition: an edge whose destination names no node is dropped by both programs' sums alike.

  Frames: the two kernel programs' by their launches over the generated segments; the reference's is its run with the
  result dropped. The idealization changed no operation, so there is nothing to preserve.
-/
import proofs.«402308_j1743756722177_2_alg».proof.Defs
import proofs.«402308_j1743756722177_2_alg».proof.Proof.Gen.Kernel
import proofs.«402308_j1743756722177_2_alg».proof.Proof.Gen.Kernel.Frame
import proofs.«402308_j1743756722177_2_alg».proof.Proof.Gen.KernelIdeal
import proofs.«402308_j1743756722177_2_alg».proof.Proof.Gen.KernelIdeal.Frame
import proofs.«402308_j1743756722177_2_alg».proof.Proof.Gen.ReferenceIdeal
import proofs.«402308_j1743756722177_2_alg».proof.Proof.Gen.Pre_finite_inputs
import proofs.«402308_j1743756722177_2_alg».proof.Proof.KRun
import proofs.«402308_j1743756722177_2_alg».proof.Proof.KValue
import proofs.«402308_j1743756722177_2_alg».proof.Proof.RefRun
import proofs.«402308_j1743756722177_2_alg».proof.Proof.RefValue
import proofs.«402308_j1743756722177_2_alg».proof.Proof.Bridge
import proofs.«402308_j1743756722177_2_alg».proof.Proof.Facts
import proofs.«402308_j1743756722177_2_alg».proof.Proof.PreDecode
import Idealize.ShloMosaic.Adequacy
import Idealize.ShloMosaic.Init

noncomputable section

namespace Cert.Proof

open Idealize.ShloMosaic Idealize.ShloMosaic.ValueIdx Idealize.SL.Sem

/-- Run from memories that agree on the arguments, both idealized programs end with the network's value in their
    result arrays: the kernel's in the arrangement that scales before and after the sums, the reference's in the
    arrangement that weights every edge, and the two arrangements are one function under the precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Gcn.kernelForm (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (Cert.KernelIdeal.Val.dinvT (m ((c.tc : Thread Cert.KernelIdeal.nD Cert.KernelIdeal.τ).loc Cert.KernelIdeal.main_arg1))) (Cert.KernelIdeal.Val.srcT (m ((c.tc : Thread Cert.KernelIdeal.nD Cert.KernelIdeal.τ).loc Cert.KernelIdeal.main_arg1))) (Cert.KernelIdeal.Val.dstT (m ((c.tc : Thread Cert.KernelIdeal.nD Cert.KernelIdeal.τ).loc Cert.KernelIdeal.main_arg1))), ?_, ?_⟩
  · exact (θ_run Cert.KernelIdeal.defs _ _).mono
      (fun r h c => ⟨(h c).1.trans (Cert.KernelIdeal.Val.kernel_value m ρ c), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.ref_value m' c, (hagree c).1, (hagree c).2.1, (hagree c).2.2.1, (hagree c).2.2.2.1,
      (hagree c).2.2.2.2.1, (hagree c).2.2.2.2.2]
    exact (Cert.Gcn.forms_eq _ _ _ _ _ _ _ _
      (Cert.KernelIdeal.Val.srcT_inRows _ (Cert.Pre_finite_inputs.Decode.src_range _ _ _ _ _ _ (hpre c)))
      (Cert.KernelIdeal.Val.dinvT_nonneg _)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
